-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S32x16 : Shape := ⟨2, ![32, 16]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32x16 : S_.BroadcastsInDim S32x16 (![] : Fin 0 → Fin S32x16.rank)
  reducesTo_S32x16_S_d0_1 : S32x16.ReducesTo [0, 1] S_

variable [Facts]

def fn_part2 {F : FTy → Type} [FloatOps F] (main_arg7 : FVec F S1024x1024 .f32) (main_arg8 : FVec F S1024 .f32) (main_arg9 : FVec F S32x16 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S32x16 .f32 := Host.absf main_arg9
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  main_v48

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S32x16 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S32x16 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S32x16 : Shape := ⟨2, ![32, 16]⟩
abbrev S8192x1024 : Shape := ⟨2, ![8192, 1024]⟩
abbrev S3072x1024 : Shape := ⟨2, ![3072, 1024]⟩
abbrev S1024x3072 : Shape := ⟨2, ![1024, 3072]⟩
abbrev S3072 : Shape := ⟨1, ![3072]⟩
abbrev S8192x3072 : Shape := ⟨2, ![8192, 3072]⟩
abbrev S512x1024 : Shape := ⟨2, ![512, 1024]⟩
abbrev S512x3072 : Shape := ⟨2, ![512, 3072]⟩
abbrev S1x3072 : Shape := ⟨2, ![1, 3072]⟩
abbrev S4x2048x16x64 : Shape := ⟨4, ![4, 2048, 16, 64]⟩
abbrev S16x4x2048x64 : Shape := ⟨4, ![16, 4, 2048, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x32 : Shape := ⟨2, ![16, 32]⟩
abbrev S2048x2048x1 : Shape := ⟨3, ![2048, 2048, 1]⟩
abbrev S16x2048x2048 : Shape := ⟨3, ![16, 2048, 2048]⟩
abbrev S1x4x1024x64 : Shape := ⟨4, ![1, 4, 1024, 64]⟩
abbrev S1x4x256x64 : Shape := ⟨4, ![1, 4, 256, 64]⟩
abbrev S1x1024x256 : Shape := ⟨3, ![1, 1024, 256]⟩
abbrev S4x1024x1 : Shape := ⟨3, ![4, 1024, 1]⟩
abbrev S4x1024x64 : Shape := ⟨3, ![4, 1024, 64]⟩
abbrev S4x256x64 : Shape := ⟨3, ![4, 256, 64]⟩
abbrev S1024x256 : Shape := ⟨2, ![1024, 256]⟩
abbrev S4x1024x256 : Shape := ⟨3, ![4, 1024, 256]⟩
abbrev S4x1024 : Shape := ⟨2, ![4, 1024]⟩
abbrev S1x1024 : Shape := ⟨2, ![1, 1024]⟩

abbrev nBuf : Space → Nat
  | .hbm => 78
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32x16, .f32⟩
  | .hbm, ⟨10, _⟩ => ⟨S8192x1024, .f32⟩
  | .hbm, ⟨11, _⟩ => ⟨S3072x1024, .f32⟩
  | .hbm, ⟨12, _⟩ => ⟨S1024x3072, .f32⟩
  | .hbm, ⟨13, _⟩ => ⟨S1024x3072, .bf16⟩
  | .hbm, ⟨14, _⟩ => ⟨S3072, .f32⟩
  | .hbm, ⟨15, _⟩ => ⟨S8192x3072, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S4x2048x16x64, .bf16⟩
  | .hbm, ⟨20, _⟩ => ⟨S16x4x2048x64, .bf16⟩
  | .hbm, ⟨21, _⟩ => ⟨S4x2048x16x64, .bf16⟩
  | .hbm, ⟨22, _⟩ => ⟨S16x4x2048x64, .bf16⟩
  | .hbm, ⟨23, _⟩ => ⟨S4x2048x16x64, .bf16⟩
  | .hbm, ⟨24, _⟩ => ⟨S16x4x2048x64, .bf16⟩
  | .hbm, ⟨25, _⟩ => ⟨S2048, .i32⟩
  | .hbm, ⟨26, _⟩ => ⟨S1x2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i1⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .i32⟩
  | .hbm, ⟨50, _⟩ => ⟨S_, .i32⟩
  | .hbm, ⟨51, _⟩ => ⟨S2048x2048, .i32⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i32⟩
  | .hbm, ⟨56, _⟩ => ⟨S2048x2048, .i32⟩
  | .hbm, ⟨57, _⟩ => ⟨S_, .i32⟩
  | .hbm, ⟨58, _⟩ => ⟨S2048x2048, .i32⟩
  | .hbm, ⟨59, _⟩ => ⟨S2048x2048, .i32⟩
  | .hbm, ⟨60, _⟩ => ⟨S32x16, .bf16⟩
  | .hbm, ⟨61, _⟩ => ⟨S16x32, .bf16⟩
  | .hbm, ⟨62, _⟩ => ⟨S_, .i32⟩
  | .hbm, ⟨63, _⟩ => ⟨S2048x2048, .i32⟩
  | .hbm, ⟨64, _⟩ => ⟨S2048x2048, .i1⟩
  | .hbm, ⟨65, _⟩ => ⟨S_, .i32⟩
  | .hbm, ⟨66, _⟩ => ⟨S2048x2048, .i32⟩
  | .hbm, ⟨67, _⟩ => ⟨S2048x2048, .i32⟩
  | .hbm, ⟨68, _⟩ => ⟨S2048x2048, .i32⟩
  | .hbm, ⟨69, _⟩ => ⟨S2048x2048x1, .i32⟩
  | .hbm, ⟨70, _⟩ => ⟨S16x2048x2048, .bf16⟩
  | .hbm, ⟨71, _⟩ => ⟨S16x4x2048x64, .bf16⟩
  | .hbm, ⟨72, _⟩ => ⟨S4x2048x16x64, .bf16⟩
  | .hbm, ⟨73, _⟩ => ⟨S8192x1024, .bf16⟩
  | .hbm, ⟨74, _⟩ => ⟨S1024x1024, .f32⟩
  | .hbm, ⟨75, _⟩ => ⟨S1024x1024, .bf16⟩
  | .hbm, ⟨76, _⟩ => ⟨S8192x1024, .f32⟩
  | .hbm, ⟨77, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x4x1024x64, .bf16⟩
  | .local _ .vmem, ⟨7, _⟩ => ⟨S1x4x1024x64, .bf16⟩
  | .local _ .vmem, ⟨8, _⟩ => ⟨S1x4x256x64, .bf16⟩
  | .local _ .vmem, ⟨9, _⟩ => ⟨S1x4x256x64, .bf16⟩
  | .local _ .vmem, ⟨10, _⟩ => ⟨S1x4x256x64, .bf16⟩
  | .local _ .vmem, ⟨11, _⟩ => ⟨S1x4x256x64, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x4x1024x64, .bf16⟩
  | .local _ .vmem, ⟨15, _⟩ => ⟨S1x4x1024x64, .bf16⟩
  | .local _ .vmem, ⟨16, _⟩ => ⟨S4x1024x1, .f32⟩
  | .local _ .vmem, ⟨17, _⟩ => ⟨S4x1024x1, .f32⟩
  | .local _ .vmem, ⟨18, _⟩ => ⟨S4x1024x64, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024, .f32⟩
  | .local _ .vmem, ⟨23, _⟩ => ⟨S1024x1024, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_c_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_3 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 2, 8], ![false, false, false]⟩

def k1_cond2 (i : grid1.Coords) : BitVec 1 :=
  let arg2 : BitVec 32 := BitVec.ofNat 32 (i 2).val
  let c7_i32 : BitVec 32 := 7#32
  let v48 : BitVec 1 := Scalar.cmpi .eq arg2 c7_i32
  let v49 : BitVec 32 := Scalar.extui v48
  let c0_i32_40 : BitVec 32 := 0#32
  let v50 : BitVec 1 := Scalar.cmpi .ne v49 c0_i32_40
  v50

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x4x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x4x256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x4x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x4x1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  shapeCasts_S8192x1024_S4x2048x16x64 : S8192x1024.ShapeCasts S4x2048x16x64
  transposes_S4x2048x16x64_S16x4x2048x64_2_0_1_3 : S4x2048x16x64.Transposes [2, 0, 1, 3] S16x4x2048x64
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  transposes_S32x16_S16x32_1_0 : S32x16.Transposes [1, 0] S16x32
  bcast_S2048x2048_S2048x2048x1_0_1 : S2048x2048.BroadcastsInDim S2048x2048x1 (![0, 1] : Fin 2 → Fin S2048x2048x1.rank)
  inb_S4x1024x1_S4x1024x1_0_0_0 : ∀ a, (![0, 0, 0] : Fin 3 → Nat) a + S4x1024x1.size a ≤ S4x1024x1.size a
  h_S4x1024x1 : 0 < S4x1024x1.numel
  shapeCasts_S4x1024x1_S4x1024x1 : S4x1024x1.ShapeCasts S4x1024x1
  inb_S4x1024x64_S4x1024x64_0_0_0 : ∀ a, (![0, 0, 0] : Fin 3 → Nat) a + S4x1024x64.size a ≤ S4x1024x64.size a
  h_S4x1024x64 : 0 < S4x1024x64.numel
  shapeCasts_S4x1024x64_S4x1024x64 : S4x1024x64.ShapeCasts S4x1024x64
  inb_S1x4x1024x64_S1x4x1024x64_0_0_0_0 : ∀ a, (![0, 0, 0, 0] : Fin 4 → Nat) a + S1x4x1024x64.size a ≤ S1x4x1024x64.size a
  h_S1x4x1024x64 : 0 < S1x4x1024x64.numel
  shapeCasts_S1x4x1024x64_S4x1024x64 : S1x4x1024x64.ShapeCasts S4x1024x64
  inb_S1x4x256x64_S1x4x256x64_0_0_0_0 : ∀ a, (![0, 0, 0, 0] : Fin 4 → Nat) a + S1x4x256x64.size a ≤ S1x4x256x64.size a
  h_S1x4x256x64 : 0 < S1x4x256x64.numel
  shapeCasts_S1x4x256x64_S4x256x64 : S1x4x256x64.ShapeCasts S4x256x64
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  broadcasts_S1x1024x256_S4x1024x256 : S1x1024x256.Broadcasts S4x1024x256
  reduces_S4x1024x256_S4x1024 : S4x1024x256.Reduces [2] S4x1024
  shapeCasts_S4x1024_S4x1024x1 : S4x1024.ShapeCasts S4x1024x1
  broadcasts_S4x1024x1_S4x1024x256 : S4x1024x1.Broadcasts S4x1024x256
  broadcasts_S4x1024x1_S4x1024x64 : S4x1024x1.Broadcasts S4x1024x64
  shapeCasts_S4x1024x64_S1x4x1024x64 : S4x1024x64.ShapeCasts S1x4x1024x64
  packedbf16_S1x4x1024x64_S1x4x1024x64_0_0_0_0 : (Rect.unit (s := S1x4x1024x64) ![0, 0, 0, 0] S1x4x1024x64.size inb_S1x4x1024x64_S1x4x1024x64_0_0_0_0).PackedRows (EltTy.packing .bf16)
  transposes_S16x4x2048x64_S4x2048x16x64_1_2_0_3 : S16x4x2048x64.Transposes [1, 2, 0, 3] S4x2048x16x64
  shapeCasts_S4x2048x16x64_S8192x1024 : S4x2048x16x64.ShapeCasts S8192x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  gather_S16x32_S2048x2048x1_S16x2048x2048_0_1_n_n_1_2_161_wf : GatherDims.WF S16x32 S2048x2048x1 S16x2048x2048 [0] [1] [] [1] [] 2 ![16, 1]
  dot_S4x1024x64_S4x256x64_S4x1024x256_2_2_1_1_0_0_wf : DotDims.WF S4x1024x64 S4x256x64 S4x1024x256 [2] [2] [1] [1] [0] [0]
  dot_S4x1024x256_S4x256x64_S4x1024x64_2_1_1_2_0_0_wf : DotDims.WF S4x1024x256 S4x256x64 S4x1024x64 [2] [1] [1] [2] [0] [0]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x1024x64.size a ≤ S16x4x2048x64.size a
  hwx1_0 : ∀ i : grid1.Coords, EltTy.bits .bf16 = 32 ∨ (Rect.block (s := S16x4x2048x64) S1x4x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x256x64.size a ≤ S16x4x2048x64.size a
  hwx1_1 : ∀ i : grid1.Coords, EltTy.bits .bf16 = 32 ∨ (Rect.block (s := S16x4x2048x64) S1x4x256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x256x64.size a ≤ S16x4x2048x64.size a
  hwx1_2 : ∀ i : grid1.Coords, EltTy.bits .bf16 = 32 ∨ (Rect.block (s := S16x4x2048x64) S1x4x256x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S16x2048x2048.size a
  hwx1_3 : ∀ i : grid1.Coords, EltTy.bits .bf16 = 32 ∨ (Rect.block (s := S16x2048x2048) S1x1024x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4x1024x64.size a ≤ S16x4x2048x64.size a
  hwx1_4 : ∀ i : grid1.Coords, EltTy.bits .bf16 = 32 ∨ (Rect.block (s := S16x4x2048x64) S1x4x1024x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def gather_S16x32_S2048x2048x1_S16x2048x2048_0_1_n_n_1_2_161 : GatherDims S16x32 S2048x2048x1 S16x2048x2048 where
  offsetDims := [0]
  collapsedSliceDims := [1]
  operandBatchingDims := []
  startIndicesBatchingDims := []
  startIndexMap := [1]
  indexVectorDim := 2
  sliceSizes := ![16, 1]
  wf := gather_S16x32_S2048x2048x1_S16x2048x2048_0_1_n_n_1_2_161_wf
def dot_S4x1024x64_S4x256x64_S4x1024x256_2_2_1_1_0_0 : DotDims S4x1024x64 S4x256x64 S4x1024x256 where
  lhsContracting := [2]
  rhsContracting := [2]
  lhsNonContracting := [1]
  rhsNonContracting := [1]
  lhsBatch := [0]
  rhsBatch := [0]
  wf := dot_S4x1024x64_S4x256x64_S4x1024x256_2_2_1_1_0_0_wf
def dot_S4x1024x256_S4x256x64_S4x1024x64_2_1_1_2_0_0 : DotDims S4x1024x256 S4x256x64 S4x1024x64 where
  lhsContracting := [2]
  rhsContracting := [1]
  lhsNonContracting := [1]
  rhsNonContracting := [2]
  lhsBatch := [0]
  rhsBatch := [0]
  wf := dot_S4x1024x256_S4x256x64_S4x1024x64_2_1_1_2_0_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x4x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x4x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x4x256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x4x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v53) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S32x16 : Shape := ⟨2, ![32, 16]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S1x16x2048x2048 : Shape := ⟨4, ![1, 16, 2048, 2048]⟩
abbrev S4x16x2048 : Shape := ⟨3, ![4, 16, 2048]⟩
abbrev S4x16x2048x1 : Shape := ⟨4, ![4, 16, 2048, 1]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32x16, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S4x2048x16x64, .f32⟩
  | .hbm, ⟨15, _⟩ => ⟨S4x16x2048x64, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x16x64, .f32⟩
  | .hbm, ⟨21, _⟩ => ⟨S4x16x2048x64, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x16x64, .f32⟩
  | .hbm, ⟨27, _⟩ => ⟨S4x16x2048x64, .f32⟩
  | .hbm, ⟨28, _⟩ => ⟨S4x16x2048x2048, .f32⟩
  | .hbm, ⟨29, _⟩ => ⟨S_, .f32⟩
  | .hbm, ⟨30, _⟩ => ⟨S4x16x2048x2048, .f32⟩
  | .hbm, ⟨31, _⟩ => ⟨S4x16x2048x2048, .f32⟩
  | .hbm, ⟨32, _⟩ => ⟨S2048, .i32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S_, .i32⟩
  | .hbm, ⟨40, _⟩ => ⟨S2048x2048, .i32⟩
  | .hbm, ⟨41, _⟩ => ⟨S2048x2048, .i1⟩
  | .hbm, ⟨42, _⟩ => ⟨S_, .i32⟩
  | .hbm, ⟨43, _⟩ => ⟨S2048x2048, .i32⟩
  | .hbm, ⟨44, _⟩ => ⟨S2048x2048, .i32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .i32⟩
  | .hbm, ⟨57, _⟩ => ⟨S_, .i32⟩
  | .hbm, ⟨58, _⟩ => ⟨S2048x2048, .i32⟩
  | .hbm, ⟨59, _⟩ => ⟨S2048x2048, .i32⟩
  | .hbm, ⟨60, _⟩ => ⟨S_, .i32⟩
  | .hbm, ⟨61, _⟩ => ⟨S2048x2048, .i32⟩
  | .hbm, ⟨62, _⟩ => ⟨S2048x2048, .i32⟩
  | .hbm, ⟨63, _⟩ => ⟨S2048x2048, .i32⟩
  | .hbm, ⟨64, _⟩ => ⟨S_, .i32⟩
  | .hbm, ⟨65, _⟩ => ⟨S2048x2048, .i32⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S_, .i32⟩
  | .hbm, ⟨71, _⟩ => ⟨S2048x2048, .i32⟩
  | .hbm, ⟨72, _⟩ => ⟨S2048x2048, .i32⟩
  | .hbm, ⟨73, _⟩ => ⟨S2048x2048, .i32⟩
  | .hbm, ⟨74, _⟩ => ⟨S2048x2048x1, .i32⟩
  | .hbm, ⟨75, _⟩ => ⟨S2048x2048x16, .f32⟩
  | .hbm, ⟨76, _⟩ => ⟨S16x2048x2048, .f32⟩
  | .hbm, ⟨77, _⟩ => ⟨S1x16x2048x2048, .f32⟩
  | .hbm, ⟨78, _⟩ => ⟨S4x16x2048x2048, .f32⟩
  | .hbm, ⟨79, _⟩ => ⟨S4x16x2048x2048, .f32⟩
  | .hbm, ⟨80, _⟩ => ⟨S_, .f32⟩
  | .hbm, ⟨81, _⟩ => ⟨S4x16x2048, .f32⟩
  | .hbm, ⟨82, _⟩ => ⟨S_, .f32⟩
  | .hbm, ⟨83, _⟩ => ⟨S4x16x2048, .f32⟩
  | .hbm, ⟨84, _⟩ => ⟨S4x16x2048, .f32⟩
  | .hbm, ⟨85, _⟩ => ⟨S4x16x2048x1, .f32⟩
  | .hbm, ⟨86, _⟩ => ⟨S4x16x2048x2048, .f32⟩
  | .hbm, ⟨87, _⟩ => ⟨S4x16x2048x2048, .f32⟩
  | .hbm, ⟨88, _⟩ => ⟨S4x16x2048x2048, .f32⟩
  | .hbm, ⟨89, _⟩ => ⟨S_, .f32⟩
  | .hbm, ⟨90, _⟩ => ⟨S4x16x2048, .f32⟩
  | .hbm, ⟨91, _⟩ => ⟨S4x16x2048x1, .f32⟩
  | .hbm, ⟨92, _⟩ => ⟨S4x16x2048x2048, .f32⟩
  | .hbm, ⟨93, _⟩ => ⟨S4x16x2048x2048, .f32⟩
  | .hbm, ⟨94, _⟩ => ⟨S4x16x2048x64, .f32⟩
  | .hbm, ⟨95, _⟩ => ⟨S4x2048x16x64, .f32⟩
  | .hbm, ⟨96, _⟩ => ⟨S4x2048x1024, .f32⟩
  | .hbm, ⟨97, _⟩ => ⟨S4x2048x1024, .f32⟩
  | .hbm, ⟨98, _⟩ => ⟨S1x1x1024, .f32⟩
  | .hbm, ⟨99, _⟩ => ⟨S4x2048x1024, .f32⟩
  | .hbm, ⟨100, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_c_0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_4 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  transposes_S2048x2048x16_S16x2048x2048_2_0_1 : S2048x2048x16.Transposes [2, 0, 1] S16x2048x2048
  bcast_S16x2048x2048_S1x16x2048x2048_1_2_3 : S16x2048x2048.BroadcastsInDim S1x16x2048x2048 (![1, 2, 3] : Fin 3 → Fin S1x16x2048x2048.rank)
  bcast_S1x16x2048x2048_S4x16x2048x2048_0_1_2_3 : S1x16x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  gather_S32x16_S2048x2048x1_S2048x2048x16_2_0_n_n_0_2_116_wf : GatherDims.WF S32x16 S2048x2048x1 S2048x2048x16 [2] [0] [] [0] [] 2 ![1, 16]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def gather_S32x16_S2048x2048x1_S2048x2048x16_2_0_n_n_0_2_116 : GatherDims S32x16 S2048x2048x1 S2048x2048x16 where
  offsetDims := [2]
  collapsedSliceDims := [0]
  operandBatchingDims := []
  startIndicesBatchingDims := []
  startIndexMap := [0]
  indexVectorDim := 2
  sliceSizes := ![1, 16]
  wf := gather_S32x16_S2048x2048x1_S2048x2048x16_2_0_n_n_0_2_116_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Kernel.Reg0.lean ====
/-
  The first projection launch (the fused q/k/v projection): sixteen grid points, each taking a block of 512 rows
  of the flattened input, the whole transposed weight and the whole bias, and storing the 512 x 3072 block
  x·W + b of the result. The body reads its three inputs whole and stores its one output whole, keeps nothing
  between points, so what each point leaves is one function of the three input blocks.
-/
import proofs.«423465_j4655744549114_3_alg».proof.Proof.Gen.Kernel.Launch
import proofs.«423465_j4655744549114_3_alg».proof.Proof.Gen.Kernel.Skeleton
import proofs.«423465_j4655744549114_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output block after the body: its one whole store, the product-plus-bias payload of the three loads. -/
def out0_3 (x0 : Vec F S512x1024 .f32) (x1 : Vec F S1024x3072 .bf16) (x2 : Vec F S3072 .f32) : Vec F S512x3072 .bf16 :=
  View.canon [⟨r0_3, k0_pay1 (View.ld x0 r0_0) (View.ld x1 r0_1) (View.ld x2 r0_2)⟩]

theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging memrefs: the inputs keep their contents, the output ends at `out0_3` of them. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The launch's proof data on core `c`: the arrays as the launch finds them; after the body each input's buffer
    at its block and the output's at `out0_3` of the three blocks; nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.Reg2.lean ====
/-
  The output projection launch: eight grid points, each taking a block of 1024 rows of the attention result
  (heads merged back into 1024 columns), the whole transposed output weight and the whole bias, and storing
  the 1024 x 1024 block a·W + b of the result. As in the first projection the body reads its inputs whole,
  stores its output whole and keeps nothing between points.
-/
import proofs.«423465_j4655744549114_3_alg».proof.Proof.Gen.Kernel.Launch
import proofs.«423465_j4655744549114_3_alg».proof.Proof.Gen.Kernel.Skeleton
import proofs.«423465_j4655744549114_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0
abbrev r2_3 : Rect S1024x1024 := Rect.unit (s := S1024x1024) ![0, 0] S1024x1024.size inb_S1024x1024_S1024x1024_0_0

/-- The output block after the body: its one whole store, the product-plus-bias payload of the three loads. -/
def out2_3 (x0 : Vec F S1024x1024 .bf16) (x1 : Vec F S1024x1024 .bf16) (x2 : Vec F S1024 .f32) : Vec F S1024x1024 .f32 :=
  View.canon [⟨r2_3, k2_pay1 (View.ld x0 r2_0) (View.ld x1 r2_1) (View.ld x2 r2_2)⟩]

theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

set_option maxHeartbeats 1000000 in
/-- The body on whole staging memrefs: the inputs keep their contents, the output ends at `out2_3` of them. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .f32) (harg4 : arg4.IsWhole)
    (x0 : Vec F S1024x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The launch's proof data on core `c`: the arrays as the launch finds them; after the body each input's buffer
    at its block and the output's at `out2_3` of the three blocks; nothing kept between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.Kernel.Reg1Defs.lean ====
/-
  The attention launch: 256 grid points (head, query block of 1024 rows, key block of 256 rows; the key block
  runs fastest). The body carries three scratch arrays between points — the running row maximum, the running
  normaliser and the running weighted sum of value rows — resets them at the first key block of each (head,
  query block), updates them at every point from the point's query, key, value and bias blocks, and stores the
  output block (weighted sum divided by normaliser) at the last key block only. This module names the update
  as one function of the blocks and the carried triple, the triple after each point by recursion on the point,
  the invariant that holds the scratch arrays at that triple between points, and the launch's proof data.
-/
import proofs.«423465_j4655744549114_3_alg».proof.Proof.Gen.Kernel.Launch
import proofs.«423465_j4655744549114_3_alg».proof.Proof.Gen.Kernel.Skeleton
import proofs.«423465_j4655744549114_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried triple: running maximum, running normaliser, running weighted sum. -/
abbrev Sc (F : FTy → Type) : Type := Vec F S4x1024x1 .f32 × Vec F S4x1024x1 .f32 × Vec F S4x1024x64 .f32

/-- What the reset at a first key block stores: minus infinity, zero, zero. -/
def scInit : Sc F := (k1_pay5, k1_pay6, k1_pay7)

/-- One point's update of the carried triple from the point's query, key, value and bias blocks: the new maximum is the
    old one against the block's row maxima of the logits; the normaliser and the weighted sum are rescaled by
    exp (old maximum − new maximum) and take the block's terms. -/
def scStep (x0 : Vec F S1x4x1024x64 .bf16) (x1 x2 : Vec F S1x4x256x64 .bf16) (x3 : Vec F S1x1024x256 .bf16) (s : Sc F) : Sc F :=
  (k1_pay3 (k1_pay10 x0 x1 x3 s.1),
   k1_pay1 (k1_pay11 x0 x1 x3 s.1 s.1) (k1_pay12 x0 x1 x3 s.1) s.2.1,
   k1_pay2 (k1_pay8 x2) (k1_pay11 x0 x1 x3 s.1 s.1) (k1_pay12 x0 x1 x3 s.1) s.2.2)

/-- What the last key block stores into the output block: the weighted sum divided by the normaliser. -/
def outFin (s : Sc F) : Vec F S1x4x1024x64 .bf16 := k1_pay4 s.2.2 s.2.1

/-- The carried triple after the body at position `n`: at a first key block (position ≡ 0 mod 8) the update of the reset
    triple, elsewhere the update of what the position before left. -/
def scAt1 (c : Dev nD) : (n : ℕ) → n < cfg1.N → Sc F
  | 0, hn => scStep (iblk1 V c 0 ⟨0, hn⟩) (iblk1 V c 1 ⟨0, hn⟩) (iblk1 V c 2 ⟨0, hn⟩) (iblk1 V c 3 ⟨0, hn⟩) scInit
  | n + 1, hn =>
    if (n + 1) % 8 = 0 then
      scStep (iblk1 V c 0 ⟨n + 1, hn⟩) (iblk1 V c 1 ⟨n + 1, hn⟩) (iblk1 V c 2 ⟨n + 1, hn⟩) (iblk1 V c 3 ⟨n + 1, hn⟩) scInit
    else
      scStep (iblk1 V c 0 ⟨n + 1, hn⟩) (iblk1 V c 1 ⟨n + 1, hn⟩) (iblk1 V c 2 ⟨n + 1, hn⟩) (iblk1 V c 3 ⟨n + 1, hn⟩) (scAt1 c n (Nat.lt_of_succ_lt hn))

theorem scAt1_first (c : Dev nD) (t : Fin cfg1.N) (h : t.val % 8 = 0) :
    scAt1 V c t.val t.isLt = scStep (iblk1 V c 0 t) (iblk1 V c 1 t) (iblk1 V c 2 t) (iblk1 V c 3 t) scInit := by
  obtain ⟨n, hn⟩ := t
  cases n with
  | zero => rfl
  | succ n => exact if_pos h

theorem scAt1_next (c : Dev nD) (t : Fin cfg1.N) (h : ¬ t.val % 8 = 0) :
    scAt1 V c t.val t.isLt = scStep (iblk1 V c 0 t) (iblk1 V c 1 t) (iblk1 V c 2 t) (iblk1 V c 3 t)
      (scAt1 V c (t.val - 1) (Nat.lt_of_le_of_lt (Nat.sub_le _ _) t.isLt)) := by
  obtain ⟨n, hn⟩ := t
  cases n with
  | zero => exact absurd (Nat.zero_mod _) h
  | succ n => exact if_neg h

/-- The three scratch arrays as whole memrefs. -/
abbrev scM0 : Memref sig .tc .vmem S4x1024x1 .f32 := Memref.whole cc1_scratch0
abbrev scM1 : Memref sig .tc .vmem S4x1024x1 .f32 := Memref.whole cc1_scratch1
abbrev scM2 : Memref sig .tc .vmem S4x1024x64 .f32 := Memref.whole cc1_scratch2

/-- The core's scoped buffers that belong to the two projection launches (their staging buffers), each whole at some
    contents: the part of this launch's scoped rest that is not its own scratch. In the order the program's layout lists them. -/
def restOther1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The launch's invariant before position `n`: before the first point every scoped buffer that is no staging buffer of
    this launch at some contents and the generator register at some state; afterwards the three scratch arrays at the
    triple the position before left, the other launches' staging buffers at some contents, the generator register. -/
def PhiS (c : Dev nD) : (n : ℕ) → n ≤ cfg1.N → sProp 𝕄
  | 0, _ => Pipeline.ΦA spec1 c
  | n + 1, hn => iprop(owns (c : Thread nD τ) scM0 fullShare (scAt1 V c n hn).1
      ∗ owns (c : Thread nD τ) scM1 fullShare (scAt1 V c n hn).2.1
      ∗ owns (c : Thread nD τ) scM2 fullShare (scAt1 V c n hn).2.2
      ∗ restOther1 (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM0 fullShare (scAt1 V c n hn).1
      ∗ owns (c : Thread nD τ) scM1 fullShare (scAt1 V c n hn).2.1
      ∗ owns (c : Thread nD τ) scM2 fullShare (scAt1 V c n hn).2.2
      ∗ restOther1 (F := F) c ∗ (∃ r, prngReg c r)) := rfl

theorem PhiS_pos (c : Dev nD) (n : ℕ) (h : n ≤ cfg1.N) (hz : n ≠ 0) :
    PhiS V c n h = iprop(owns (c : Thread nD τ) scM0 fullShare (scAt1 V c (n - 1) (by omega)).1
      ∗ owns (c : Thread nD τ) scM1 fullShare (scAt1 V c (n - 1) (by omega)).2.1
      ∗ owns (c : Thread nD τ) scM2 fullShare (scAt1 V c (n - 1) (by omega)).2.2
      ∗ restOther1 (F := F) c ∗ (∃ r, prngReg c r)) := by
  cases n with
  | zero => exact absurd rfl hz
  | succ n => rfl

/-- The launch's proof data on core `c`: the arrays as the launch finds them; after the body each input's buffer at its
    block, the output's at the quotient of the carried triple after that point (read only at the last key block, where the
    block is written back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outFin (scAt1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outFin (scAt1 V c t.val t.isLt) := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem PhiS_last (c : Dev nD) : (dat1 V c).Φ (Fin.last cfg1.N) = PhiS V c cfg1.N (Nat.le_refl _) := by
  dsimp only [dat1]; simp only [Fin.val_last]

end Region1

end Cert.Kernel.Hand

end
-- ==== Proof.Kernel.Reg1Run.lean ====
/-
  The attention body's triple. On whole staging memrefs holding the point's query, key, value and bias blocks, an output
  block at any contents and the three scratch arrays at a triple `s`, the body runs to the continuation holding the
  inputs as they were, the scratch arrays at the update of `s` (of the reset triple at a first key block), and the
  output block untouched, except at the last key block, where it is the weighted sum divided by the normaliser.
-/
import proofs.«423465_j4655744549114_3_alg».proof.Proof.Gen.Kernel.Launch
import proofs.«423465_j4655744549114_3_alg».proof.Proof.Gen.Kernel.Skeleton
import proofs.«423465_j4655744549114_3_alg».proof.Proof.Gen.Kernel.Points
import proofs.«423465_j4655744549114_3_alg».proof.Proof.Kernel.Reg1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/-- The zero offsets of a rank-3 whole-buffer rectangle. -/
theorem run1_hz3 : (![0, 0, 0] : Fin 3 → Nat) = fun _ => 0 := funext fun a => by fin_cases a <;> rfl
/-- The zero offsets of a rank-4 whole-buffer rectangle. -/
theorem run1_hz4 : (![0, 0, 0, 0] : Fin 4 → Nat) = fun _ => 0 := funext fun a => by fin_cases a <;> rfl

/-- A store through the whole buffer, made last, leaves its payload whatever was stored before it: its one rectangle
    holds every index, and under the last store the contents are that store's payload. -/
theorem run1_read_writes_whole {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- The first conditional's scalar chain (key-block coordinate equal to 0, widened, compared against 0) is true exactly
    at key block 0: the coordinate is below 8, so the eight values decide it. -/
theorem run1_cond1_iff (k : Fin 8) :
    (Scalar.cmpi .ne (Scalar.extui (Scalar.cmpi .eq (BitVec.ofNat 32 k.val) 0#32)) 0#32 = 1#1) ↔ k.val = 0 := by
  revert k; decide

/-- The second conditional's scalar chain (key-block coordinate equal to 7, widened, compared against 0) is true exactly
    at key block 7. -/
theorem run1_cond2_iff (i : grid1.Coords) : k1_cond2 i = 1#1 ↔ (i 2).val = 7 := by
  unfold k1_cond2
  generalize (i 2) = k
  revert k; decide

/-! Each case below runs the body once with the two conditionals decided. Every load and store is of a whole buffer, so
    a load before any store of its buffer reads the buffer's contents, a load after a store reads that store's payload,
    and a buffer ends at the payload of its last store; the payloads, composed, are the update `scStep` (and, at the
    last key block, the quotient `outFin`) by definition. -/

set_option maxHeartbeats 1000000 in
/-- A key block that is neither first nor last: no reset, no output store. The three scratch arrays end at the update
    of the triple they held; the output block is handed back as it was. -/
theorem run1_mid (c : Dev nD) (E : Set ℕ) (i : grid1.Coords)
    (arg3 : Memref sig .tc .vmem S1x4x1024x64 .bf16) (harg3 : arg3.IsWhole) (arg4 : Memref sig .tc .vmem S1x4x256x64 .bf16) (harg4 : arg4.IsWhole)
    (arg5 : Memref sig .tc .vmem S1x4x256x64 .bf16) (harg5 : arg5.IsWhole) (arg6 : Memref sig .tc .vmem S1x1024x256 .bf16) (harg6 : arg6.IsWhole)
    (arg7 : Memref sig .tc .vmem S1x4x1024x64 .bf16) (harg7 : arg7.IsWhole) (arg8 : Memref sig .tc .vmem S4x1024x1 .f32) (harg8 : arg8.IsWhole)
    (arg9 : Memref sig .tc .vmem S4x1024x1 .f32) (harg9 : arg9.IsWhole) (arg10 : Memref sig .tc .vmem S4x1024x64 .f32) (harg10 : arg10.IsWhole)
    (hc1 : ¬ (Scalar.cmpi .ne (Scalar.extui (Scalar.cmpi .eq (BitVec.ofNat 32 (i 2).val) 0#32)) 0#32 = 1#1))
    (hc2 : ¬ (k1_cond2 i = 1#1))
    (x0 : Vec F S1x4x1024x64 .bf16) (x1 x2 : Vec F S1x4x256x64 .bf16) (x3 : Vec F S1x1024x256 .bf16)
    (y : Vec F S1x4x1024x64 .bf16) (s0 s1 : Vec F S4x1024x1 .f32) (s2 : Vec F S4x1024x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare y
            ∗ owns (c : Thread nD τ) arg8 fullShare (scStep x0 x1 x2 x3 (s0, s1, s2)).1
            ∗ owns (c : Thread nD τ) arg9 fullShare (scStep x0 x1 x2 x3 (s0, s1, s2)).2.1
            ∗ owns (c : Thread nD τ) arg10 fullShare (scStep x0 x1 x2 x3 (s0, s1, s2)).2.2) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  subst hf0; subst hf1; subst hf2; subst hf3; subst hf4; subst hg0; subst hg1; subst hg2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [S0]
  · iexists _; isplitr
    swap; · iexact S0
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  isplitl [S1]
  · iexists _; isplitr
    swap; · iexact S1
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  · iexists _; isplitr
    swap; · iexact S2
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl

set_option maxHeartbeats 1000000 in
/-- The first key block: the reset stores minus infinity, zero, zero over whatever the scratch arrays held, every later
    load of them reads the reset triple back, and they end at the update of the reset triple. No output store. -/
theorem run1_first (c : Dev nD) (E : Set ℕ) (i : grid1.Coords)
    (arg3 : Memref sig .tc .vmem S1x4x1024x64 .bf16) (harg3 : arg3.IsWhole) (arg4 : Memref sig .tc .vmem S1x4x256x64 .bf16) (harg4 : arg4.IsWhole)
    (arg5 : Memref sig .tc .vmem S1x4x256x64 .bf16) (harg5 : arg5.IsWhole) (arg6 : Memref sig .tc .vmem S1x1024x256 .bf16) (harg6 : arg6.IsWhole)
    (arg7 : Memref sig .tc .vmem S1x4x1024x64 .bf16) (harg7 : arg7.IsWhole) (arg8 : Memref sig .tc .vmem S4x1024x1 .f32) (harg8 : arg8.IsWhole)
    (arg9 : Memref sig .tc .vmem S4x1024x1 .f32) (harg9 : arg9.IsWhole) (arg10 : Memref sig .tc .vmem S4x1024x64 .f32) (harg10 : arg10.IsWhole)
    (hc1 : Scalar.cmpi .ne (Scalar.extui (Scalar.cmpi .eq (BitVec.ofNat 32 (i 2).val) 0#32)) 0#32 = 1#1)
    (hc2 : ¬ (k1_cond2 i = 1#1))
    (x0 : Vec F S1x4x1024x64 .bf16) (x1 x2 : Vec F S1x4x256x64 .bf16) (x3 : Vec F S1x1024x256 .bf16)
    (y : Vec F S1x4x1024x64 .bf16) (s0 s1 : Vec F S4x1024x1 .f32) (s2 : Vec F S4x1024x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare y
            ∗ owns (c : Thread nD τ) arg8 fullShare (scStep x0 x1 x2 x3 scInit).1
            ∗ owns (c : Thread nD τ) arg9 fullShare (scStep x0 x1 x2 x3 scInit).2.1
            ∗ owns (c : Thread nD τ) arg10 fullShare (scStep x0 x1 x2 x3 scInit).2.2) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  subst hf0; subst hf1; subst hf2; subst hf3; subst hf4; subst hg0; subst hg1; subst hg2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [S0]
  · iexists _; isplitr
    swap; · iexact S0
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  isplitl [S1]
  · iexists _; isplitr
    swap; · iexact S1
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  · iexists _; isplitr
    swap; · iexact S2
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl

set_option maxHeartbeats 1000000 in
/-- The last key block: no reset; after the update is stored, the normaliser and the weighted sum are read back and
    their quotient is stored over the whole output block. -/
theorem run1_last (c : Dev nD) (E : Set ℕ) (i : grid1.Coords)
    (arg3 : Memref sig .tc .vmem S1x4x1024x64 .bf16) (harg3 : arg3.IsWhole) (arg4 : Memref sig .tc .vmem S1x4x256x64 .bf16) (harg4 : arg4.IsWhole)
    (arg5 : Memref sig .tc .vmem S1x4x256x64 .bf16) (harg5 : arg5.IsWhole) (arg6 : Memref sig .tc .vmem S1x1024x256 .bf16) (harg6 : arg6.IsWhole)
    (arg7 : Memref sig .tc .vmem S1x4x1024x64 .bf16) (harg7 : arg7.IsWhole) (arg8 : Memref sig .tc .vmem S4x1024x1 .f32) (harg8 : arg8.IsWhole)
    (arg9 : Memref sig .tc .vmem S4x1024x1 .f32) (harg9 : arg9.IsWhole) (arg10 : Memref sig .tc .vmem S4x1024x64 .f32) (harg10 : arg10.IsWhole)
    (hc1 : ¬ (Scalar.cmpi .ne (Scalar.extui (Scalar.cmpi .eq (BitVec.ofNat 32 (i 2).val) 0#32)) 0#32 = 1#1))
    (hc2 : k1_cond2 i = 1#1)
    (x0 : Vec F S1x4x1024x64 .bf16) (x1 x2 : Vec F S1x4x256x64 .bf16) (x3 : Vec F S1x1024x256 .bf16)
    (y : Vec F S1x4x1024x64 .bf16) (s0 s1 : Vec F S4x1024x1 .f32) (s2 : Vec F S4x1024x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (outFin (scStep x0 x1 x2 x3 (s0, s1, s2)))
            ∗ owns (c : Thread nD τ) arg8 fullShare (scStep x0 x1 x2 x3 (s0, s1, s2)).1
            ∗ owns (c : Thread nD τ) arg9 fullShare (scStep x0 x1 x2 x3 (s0, s1, s2)).2.1
            ∗ owns (c : Thread nD τ) arg10 fullShare (scStep x0 x1 x2 x3 (s0, s1, s2)).2.2) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  subst hf0; subst hf1; subst hf2; subst hf3; subst hf4; subst hg0; subst hg1; subst hg2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    dsimp only
    rw [run1_read_writes_whole _ _ run1_hz4]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  isplitl [S0]
  · iexists _; isplitr
    swap; · iexact S0
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  isplitl [S1]
  · iexists _; isplitr
    swap; · iexact S1
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  · iexists _; isplitr
    swap; · iexact S2
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl

/- The body's triple at any point: the key-block coordinate is below 8, so it is 0 (reset, no output), 7 (no reset,
   output stored) or strictly between (neither), and 0 and 7 differ; each is one of the three runs above. -/
set_option maxHeartbeats 4000000 in
theorem sound_kernel1 (c : Dev nD) (E : Set ℕ) (i : grid1.Coords)
    (arg3 : Memref sig .tc .vmem S1x4x1024x64 .bf16) (harg3 : arg3.IsWhole) (arg4 : Memref sig .tc .vmem S1x4x256x64 .bf16) (harg4 : arg4.IsWhole)
    (arg5 : Memref sig .tc .vmem S1x4x256x64 .bf16) (harg5 : arg5.IsWhole) (arg6 : Memref sig .tc .vmem S1x1024x256 .bf16) (harg6 : arg6.IsWhole)
    (arg7 : Memref sig .tc .vmem S1x4x1024x64 .bf16) (harg7 : arg7.IsWhole) (arg8 : Memref sig .tc .vmem S4x1024x1 .f32) (harg8 : arg8.IsWhole)
    (arg9 : Memref sig .tc .vmem S4x1024x1 .f32) (harg9 : arg9.IsWhole) (arg10 : Memref sig .tc .vmem S4x1024x64 .f32) (harg10 : arg10.IsWhole)
    (x0 : Vec F S1x4x1024x64 .bf16) (x1 x2 : Vec F S1x4x256x64 .bf16) (x3 : Vec F S1x1024x256 .bf16)
    (y : Vec F S1x4x1024x64 .bf16) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare
                (if (i 2).val = 7 then outFin (scStep x0 x1 x2 x3 (if (i 2).val = 0 then scInit else s)) else y)
            ∗ owns (c : Thread nD τ) arg8 fullShare (scStep x0 x1 x2 x3 (if (i 2).val = 0 then scInit else s)).1
            ∗ owns (c : Thread nD τ) arg9 fullShare (scStep x0 x1 x2 x3 (if (i 2).val = 0 then scInit else s)).2.1
            ∗ owns (c : Thread nD τ) arg10 fullShare (scStep x0 x1 x2 x3 (if (i 2).val = 0 then scInit else s)).2.2) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  obtain ⟨s0, s1, s2⟩ := s
  by_cases h0 : (i 2).val = 0
  · have h7 : ¬ (i 2).val = 7 := by omega
    simp only [if_pos h0, if_neg h7]
    exact run1_first c E i arg3 harg3 arg4 harg4 arg5 harg5 arg6 harg6 arg7 harg7 arg8 harg8 arg9 harg9 arg10 harg10
      ((run1_cond1_iff (i 2)).2 h0) (fun h => h7 ((run1_cond2_iff i).1 h)) x0 x1 x2 x3 y s0 s1 s2 K
  · by_cases h7 : (i 2).val = 7
    · simp only [if_neg h0, if_pos h7]
      exact run1_last c E i arg3 harg3 arg4 harg4 arg5 harg5 arg6 harg6 arg7 harg7 arg8 harg8 arg9 harg9 arg10 harg10
        (fun h => h0 ((run1_cond1_iff (i 2)).1 h)) ((run1_cond2_iff i).2 h7) x0 x1 x2 x3 y s0 s1 s2 K
    · simp only [if_neg h0, if_neg h7]
      exact run1_mid c E i arg3 harg3 arg4 harg4 arg5 harg5 arg6 harg6 arg7 harg7 arg8 harg8 arg9 harg9 arg10 harg10
        (fun h => h0 ((run1_cond1_iff (i 2)).1 h)) (fun h => h7 ((run1_cond2_iff i).1 h)) x0 x1 x2 x3 y s0 s1 s2 K

end Region1

end Cert.Kernel.Hand

end
-- ==== Proof.Kernel.Reg1Body.lean ====
/-
  The attention launch's body obligation: at every point the staging buffers hold the point's blocks (an input fetched
  or kept from the point before; the query block is fetched only at a first key block), the scratch arrays hold the
  triple the point before left (anything before the first point), and the body leaves the triple after this point; the
  output block is handed back untouched except at a last key block, where it is written back.
-/
import proofs.«423465_j4655744549114_3_alg».proof.Proof.Gen.Kernel.Launch
import proofs.«423465_j4655744549114_3_alg».proof.Proof.Gen.Kernel.Skeleton
import proofs.«423465_j4655744549114_3_alg».proof.Proof.Gen.Kernel.Points
import proofs.«423465_j4655744549114_3_alg».proof.Proof.Kernel.Reg1Defs
import proofs.«423465_j4655744549114_3_alg».proof.Proof.Kernel.Reg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The grid's closed forms -/

/-- The key-block coordinate of point `t` is `t mod 8` (the key block runs fastest over eight blocks). -/
theorem coord2_1 : ∀ t : Fin cfg1.N, ((grid1.coords t) 2).val = t.val % 8 :=
  (by decide +kernel : ∀ t : Fin grid1.N, ((grid1.coords t) 2).val = t.val % 8)

/-- The output window is idle exactly away from the last key block. -/
theorem idle1_4_iff : ∀ t : Fin cfg1.N, cfg1.idle 4 (grid1.coords t) = true ↔ ¬ t.val % 8 = 7 :=
  (by decide +kernel : ∀ t : Fin grid1.N, idle1 4 (grid1.coords t) = true ↔ ¬ t.val % 8 = 7)

/-- At a last key block the output's buffer is left at the quotient of the carried triple after the point. -/
theorem leaves1_4_last (c : Dev nD) (t : Fin cfg1.N) (h7 : t.val % 8 = 7) :
    (dat1 V c).leavesExact 4 t = owns (c : Thread nD τ) (st1_4 t) fullShare (outFin (scAt1 V c t.val t.isLt)) := by
  have hi : cfg1.idle 4 (cfg1.grid.coords t) = false := by
    cases h : cfg1.idle 4 (cfg1.grid.coords t) with
    | false => rfl
    | true => exact absurd h7 ((idle1_4_iff t).mp h)
  unfold Dat.leavesExact; rw [hi, after1_4]

/-- Elsewhere it is handed back as found. -/
theorem leaves1_4_idle (c : Dev nD) (t : Fin cfg1.N) (h7 : ¬ t.val % 8 = 7) :
    (dat1 V c).leavesExact 4 t = iprop(∃ d, owns (c : Thread nD τ) (st1_4 t) fullShare ((dat1 V c).before 4 t d)) := by
  have hf : (cfg1.win 4).flush t = false := by
    cases h : (cfg1.win 4).flush t with
    | false => rfl
    | true => exact absurd ((flush1_4 t).mp h) h7
  exact Dat.leavesExact_idle (dat1 V c) 4 t ((idle1_4_iff t).mpr h7) hf

/-! ## The invariant before the first point -/

/-- Before the first point the invariant holds the three scratch arrays at some contents, the other launches' staging
    buffers and the generator register. -/
theorem PhiA1_split (c : Dev nD) :
    (Pipeline.ΦA spec1 c : sProp 𝕄) ⊢ iprop((∃ d, owns (c : Thread nD τ) scM0 fullShare d) ∗ (∃ d, owns (c : Thread nD τ) scM1 fullShare d)
      ∗ (∃ d, owns (c : Thread nD τ) scM2 fullShare d) ∗ restOther1 (F := F) c ∗ (∃ r, prngReg c r)) := by
  unfold Pipeline.ΦA restOther1; rw [scopedRest1_eq]; simp only [scM0, scM1, scM2, owns_whole]
  iintro ⟨⟨A0, A1, A2, A3, A4, A5, S0, S1, S2, B0, B1, B2, B3, B4, B5⟩, Hg⟩
  isplitl [S0]; · iexact S0
  isplitl [S1]; · iexact S1
  isplitl [S2]; · iexact S2
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [B0]; · iexact B0
  isplitl [B1]; · iexact B1
  isplitl [B2]; · iexact B2
  isplitl [B3]; · iexact B3
  isplitl [B4]; · iexact B4
  iexact B5

/-! ## The body at a point -/

/-- The body at point `t` on the point's staging memrefs holding the point's blocks, the output's buffer at any contents
    `y` and the scratch arrays at a triple `s` that, past a first key block, is the one the point before left: it leaves the
    scratch arrays at the triple after this point and the output's buffer at that triple's quotient at a last key block,
    at `y` elsewhere. -/
theorem body_run1 (c : Dev nD) (t : Fin cfg1.N) (y yo : Vec F S1x4x1024x64 .bf16) (s : Sc F)
    (hs : ¬ t.val % 8 = 0 → s = scAt1 V c (t.val - 1) (Nat.lt_of_le_of_lt (Nat.sub_le _ _) t.isLt))
    (hyo : yo = if t.val % 8 = 7 then outFin (scAt1 V c t.val t.isLt) else y) (K : PUnit → sProp 𝕄) :
    iprop(owns (c : Thread nD τ) (st1_0 t) fullShare (iblk1 V c 0 t) ∗ owns (c : Thread nD τ) (st1_1 t) fullShare (iblk1 V c 1 t)
        ∗ owns (c : Thread nD τ) (st1_2 t) fullShare (iblk1 V c 2 t) ∗ owns (c : Thread nD τ) (st1_3 t) fullShare (iblk1 V c 3 t)
        ∗ owns (c : Thread nD τ) (st1_4 t) fullShare y
        ∗ owns (c : Thread nD τ) scM0 fullShare s.1 ∗ owns (c : Thread nD τ) scM1 fullShare s.2.1 ∗ owns (c : Thread nD τ) scM2 fullShare s.2.2
        ∗ (iprop(owns (c : Thread nD τ) (st1_0 t) fullShare (iblk1 V c 0 t) ∗ owns (c : Thread nD τ) (st1_1 t) fullShare (iblk1 V c 1 t)
            ∗ owns (c : Thread nD τ) (st1_2 t) fullShare (iblk1 V c 2 t) ∗ owns (c : Thread nD τ) (st1_3 t) fullShare (iblk1 V c 3 t)
            ∗ owns (c : Thread nD τ) (st1_4 t) fullShare yo
            ∗ owns (c : Thread nD τ) scM0 fullShare (scAt1 V c t.val t.isLt).1 ∗ owns (c : Thread nD τ) scM1 fullShare (scAt1 V c t.val t.isLt).2.1
            ∗ owns (c : Thread nD τ) scM2 fullShare (scAt1 V c t.val t.isLt).2.2) -∗ K ⟨⟩))
      ⊢ wp frame (wpE (defs₀ (F := F)) Variants.none c none) Set.univ (bodyAt1 t) K := by
  have hsc : scStep (iblk1 V c 0 t) (iblk1 V c 1 t) (iblk1 V c 2 t) (iblk1 V c 3 t)
      (if ((grid1.coords t) 2).val = 0 then scInit else s) = scAt1 V c t.val t.isLt := by
    rw [coord2_1 t]
    by_cases h0 : t.val % 8 = 0
    · rw [if_pos h0, scAt1_first V c t h0]
    · rw [if_neg h0, scAt1_next V c t h0, hs h0]
  refine BI.Entails.trans ?_ (sound_kernel1 (F := F) c Set.univ (grid1.coords t) _ _ _ _ _ _ _ _ _ _ _ _ _ _ _ _
    (iblk1 V c 0 t) (iblk1 V c 1 t) (iblk1 V c 2 t) (iblk1 V c 3 t) y s K)
  rw [hsc, coord2_1 t, ← hyo]
  exact BI.Entails.refl _

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

/-- The body at any point. The inputs' buffers hold their blocks; the invariant hands the body the scratch arrays at the
    triple the point before left (at anything before the first point, which is a first key block, where the body resets
    them) and takes them back at the triple after this point; at a last key block the output's buffer ends at that
    triple's quotient, elsewhere it goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2, before1_3]
  rw [show (dat1 V c).owesAt () t.succ = (dat1 V c).owesAt () t.castSucc from rfl,
    show (dat1 V c).Φ t.succ = PhiS V c (t.val + 1) t.isLt from rfl, PhiS_succ,
    after1_0, after1_1, after1_2, after1_3, PhiS_castSucc V c t]
  by_cases h7 : t.val % 8 = 7
  · have hz : t.val ≠ 0 := fun h => by rw [h] at h7; exact absurd h7 (by decide)
    rw [leaves1_4_last V c t h7, PhiS_pos V c _ _ hz]
    iintro ⟨⟨HS0, HS1, HS2, Hr, Hg⟩, Ho, ⟨%d0, H0⟩, ⟨%d1, H1⟩, ⟨%d2, H2⟩, ⟨%d3, H3⟩, ⟨%d4, H4⟩⟩
    iapply (body_run1 V c t ((dat1 V c).before 4 t d4) (outFin (scAt1 V c t.val t.isLt)) _ (fun _ => rfl) (if_pos h7).symm _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hr Hg]
    · isplitl [HS0]; · iexact HS0
      isplitl [HS1]; · iexact HS1
      isplitl [HS2]; · iexact HS2
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [leaves1_4_idle V c t h7]
    by_cases hz : t.val = 0
    · have h0 : t.val % 8 = 0 := by rw [hz]
      rw [PhiS_zero V c _ _ hz]
      iintro ⟨HΦ, Ho, ⟨%d0, H0⟩, ⟨%d1, H1⟩, ⟨%d2, H2⟩, ⟨%d3, H3⟩, ⟨%d4, H4⟩⟩
      icases (PhiA1_split c) $$ HΦ with ⟨⟨%e0, HS0⟩, ⟨%e1, HS1⟩, ⟨%e2, HS2⟩, Hr, Hg⟩
      iapply (body_run1 V c t ((dat1 V c).before 4 t d4) ((dat1 V c).before 4 t d4) (e0, e1, e2) (fun h => absurd h0 h) (if_neg h7).symm _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      isplitl [H3]; · iexact H3
      iexists d4; iexact H4
    · rw [PhiS_pos V c _ _ hz]
      iintro ⟨⟨HS0, HS1, HS2, Hr, Hg⟩, Ho, ⟨%d0, H0⟩, ⟨%d1, H1⟩, ⟨%d2, H2⟩, ⟨%d3, H3⟩, ⟨%d4, H4⟩⟩
      iapply (body_run1 V c t ((dat1 V c).before 4 t d4) ((dat1 V c).before 4 t d4) _ (fun _ => rfl) (if_neg h7).symm _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      isplitl [H3]; · iexact H3
      iexists d4; iexact H4

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Fold.lean ====
/-
  The contents of the core's buffers at each boundary between two items of the program, as a fold from the launch
  memory: a stretch of host operations applies them; a kernel launch leaves its arrays at what its write-backs make
  of them and every other buffer as it was.
-/
import proofs.«423465_j4655744549114_3_alg».proof.Proof.Gen.Kernel.Launch
import proofs.«423465_j4655744549114_3_alg».proof.Proof.Gen.Kernel.Skeleton
import proofs.«423465_j4655744549114_3_alg».proof.Proof.Gen.Kernel.Points
import proofs.«423465_j4655744549114_3_alg».proof.Proof.Kernel.Reg0
import proofs.«423465_j4655744549114_3_alg».proof.Proof.Kernel.Reg1Defs
import proofs.«423465_j4655744549114_3_alg».proof.Proof.Kernel.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first projection's entry). -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b

/-- At launch 0's exit: its arrays at what its write-backs leave, every other buffer as at its entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- After the three host stretches between the first projection and the attention launch. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b

/-- At launch 1's exit: its arrays at what its write-backs leave, every other buffer as at its entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

/-- After the host stretch between the attention launch and the output projection. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At launch 2's exit: its arrays at what its write-backs leave, every other buffer as at its entry. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

/-- After the last host stretch: the program's end. -/
abbrev W9 : Dev nD → Valuation τ sig (Elt F) := fun c => StableHlo.after hostOps3 (W8 m ρ c)

end Cert.Kernel.Hand

end
-- ==== Proof.Kernel.Run.lean ====
/-
  The whole program's run. The entry function is nine items in order: a stretch of host operations, the first
  projection launch, three stretches of host operations, the attention launch, a stretch, the second projection
  launch, a last stretch. Between two items every buffer that outlives a launch holds a named content: the launch
  memory, then, stretch by stretch, what the stretch's operations compute from the contents before it, and, launch
  by launch, the launch's arrays at what its write-backs leave with every other buffer as the launch found it.
  The three launches are composed over these contents, and at the end every such buffer is read at the last of them.
-/
import proofs.«423465_j4655744549114_3_alg».proof.Proof.Gen.Kernel.Launch
import proofs.«423465_j4655744549114_3_alg».proof.Proof.Gen.Kernel.Skeleton
import proofs.«423465_j4655744549114_3_alg».proof.Proof.Gen.Kernel.Points
import proofs.«423465_j4655744549114_3_alg».proof.Proof.Gen.Kernel.Regions
import proofs.«423465_j4655744549114_3_alg».proof.Proof.Kernel.Reg0
import proofs.«423465_j4655744549114_3_alg».proof.Proof.Kernel.Reg2
import proofs.«423465_j4655744549114_3_alg».proof.Proof.Kernel.Reg1Defs
import proofs.«423465_j4655744549114_3_alg».proof.Proof.Kernel.Reg1Body
import proofs.«423465_j4655744549114_3_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at a launch's exit, read at the core's own references

The contents between items are the fold `W0` … `W9`: the launch memory, each stretch's operations applied to the
contents before it, each launch's arrays at what its write-backs leave and every other buffer as the launch found it. -/

/-- The first projection launch's exit contents read at the core's own references. -/
abbrev V2 : (c : Dev nD) → (b : Ref sig .tc) → Buf (Elt F) ((c : Thread nD τ).loc b) := fun c b => W2 m ρ c b
/-- At the first projection launch's exit each of its arrays holds what its write-backs leave, and every other buffer
    what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The attention launch's exit contents read at the core's own references. -/
abbrev V6 : (c : Dev nD) → (b : Ref sig .tc) → Buf (Elt F) ((c : Thread nD τ).loc b) := fun c b => W6 m ρ c b
/-- At the attention launch's exit each of its arrays holds what its write-backs leave, and every other buffer what it
    held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- The second projection launch's exit contents read at the core's own references. -/
abbrev V8 : (c : Dev nD) → (b : Ref sig .tc) → Buf (Elt F) ((c : Thread nD τ).loc b) := fun c b => W8 m ρ c b
/-- At the second projection launch's exit each of its arrays holds what its write-backs leave, and every other buffer
    what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### The arguments end as launched: no host operation writes one, and a launch reads one through an input window
    or not at all, so the contents at an argument's buffer walk back to the launch memory -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps3 _ hostOps3_writes (by decide)
    _ = W7 m ρ c (Proc.devRef .tc main_arg8) := (W8_arr m ρ c 2).trans (((dat2 (V7 m ρ) c).arrAt_in 2 rfl _).trans (A_eq2 (V7 m ρ) c 2))
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

/-- Every launch's proof data, each at its launch's entry contents: a literal choice on the launch's index. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a launch's
    invariant takes it in and gives it back) and the core owing nothing. -/
abbrev R (c : Dev nD) : sProp 𝕄 := iprop((∃ r, prngReg c r) ∗ ∃ W, owes (c : Thread nD τ) (0 : CellTallies nD τ sig Unit) W)
/-- A stretch of host operations as an item: over the unscoped buffers from the contents `W`, `R` riding along; it
    leaves those buffers at what the operations compute from `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register at
    some state. -/
abbrev Tₙ (c : Dev nD) : sProp 𝕄 := iprop(StableHlo.held (c : Thread nD τ) (Pipeline.ucRefs τ sig) (W9 m ρ c) ∗ ∃ r, prngReg c r)

/-- A whole scratch array held at named contents is held at some contents. -/
theorem owns_whole_forget (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  rw [owns_whole]
  iintro H; iexists _; iexact H

/-! ## The launches as items -/

set_option backward.isDefEq.respectTransparency.types false in
/-- THE FIRST PROJECTION LAUNCH over the thread state: entered from every unscoped buffer at `W1`, left at `W2`. Its
    arrays are split out of the unscoped buffers at entry and put back at the exit contents; the generator register
    goes into the launch's invariant (the scoped buffers it stages nothing in, the register) and comes back; nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION LAUNCH over the thread state: entered from every unscoped buffer at `W5`, left at `W6`. Its
    arrays are split out of the unscoped buffers at entry and put back at the exit contents; the generator register
    goes into the launch's invariant (the scoped buffers it stages nothing in, the register) and comes back; nothing
    is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hN : cfg1.N ≠ 0 := by rw [show cfg1.N = grid1.N from rfl, N_1]; decide
    rw [Pipeline.ownSems0_none, show (pdats m ρ 1 c).Φ (Fin.last _) = PhiS (V5 m ρ) c cfg1.N (Nat.le_refl _) from PhiS_last (V5 m ρ) c,
      PhiS_pos (V5 m ρ) c cfg1.N (Nat.le_refl _) hN,
      show Pipeline.scopedRest (Ix := Unit) (Name := ℕ) (U := UR sig nD τ) (Lvl := ℕ) (Val := Elt F) (Pipeline.pin (pcfgs (F := F)) adm 1).spec c
        = Pipeline.scopedRest spec1 c from rfl, scopedRest1_eq]
    unfold restOther1
    iintro ⟨H0, H1, H2, ⟨Ha, Hb, Hc, Hd, He, Hf, Hg, Hh, Hi, Hj, Hk, Hl⟩, Hr⟩
    isplitl [Hr]; · iexact Hr
    isplitr; · iempintro
    isplitl [Ha]; · iexact Ha
    isplitl [Hb]; · iexact Hb
    isplitl [Hc]; · iexact Hc
    isplitl [Hd]; · iexact Hd
    isplitl [He]; · iexact He
    isplitl [Hf]; · iexact Hf
    isplitl [H0]; · iapply (owns_whole_forget c cc1_scratch0 _); iexact H0
    isplitl [H1]; · iapply (owns_whole_forget c cc1_scratch1 _); iexact H1
    isplitl [H2]; · iapply (owns_whole_forget c cc1_scratch2 _); iexact H2
    isplitl [Hg]; · iexact Hg
    isplitl [Hh]; · iexact Hh
    isplitl [Hi]; · iexact Hi
    isplitl [Hj]; · iexact Hj
    isplitl [Hk]; · iexact Hk
    iexact Hl
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PROJECTION LAUNCH over the thread state: entered from every unscoped buffer at `W7`, left at `W8`. Its
    arrays are split out of the unscoped buffers at entry and put back at the exit contents; the generator register
    goes into the launch's invariant (the scoped buffers it stages nothing in, the register) and comes back; nothing
    is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as items, and the launch -/

/-- The entry function's nine items in order: a host item per stretch from its boundary's contents, a launch item per
    kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- The entry function IS the run of the items: it is the chain of their programs, and the items' run is that chain. -/
theorem main_run (c : Dev nD) : main (F := F) c = Pipeline.Seg.run (segs m ρ) := (main_chain c).trans (by chain_rfl)

set_option backward.isDefEq.respectTransparency.types false in
/-- THE RUN. From any memory with zero counters, every weakly fair execution of the entry function terminates,
    nothing faulting, and in every final state each unscoped buffer of each core holds the last contents `W9`:
    the three launches composed over the items, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The run read at the result and at the ten arguments: the result's buffer holds the last contents there, and each
    argument's buffer what it held at launch. -/
theorem run_result : θ_run defs (onTc (τ := τ) (main (F := F))) ⟨m, fun _ => 0, ρ⟩ (fun r => ∀ c : Dev nD,
      r.2.mem ((c.tc : Thread nD τ).loc main_v57) = W9 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨h c _ (mem_uc main_v57 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩) (run_all m ρ)

/-- THE FRAME: every weakly fair execution of the entry function terminates, nothing faulting, and every final state
    has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.Kernel.Hand

end
-- ==== Proof.KernelIdeal.Reg0.lean ====
/-
  The first projection launch (the fused q/k/v projection): sixteen grid points, each taking a block of 512 rows
  of the flattened input, the whole transposed weight and the whole bias, and storing the 512 x 3072 block
  x·W + b of the result. The body reads its three inputs whole and stores its one output whole, keeps nothing
  between points, so what each point leaves is one function of the three input blocks.
-/
import proofs.«423465_j4655744549114_3_alg».proof.Proof.Gen.KernelIdeal.Launch
import proofs.«423465_j4655744549114_3_alg».proof.Proof.Gen.KernelIdeal.Skeleton
import proofs.«423465_j4655744549114_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output block after the body: its one whole store, the product-plus-bias payload of the three loads. -/
def out0_3 (x0 : Vec F S512x1024 .f32) (x1 : Vec F S1024x3072 .bf16) (x2 : Vec F S3072 .f32) : Vec F S512x3072 .bf16 :=
  View.canon [⟨r0_3, k0_pay1 (View.ld x0 r0_0) (View.ld x1 r0_1) (View.ld x2 r0_2)⟩]

theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging memrefs: the inputs keep their contents, the output ends at `out0_3` of them. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The launch's proof data on core `c`: the arrays as the launch finds them; after the body each input's buffer
    at its block and the output's at `out0_3` of the three blocks; nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Reg2.lean ====
/-
  The output projection launch: eight grid points, each taking a block of 1024 rows of the attention result
  (heads merged back into 1024 columns), the whole transposed output weight and the whole bias, and storing
  the 1024 x 1024 block a·W + b of the result. As in the first projection the body reads its inputs whole,
  stores its output whole and keeps nothing between points.
-/
import proofs.«423465_j4655744549114_3_alg».proof.Proof.Gen.KernelIdeal.Launch
import proofs.«423465_j4655744549114_3_alg».proof.Proof.Gen.KernelIdeal.Skeleton
import proofs.«423465_j4655744549114_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0
abbrev r2_3 : Rect S1024x1024 := Rect.unit (s := S1024x1024) ![0, 0] S1024x1024.size inb_S1024x1024_S1024x1024_0_0

/-- The output block after the body: its one whole store, the product-plus-bias payload of the three loads. -/
def out2_3 (x0 : Vec F S1024x1024 .bf16) (x1 : Vec F S1024x1024 .bf16) (x2 : Vec F S1024 .f32) : Vec F S1024x1024 .f32 :=
  View.canon [⟨r2_3, k2_pay1 (View.ld x0 r2_0) (View.ld x1 r2_1) (View.ld x2 r2_2)⟩]

theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

set_option maxHeartbeats 1000000 in
/-- The body on whole staging memrefs: the inputs keep their contents, the output ends at `out2_3` of them. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S1024x1024 .f32) (harg4 : arg4.IsWhole)
    (x0 : Vec F S1024x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The launch's proof data on core `c`: the arrays as the launch finds them; after the body each input's buffer
    at its block and the output's at `out2_3` of the three blocks; nothing kept between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KernelIdeal.Reg1Defs.lean ====
/-
  The attention launch: 256 grid points (head, query block of 1024 rows, key block of 256 rows; the key block
  runs fastest). The body carries three scratch arrays between points — the running row maximum, the running
  normaliser and the running weighted sum of value rows — resets them at the first key block of each (head,
  query block), updates them at every point from the point's query, key, value and bias blocks, and stores the
  output block (weighted sum divided by normaliser) at the last key block only. This module names the update
  as one function of the blocks and the carried triple, the triple after each point by recursion on the point,
  the invariant that holds the scratch arrays at that triple between points, and the launch's proof data.
-/
import proofs.«423465_j4655744549114_3_alg».proof.Proof.Gen.KernelIdeal.Launch
import proofs.«423465_j4655744549114_3_alg».proof.Proof.Gen.KernelIdeal.Skeleton
import proofs.«423465_j4655744549114_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried triple: running maximum, running normaliser, running weighted sum. -/
abbrev Sc (F : FTy → Type) : Type := Vec F S4x1024x1 .f32 × Vec F S4x1024x1 .f32 × Vec F S4x1024x64 .f32

/-- What the reset at a first key block stores: minus infinity, zero, zero. -/
def scInit : Sc F := (k1_pay5, k1_pay6, k1_pay7)

/-- One point's update of the carried triple from the point's query, key, value and bias blocks: the new maximum is the
    old one against the block's row maxima of the logits; the normaliser and the weighted sum are rescaled by
    exp (old maximum − new maximum) and take the block's terms. -/
def scStep (x0 : Vec F S1x4x1024x64 .bf16) (x1 x2 : Vec F S1x4x256x64 .bf16) (x3 : Vec F S1x1024x256 .bf16) (s : Sc F) : Sc F :=
  (k1_pay3 (k1_pay10 x0 x1 x3 s.1),
   k1_pay1 (k1_pay11 x0 x1 x3 s.1 s.1) (k1_pay12 x0 x1 x3 s.1) s.2.1,
   k1_pay2 (k1_pay8 x2) (k1_pay11 x0 x1 x3 s.1 s.1) (k1_pay12 x0 x1 x3 s.1) s.2.2)

/-- What the last key block stores into the output block: the weighted sum divided by the normaliser. -/
def outFin (s : Sc F) : Vec F S1x4x1024x64 .bf16 := k1_pay4 s.2.2 s.2.1

/-- The carried triple after the body at position `n`: at a first key block (position ≡ 0 mod 8) the update of the reset
    triple, elsewhere the update of what the position before left. -/
def scAt1 (c : Dev nD) : (n : ℕ) → n < cfg1.N → Sc F
  | 0, hn => scStep (iblk1 V c 0 ⟨0, hn⟩) (iblk1 V c 1 ⟨0, hn⟩) (iblk1 V c 2 ⟨0, hn⟩) (iblk1 V c 3 ⟨0, hn⟩) scInit
  | n + 1, hn =>
    if (n + 1) % 8 = 0 then
      scStep (iblk1 V c 0 ⟨n + 1, hn⟩) (iblk1 V c 1 ⟨n + 1, hn⟩) (iblk1 V c 2 ⟨n + 1, hn⟩) (iblk1 V c 3 ⟨n + 1, hn⟩) scInit
    else
      scStep (iblk1 V c 0 ⟨n + 1, hn⟩) (iblk1 V c 1 ⟨n + 1, hn⟩) (iblk1 V c 2 ⟨n + 1, hn⟩) (iblk1 V c 3 ⟨n + 1, hn⟩) (scAt1 c n (Nat.lt_of_succ_lt hn))

theorem scAt1_first (c : Dev nD) (t : Fin cfg1.N) (h : t.val % 8 = 0) :
    scAt1 V c t.val t.isLt = scStep (iblk1 V c 0 t) (iblk1 V c 1 t) (iblk1 V c 2 t) (iblk1 V c 3 t) scInit := by
  obtain ⟨n, hn⟩ := t
  cases n with
  | zero => rfl
  | succ n => exact if_pos h

theorem scAt1_next (c : Dev nD) (t : Fin cfg1.N) (h : ¬ t.val % 8 = 0) :
    scAt1 V c t.val t.isLt = scStep (iblk1 V c 0 t) (iblk1 V c 1 t) (iblk1 V c 2 t) (iblk1 V c 3 t)
      (scAt1 V c (t.val - 1) (Nat.lt_of_le_of_lt (Nat.sub_le _ _) t.isLt)) := by
  obtain ⟨n, hn⟩ := t
  cases n with
  | zero => exact absurd (Nat.zero_mod _) h
  | succ n => exact if_neg h

/-- The three scratch arrays as whole memrefs. -/
abbrev scM0 : Memref sig .tc .vmem S4x1024x1 .f32 := Memref.whole cc1_scratch0
abbrev scM1 : Memref sig .tc .vmem S4x1024x1 .f32 := Memref.whole cc1_scratch1
abbrev scM2 : Memref sig .tc .vmem S4x1024x64 .f32 := Memref.whole cc1_scratch2

/-- The core's scoped buffers that belong to the two projection launches (their staging buffers), each whole at some
    contents: the part of this launch's scoped rest that is not its own scratch. In the order the program's layout lists them. -/
def restOther1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- The launch's invariant before position `n`: before the first point every scoped buffer that is no staging buffer of
    this launch at some contents and the generator register at some state; afterwards the three scratch arrays at the
    triple the position before left, the other launches' staging buffers at some contents, the generator register. -/
def PhiS (c : Dev nD) : (n : ℕ) → n ≤ cfg1.N → sProp 𝕄
  | 0, _ => Pipeline.ΦA spec1 c
  | n + 1, hn => iprop(owns (c : Thread nD τ) scM0 fullShare (scAt1 V c n hn).1
      ∗ owns (c : Thread nD τ) scM1 fullShare (scAt1 V c n hn).2.1
      ∗ owns (c : Thread nD τ) scM2 fullShare (scAt1 V c n hn).2.2
      ∗ restOther1 (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM0 fullShare (scAt1 V c n hn).1
      ∗ owns (c : Thread nD τ) scM1 fullShare (scAt1 V c n hn).2.1
      ∗ owns (c : Thread nD τ) scM2 fullShare (scAt1 V c n hn).2.2
      ∗ restOther1 (F := F) c ∗ (∃ r, prngReg c r)) := rfl

theorem PhiS_pos (c : Dev nD) (n : ℕ) (h : n ≤ cfg1.N) (hz : n ≠ 0) :
    PhiS V c n h = iprop(owns (c : Thread nD τ) scM0 fullShare (scAt1 V c (n - 1) (by omega)).1
      ∗ owns (c : Thread nD τ) scM1 fullShare (scAt1 V c (n - 1) (by omega)).2.1
      ∗ owns (c : Thread nD τ) scM2 fullShare (scAt1 V c (n - 1) (by omega)).2.2
      ∗ restOther1 (F := F) c ∗ (∃ r, prngReg c r)) := by
  cases n with
  | zero => exact absurd rfl hz
  | succ n => rfl

/-- The launch's proof data on core `c`: the arrays as the launch finds them; after the body each input's buffer at its
    block, the output's at the quotient of the carried triple after that point (read only at the last key block, where the
    block is written back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outFin (scAt1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outFin (scAt1 V c t.val t.isLt) := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem PhiS_last (c : Dev nD) : (dat1 V c).Φ (Fin.last cfg1.N) = PhiS V c cfg1.N (Nat.le_refl _) := by
  dsimp only [dat1]; simp only [Fin.val_last]

end Region1

end Cert.KernelIdeal.Hand

end
-- ==== Proof.KernelIdeal.Reg1Run.lean ====
/-
  The attention body's triple. On whole staging memrefs holding the point's query, key, value and bias blocks, an output
  block at any contents and the three scratch arrays at a triple `s`, the body runs to the continuation holding the
  inputs as they were, the scratch arrays at the update of `s` (of the reset triple at a first key block), and the
  output block untouched, except at the last key block, where it is the weighted sum divided by the normaliser.
-/
import proofs.«423465_j4655744549114_3_alg».proof.Proof.Gen.KernelIdeal.Launch
import proofs.«423465_j4655744549114_3_alg».proof.Proof.Gen.KernelIdeal.Skeleton
import proofs.«423465_j4655744549114_3_alg».proof.Proof.Gen.KernelIdeal.Points
import proofs.«423465_j4655744549114_3_alg».proof.Proof.KernelIdeal.Reg1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/-- The zero offsets of a rank-3 whole-buffer rectangle. -/
theorem run1_hz3 : (![0, 0, 0] : Fin 3 → Nat) = fun _ => 0 := funext fun a => by fin_cases a <;> rfl
/-- The zero offsets of a rank-4 whole-buffer rectangle. -/
theorem run1_hz4 : (![0, 0, 0, 0] : Fin 4 → Nat) = fun _ => 0 := funext fun a => by fin_cases a <;> rfl

/-- A store through the whole buffer, made last, leaves its payload whatever was stored before it: its one rectangle
    holds every index, and under the last store the contents are that store's payload. -/
theorem run1_read_writes_whole {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- The first conditional's scalar chain (key-block coordinate equal to 0, widened, compared against 0) is true exactly
    at key block 0: the coordinate is below 8, so the eight values decide it. -/
theorem run1_cond1_iff (k : Fin 8) :
    (Scalar.cmpi .ne (Scalar.extui (Scalar.cmpi .eq (BitVec.ofNat 32 k.val) 0#32)) 0#32 = 1#1) ↔ k.val = 0 := by
  revert k; decide

/-- The second conditional's scalar chain (key-block coordinate equal to 7, widened, compared against 0) is true exactly
    at key block 7. -/
theorem run1_cond2_iff (i : grid1.Coords) : k1_cond2 i = 1#1 ↔ (i 2).val = 7 := by
  unfold k1_cond2
  generalize (i 2) = k
  revert k; decide

/-! Each case below runs the body once with the two conditionals decided. Every load and store is of a whole buffer, so
    a load before any store of its buffer reads the buffer's contents, a load after a store reads that store's payload,
    and a buffer ends at the payload of its last store; the payloads, composed, are the update `scStep` (and, at the
    last key block, the quotient `outFin`) by definition. -/

set_option maxHeartbeats 1000000 in
/-- A key block that is neither first nor last: no reset, no output store. The three scratch arrays end at the update
    of the triple they held; the output block is handed back as it was. -/
theorem run1_mid (c : Dev nD) (E : Set ℕ) (i : grid1.Coords)
    (arg3 : Memref sig .tc .vmem S1x4x1024x64 .bf16) (harg3 : arg3.IsWhole) (arg4 : Memref sig .tc .vmem S1x4x256x64 .bf16) (harg4 : arg4.IsWhole)
    (arg5 : Memref sig .tc .vmem S1x4x256x64 .bf16) (harg5 : arg5.IsWhole) (arg6 : Memref sig .tc .vmem S1x1024x256 .bf16) (harg6 : arg6.IsWhole)
    (arg7 : Memref sig .tc .vmem S1x4x1024x64 .bf16) (harg7 : arg7.IsWhole) (arg8 : Memref sig .tc .vmem S4x1024x1 .f32) (harg8 : arg8.IsWhole)
    (arg9 : Memref sig .tc .vmem S4x1024x1 .f32) (harg9 : arg9.IsWhole) (arg10 : Memref sig .tc .vmem S4x1024x64 .f32) (harg10 : arg10.IsWhole)
    (hc1 : ¬ (Scalar.cmpi .ne (Scalar.extui (Scalar.cmpi .eq (BitVec.ofNat 32 (i 2).val) 0#32)) 0#32 = 1#1))
    (hc2 : ¬ (k1_cond2 i = 1#1))
    (x0 : Vec F S1x4x1024x64 .bf16) (x1 x2 : Vec F S1x4x256x64 .bf16) (x3 : Vec F S1x1024x256 .bf16)
    (y : Vec F S1x4x1024x64 .bf16) (s0 s1 : Vec F S4x1024x1 .f32) (s2 : Vec F S4x1024x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare y
            ∗ owns (c : Thread nD τ) arg8 fullShare (scStep x0 x1 x2 x3 (s0, s1, s2)).1
            ∗ owns (c : Thread nD τ) arg9 fullShare (scStep x0 x1 x2 x3 (s0, s1, s2)).2.1
            ∗ owns (c : Thread nD τ) arg10 fullShare (scStep x0 x1 x2 x3 (s0, s1, s2)).2.2) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  subst hf0; subst hf1; subst hf2; subst hf3; subst hf4; subst hg0; subst hg1; subst hg2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [S0]
  · iexists _; isplitr
    swap; · iexact S0
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  isplitl [S1]
  · iexists _; isplitr
    swap; · iexact S1
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  · iexists _; isplitr
    swap; · iexact S2
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl

set_option maxHeartbeats 1000000 in
/-- The first key block: the reset stores minus infinity, zero, zero over whatever the scratch arrays held, every later
    load of them reads the reset triple back, and they end at the update of the reset triple. No output store. -/
theorem run1_first (c : Dev nD) (E : Set ℕ) (i : grid1.Coords)
    (arg3 : Memref sig .tc .vmem S1x4x1024x64 .bf16) (harg3 : arg3.IsWhole) (arg4 : Memref sig .tc .vmem S1x4x256x64 .bf16) (harg4 : arg4.IsWhole)
    (arg5 : Memref sig .tc .vmem S1x4x256x64 .bf16) (harg5 : arg5.IsWhole) (arg6 : Memref sig .tc .vmem S1x1024x256 .bf16) (harg6 : arg6.IsWhole)
    (arg7 : Memref sig .tc .vmem S1x4x1024x64 .bf16) (harg7 : arg7.IsWhole) (arg8 : Memref sig .tc .vmem S4x1024x1 .f32) (harg8 : arg8.IsWhole)
    (arg9 : Memref sig .tc .vmem S4x1024x1 .f32) (harg9 : arg9.IsWhole) (arg10 : Memref sig .tc .vmem S4x1024x64 .f32) (harg10 : arg10.IsWhole)
    (hc1 : Scalar.cmpi .ne (Scalar.extui (Scalar.cmpi .eq (BitVec.ofNat 32 (i 2).val) 0#32)) 0#32 = 1#1)
    (hc2 : ¬ (k1_cond2 i = 1#1))
    (x0 : Vec F S1x4x1024x64 .bf16) (x1 x2 : Vec F S1x4x256x64 .bf16) (x3 : Vec F S1x1024x256 .bf16)
    (y : Vec F S1x4x1024x64 .bf16) (s0 s1 : Vec F S4x1024x1 .f32) (s2 : Vec F S4x1024x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare y
            ∗ owns (c : Thread nD τ) arg8 fullShare (scStep x0 x1 x2 x3 scInit).1
            ∗ owns (c : Thread nD τ) arg9 fullShare (scStep x0 x1 x2 x3 scInit).2.1
            ∗ owns (c : Thread nD τ) arg10 fullShare (scStep x0 x1 x2 x3 scInit).2.2) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  subst hf0; subst hf1; subst hf2; subst hf3; subst hf4; subst hg0; subst hg1; subst hg2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [S0]
  · iexists _; isplitr
    swap; · iexact S0
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  isplitl [S1]
  · iexists _; isplitr
    swap; · iexact S1
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  · iexists _; isplitr
    swap; · iexact S2
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl

set_option maxHeartbeats 1000000 in
/-- The last key block: no reset; after the update is stored, the normaliser and the weighted sum are read back and
    their quotient is stored over the whole output block. -/
theorem run1_last (c : Dev nD) (E : Set ℕ) (i : grid1.Coords)
    (arg3 : Memref sig .tc .vmem S1x4x1024x64 .bf16) (harg3 : arg3.IsWhole) (arg4 : Memref sig .tc .vmem S1x4x256x64 .bf16) (harg4 : arg4.IsWhole)
    (arg5 : Memref sig .tc .vmem S1x4x256x64 .bf16) (harg5 : arg5.IsWhole) (arg6 : Memref sig .tc .vmem S1x1024x256 .bf16) (harg6 : arg6.IsWhole)
    (arg7 : Memref sig .tc .vmem S1x4x1024x64 .bf16) (harg7 : arg7.IsWhole) (arg8 : Memref sig .tc .vmem S4x1024x1 .f32) (harg8 : arg8.IsWhole)
    (arg9 : Memref sig .tc .vmem S4x1024x1 .f32) (harg9 : arg9.IsWhole) (arg10 : Memref sig .tc .vmem S4x1024x64 .f32) (harg10 : arg10.IsWhole)
    (hc1 : ¬ (Scalar.cmpi .ne (Scalar.extui (Scalar.cmpi .eq (BitVec.ofNat 32 (i 2).val) 0#32)) 0#32 = 1#1))
    (hc2 : k1_cond2 i = 1#1)
    (x0 : Vec F S1x4x1024x64 .bf16) (x1 x2 : Vec F S1x4x256x64 .bf16) (x3 : Vec F S1x1024x256 .bf16)
    (y : Vec F S1x4x1024x64 .bf16) (s0 s1 : Vec F S4x1024x1 .f32) (s2 : Vec F S4x1024x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (outFin (scStep x0 x1 x2 x3 (s0, s1, s2)))
            ∗ owns (c : Thread nD τ) arg8 fullShare (scStep x0 x1 x2 x3 (s0, s1, s2)).1
            ∗ owns (c : Thread nD τ) arg9 fullShare (scStep x0 x1 x2 x3 (s0, s1, s2)).2.1
            ∗ owns (c : Thread nD τ) arg10 fullShare (scStep x0 x1 x2 x3 (s0, s1, s2)).2.2) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, Hk⟩
  subst hf0; subst hf1; subst hf2; subst hf3; subst hf4; subst hg0; subst hg1; subst hg2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    dsimp only
    rw [run1_read_writes_whole _ _ run1_hz4]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  isplitl [S0]
  · iexists _; isplitr
    swap; · iexact S0
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  isplitl [S1]
  · iexists _; isplitr
    swap; · iexact S1
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl
  · iexists _; isplitr
    swap; · iexact S2
    ipureintro
    sl_unfold_run_names
    dsimp only
    rw [run1_read_writes_whole _ _ run1_hz3]
    simp only [View.readAt_eq_ld, View.ld_unit_zero (S := S1x4x1024x64) run1_hz4, View.ld_unit_zero (S := S1x4x256x64) run1_hz4,
      View.ld_unit_zero (S := S1x1024x256) run1_hz3, View.ld_unit_zero (S := S4x1024x1) run1_hz3, View.ld_unit_zero (S := S4x1024x64) run1_hz3,
      View.readCov_unit_zero (S := S4x1024x1) _ run1_hz3, View.readCov_unit_zero (S := S4x1024x64) _ run1_hz3]
    rfl

/- The body's triple at any point: the key-block coordinate is below 8, so it is 0 (reset, no output), 7 (no reset,
   output stored) or strictly between (neither), and 0 and 7 differ; each is one of the three runs above. -/
set_option maxHeartbeats 4000000 in
theorem sound_kernel1 (c : Dev nD) (E : Set ℕ) (i : grid1.Coords)
    (arg3 : Memref sig .tc .vmem S1x4x1024x64 .bf16) (harg3 : arg3.IsWhole) (arg4 : Memref sig .tc .vmem S1x4x256x64 .bf16) (harg4 : arg4.IsWhole)
    (arg5 : Memref sig .tc .vmem S1x4x256x64 .bf16) (harg5 : arg5.IsWhole) (arg6 : Memref sig .tc .vmem S1x1024x256 .bf16) (harg6 : arg6.IsWhole)
    (arg7 : Memref sig .tc .vmem S1x4x1024x64 .bf16) (harg7 : arg7.IsWhole) (arg8 : Memref sig .tc .vmem S4x1024x1 .f32) (harg8 : arg8.IsWhole)
    (arg9 : Memref sig .tc .vmem S4x1024x1 .f32) (harg9 : arg9.IsWhole) (arg10 : Memref sig .tc .vmem S4x1024x64 .f32) (harg10 : arg10.IsWhole)
    (x0 : Vec F S1x4x1024x64 .bf16) (x1 x2 : Vec F S1x4x256x64 .bf16) (x3 : Vec F S1x1024x256 .bf16)
    (y : Vec F S1x4x1024x64 .bf16) (s : Sc F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ owns (c : Thread nD τ) arg8 fullShare s.1 ∗ owns (c : Thread nD τ) arg9 fullShare s.2.1 ∗ owns (c : Thread nD τ) arg10 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare
                (if (i 2).val = 7 then outFin (scStep x0 x1 x2 x3 (if (i 2).val = 0 then scInit else s)) else y)
            ∗ owns (c : Thread nD τ) arg8 fullShare (scStep x0 x1 x2 x3 (if (i 2).val = 0 then scInit else s)).1
            ∗ owns (c : Thread nD τ) arg9 fullShare (scStep x0 x1 x2 x3 (if (i 2).val = 0 then scInit else s)).2.1
            ∗ owns (c : Thread nD τ) arg10 fullShare (scStep x0 x1 x2 x3 (if (i 2).val = 0 then scInit else s)).2.2) -∗ K ⟨⟩))
      ⊢ wp frame (wpE (defs₀ (F := F)) Variants.none c none) E
          (cc1__attn_kernel i arg3 harg3 arg4 harg4 arg5 harg5 arg6 harg6 arg7 harg7 arg8 harg8 arg9 harg9 arg10 harg10) K := by
  obtain ⟨s0, s1, s2⟩ := s
  by_cases h0 : (i 2).val = 0
  · have h7 : ¬ (i 2).val = 7 := by omega
    simp only [if_pos h0, if_neg h7]
    exact run1_first c E i arg3 harg3 arg4 harg4 arg5 harg5 arg6 harg6 arg7 harg7 arg8 harg8 arg9 harg9 arg10 harg10
      ((run1_cond1_iff (i 2)).2 h0) (fun h => h7 ((run1_cond2_iff i).1 h)) x0 x1 x2 x3 y s0 s1 s2 K
  · by_cases h7 : (i 2).val = 7
    · simp only [if_neg h0, if_pos h7]
      exact run1_last c E i arg3 harg3 arg4 harg4 arg5 harg5 arg6 harg6 arg7 harg7 arg8 harg8 arg9 harg9 arg10 harg10
        (fun h => h0 ((run1_cond1_iff (i 2)).1 h)) ((run1_cond2_iff i).2 h7) x0 x1 x2 x3 y s0 s1 s2 K
    · simp only [if_neg h0, if_neg h7]
      exact run1_mid c E i arg3 harg3 arg4 harg4 arg5 harg5 arg6 harg6 arg7 harg7 arg8 harg8 arg9 harg9 arg10 harg10
        (fun h => h0 ((run1_cond1_iff (i 2)).1 h)) (fun h => h7 ((run1_cond2_iff i).1 h)) x0 x1 x2 x3 y s0 s1 s2 K

end Region1

end Cert.KernelIdeal.Hand

end
-- ==== Proof.KernelIdeal.Reg1Body.lean ====
/-
  The attention launch's body obligation: at every point the staging buffers hold the point's blocks (an input fetched
  or kept from the point before; the query block is fetched only at a first key block), the scratch arrays hold the
  triple the point before left (anything before the first point), and the body leaves the triple after this point; the
  output block is handed back untouched except at a last key block, where it is written back.
-/
import proofs.«423465_j4655744549114_3_alg».proof.Proof.Gen.KernelIdeal.Launch
import proofs.«423465_j4655744549114_3_alg».proof.Proof.Gen.KernelIdeal.Skeleton
import proofs.«423465_j4655744549114_3_alg».proof.Proof.Gen.KernelIdeal.Points
import proofs.«423465_j4655744549114_3_alg».proof.Proof.KernelIdeal.Reg1Defs
import proofs.«423465_j4655744549114_3_alg».proof.Proof.KernelIdeal.Reg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The grid's closed forms -/

/-- The key-block coordinate of point `t` is `t mod 8` (the key block runs fastest over eight blocks). -/
theorem coord2_1 : ∀ t : Fin cfg1.N, ((grid1.coords t) 2).val = t.val % 8 :=
  (by decide +kernel : ∀ t : Fin grid1.N, ((grid1.coords t) 2).val = t.val % 8)

/-- The output window is idle exactly away from the last key block. -/
theorem idle1_4_iff : ∀ t : Fin cfg1.N, cfg1.idle 4 (grid1.coords t) = true ↔ ¬ t.val % 8 = 7 :=
  (by decide +kernel : ∀ t : Fin grid1.N, idle1 4 (grid1.coords t) = true ↔ ¬ t.val % 8 = 7)

/-- At a last key block the output's buffer is left at the quotient of the carried triple after the point. -/
theorem leaves1_4_last (c : Dev nD) (t : Fin cfg1.N) (h7 : t.val % 8 = 7) :
    (dat1 V c).leavesExact 4 t = owns (c : Thread nD τ) (st1_4 t) fullShare (outFin (scAt1 V c t.val t.isLt)) := by
  have hi : cfg1.idle 4 (cfg1.grid.coords t) = false := by
    cases h : cfg1.idle 4 (cfg1.grid.coords t) with
    | false => rfl
    | true => exact absurd h7 ((idle1_4_iff t).mp h)
  unfold Dat.leavesExact; rw [hi, after1_4]

/-- Elsewhere it is handed back as found. -/
theorem leaves1_4_idle (c : Dev nD) (t : Fin cfg1.N) (h7 : ¬ t.val % 8 = 7) :
    (dat1 V c).leavesExact 4 t = iprop(∃ d, owns (c : Thread nD τ) (st1_4 t) fullShare ((dat1 V c).before 4 t d)) := by
  have hf : (cfg1.win 4).flush t = false := by
    cases h : (cfg1.win 4).flush t with
    | false => rfl
    | true => exact absurd ((flush1_4 t).mp h) h7
  exact Dat.leavesExact_idle (dat1 V c) 4 t ((idle1_4_iff t).mpr h7) hf

/-! ## The invariant before the first point -/

/-- Before the first point the invariant holds the three scratch arrays at some contents, the other launches' staging
    buffers and the generator register. -/
theorem PhiA1_split (c : Dev nD) :
    (Pipeline.ΦA spec1 c : sProp 𝕄) ⊢ iprop((∃ d, owns (c : Thread nD τ) scM0 fullShare d) ∗ (∃ d, owns (c : Thread nD τ) scM1 fullShare d)
      ∗ (∃ d, owns (c : Thread nD τ) scM2 fullShare d) ∗ restOther1 (F := F) c ∗ (∃ r, prngReg c r)) := by
  unfold Pipeline.ΦA restOther1; rw [scopedRest1_eq]; simp only [scM0, scM1, scM2, owns_whole]
  iintro ⟨⟨A0, A1, A2, A3, A4, A5, S0, S1, S2, B0, B1, B2, B3, B4, B5⟩, Hg⟩
  isplitl [S0]; · iexact S0
  isplitl [S1]; · iexact S1
  isplitl [S2]; · iexact S2
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [B0]; · iexact B0
  isplitl [B1]; · iexact B1
  isplitl [B2]; · iexact B2
  isplitl [B3]; · iexact B3
  isplitl [B4]; · iexact B4
  iexact B5

/-! ## The body at a point -/

/-- The body at point `t` on the point's staging memrefs holding the point's blocks, the output's buffer at any contents
    `y` and the scratch arrays at a triple `s` that, past a first key block, is the one the point before left: it leaves the
    scratch arrays at the triple after this point and the output's buffer at that triple's quotient at a last key block,
    at `y` elsewhere. -/
theorem body_run1 (c : Dev nD) (t : Fin cfg1.N) (y yo : Vec F S1x4x1024x64 .bf16) (s : Sc F)
    (hs : ¬ t.val % 8 = 0 → s = scAt1 V c (t.val - 1) (Nat.lt_of_le_of_lt (Nat.sub_le _ _) t.isLt))
    (hyo : yo = if t.val % 8 = 7 then outFin (scAt1 V c t.val t.isLt) else y) (K : PUnit → sProp 𝕄) :
    iprop(owns (c : Thread nD τ) (st1_0 t) fullShare (iblk1 V c 0 t) ∗ owns (c : Thread nD τ) (st1_1 t) fullShare (iblk1 V c 1 t)
        ∗ owns (c : Thread nD τ) (st1_2 t) fullShare (iblk1 V c 2 t) ∗ owns (c : Thread nD τ) (st1_3 t) fullShare (iblk1 V c 3 t)
        ∗ owns (c : Thread nD τ) (st1_4 t) fullShare y
        ∗ owns (c : Thread nD τ) scM0 fullShare s.1 ∗ owns (c : Thread nD τ) scM1 fullShare s.2.1 ∗ owns (c : Thread nD τ) scM2 fullShare s.2.2
        ∗ (iprop(owns (c : Thread nD τ) (st1_0 t) fullShare (iblk1 V c 0 t) ∗ owns (c : Thread nD τ) (st1_1 t) fullShare (iblk1 V c 1 t)
            ∗ owns (c : Thread nD τ) (st1_2 t) fullShare (iblk1 V c 2 t) ∗ owns (c : Thread nD τ) (st1_3 t) fullShare (iblk1 V c 3 t)
            ∗ owns (c : Thread nD τ) (st1_4 t) fullShare yo
            ∗ owns (c : Thread nD τ) scM0 fullShare (scAt1 V c t.val t.isLt).1 ∗ owns (c : Thread nD τ) scM1 fullShare (scAt1 V c t.val t.isLt).2.1
            ∗ owns (c : Thread nD τ) scM2 fullShare (scAt1 V c t.val t.isLt).2.2) -∗ K ⟨⟩))
      ⊢ wp frame (wpE (defs₀ (F := F)) Variants.none c none) Set.univ (bodyAt1 t) K := by
  have hsc : scStep (iblk1 V c 0 t) (iblk1 V c 1 t) (iblk1 V c 2 t) (iblk1 V c 3 t)
      (if ((grid1.coords t) 2).val = 0 then scInit else s) = scAt1 V c t.val t.isLt := by
    rw [coord2_1 t]
    by_cases h0 : t.val % 8 = 0
    · rw [if_pos h0, scAt1_first V c t h0]
    · rw [if_neg h0, scAt1_next V c t h0, hs h0]
  refine BI.Entails.trans ?_ (sound_kernel1 (F := F) c Set.univ (grid1.coords t) _ _ _ _ _ _ _ _ _ _ _ _ _ _ _ _
    (iblk1 V c 0 t) (iblk1 V c 1 t) (iblk1 V c 2 t) (iblk1 V c 3 t) y s K)
  rw [hsc, coord2_1 t, ← hyo]
  exact BI.Entails.refl _

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

/-- The body at any point. The inputs' buffers hold their blocks; the invariant hands the body the scratch arrays at the
    triple the point before left (at anything before the first point, which is a first key block, where the body resets
    them) and takes them back at the triple after this point; at a last key block the output's buffer ends at that
    triple's quotient, elsewhere it goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2, before1_3]
  rw [show (dat1 V c).owesAt () t.succ = (dat1 V c).owesAt () t.castSucc from rfl,
    show (dat1 V c).Φ t.succ = PhiS V c (t.val + 1) t.isLt from rfl, PhiS_succ,
    after1_0, after1_1, after1_2, after1_3, PhiS_castSucc V c t]
  by_cases h7 : t.val % 8 = 7
  · have hz : t.val ≠ 0 := fun h => by rw [h] at h7; exact absurd h7 (by decide)
    rw [leaves1_4_last V c t h7, PhiS_pos V c _ _ hz]
    iintro ⟨⟨HS0, HS1, HS2, Hr, Hg⟩, Ho, ⟨%d0, H0⟩, ⟨%d1, H1⟩, ⟨%d2, H2⟩, ⟨%d3, H3⟩, ⟨%d4, H4⟩⟩
    iapply (body_run1 V c t ((dat1 V c).before 4 t d4) (outFin (scAt1 V c t.val t.isLt)) _ (fun _ => rfl) (if_pos h7).symm _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hr Hg]
    · isplitl [HS0]; · iexact HS0
      isplitl [HS1]; · iexact HS1
      isplitl [HS2]; · iexact HS2
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [leaves1_4_idle V c t h7]
    by_cases hz : t.val = 0
    · have h0 : t.val % 8 = 0 := by rw [hz]
      rw [PhiS_zero V c _ _ hz]
      iintro ⟨HΦ, Ho, ⟨%d0, H0⟩, ⟨%d1, H1⟩, ⟨%d2, H2⟩, ⟨%d3, H3⟩, ⟨%d4, H4⟩⟩
      icases (PhiA1_split c) $$ HΦ with ⟨⟨%e0, HS0⟩, ⟨%e1, HS1⟩, ⟨%e2, HS2⟩, Hr, Hg⟩
      iapply (body_run1 V c t ((dat1 V c).before 4 t d4) ((dat1 V c).before 4 t d4) (e0, e1, e2) (fun h => absurd h0 h) (if_neg h7).symm _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      isplitl [H3]; · iexact H3
      iexists d4; iexact H4
    · rw [PhiS_pos V c _ _ hz]
      iintro ⟨⟨HS0, HS1, HS2, Hr, Hg⟩, Ho, ⟨%d0, H0⟩, ⟨%d1, H1⟩, ⟨%d2, H2⟩, ⟨%d3, H3⟩, ⟨%d4, H4⟩⟩
      iapply (body_run1 V c t ((dat1 V c).before 4 t d4) ((dat1 V c).before 4 t d4) _ (fun _ => rfl) (if_neg h7).symm _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hr Hg]
      · isplitl [HS0]; · iexact HS0
        isplitl [HS1]; · iexact HS1
        isplitl [HS2]; · iexact HS2
        isplitl [Hr]; · iexact Hr
        iexact Hg
      isplitl [Ho]; · iexact Ho
      isplitl [H0]; · iexact H0
      isplitl [H1]; · iexact H1
      isplitl [H2]; · iexact H2
      isplitl [H3]; · iexact H3
      iexists d4; iexact H4

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Fold.lean ====
/-
  The contents of the core's buffers at each boundary between two items of the program, as a fold from the launch
  memory: a stretch of host operations applies them; a kernel launch leaves its arrays at what its write-backs make
  of them and every other buffer as it was.
-/
import proofs.«423465_j4655744549114_3_alg».proof.Proof.Gen.KernelIdeal.Launch
import proofs.«423465_j4655744549114_3_alg».proof.Proof.Gen.KernelIdeal.Skeleton
import proofs.«423465_j4655744549114_3_alg».proof.Proof.Gen.KernelIdeal.Points
import proofs.«423465_j4655744549114_3_alg».proof.Proof.KernelIdeal.Reg0
import proofs.«423465_j4655744549114_3_alg».proof.Proof.KernelIdeal.Reg1Defs
import proofs.«423465_j4655744549114_3_alg».proof.Proof.KernelIdeal.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first projection's entry). -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b

/-- At launch 0's exit: its arrays at what its write-backs leave, every other buffer as at its entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- After the three host stretches between the first projection and the attention launch. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b

/-- At launch 1's exit: its arrays at what its write-backs leave, every other buffer as at its entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

/-- After the host stretch between the attention launch and the output projection. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At launch 2's exit: its arrays at what its write-backs leave, every other buffer as at its entry. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

/-- After the last host stretch: the program's end. -/
abbrev W9 : Dev nD → Valuation τ sig (Elt F) := fun c => StableHlo.after hostOps3 (W8 m ρ c)

end Cert.KernelIdeal.Hand

end
-- ==== Proof.KernelIdeal.Run.lean ====
/-
  The whole program's run. The entry function is nine items in order: a stretch of host operations, the first
  projection launch, three stretches of host operations, the attention launch, a stretch, the second projection
  launch, a last stretch. Between two items every buffer that outlives a launch holds a named content: the launch
  memory, then, stretch by stretch, what the stretch's operations compute from the contents before it, and, launch
  by launch, the launch's arrays at what its write-backs leave with every other buffer as the launch found it.
  The three launches are composed over these contents, and at the end every such buffer is read at the last of them.
-/
import proofs.«423465_j4655744549114_3_alg».proof.Proof.Gen.KernelIdeal.Launch
import proofs.«423465_j4655744549114_3_alg».proof.Proof.Gen.KernelIdeal.Skeleton
import proofs.«423465_j4655744549114_3_alg».proof.Proof.Gen.KernelIdeal.Points
import proofs.«423465_j4655744549114_3_alg».proof.Proof.Gen.KernelIdeal.Regions
import proofs.«423465_j4655744549114_3_alg».proof.Proof.KernelIdeal.Reg0
import proofs.«423465_j4655744549114_3_alg».proof.Proof.KernelIdeal.Reg2
import proofs.«423465_j4655744549114_3_alg».proof.Proof.KernelIdeal.Reg1Defs
import proofs.«423465_j4655744549114_3_alg».proof.Proof.KernelIdeal.Reg1Body
import proofs.«423465_j4655744549114_3_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at a launch's exit, read at the core's own references

The contents between items are the fold `W0` … `W9`: the launch memory, each stretch's operations applied to the
contents before it, each launch's arrays at what its write-backs leave and every other buffer as the launch found it. -/

/-- The first projection launch's exit contents read at the core's own references. -/
abbrev V2 : (c : Dev nD) → (b : Ref sig .tc) → Buf (Elt F) ((c : Thread nD τ).loc b) := fun c b => W2 m ρ c b
/-- At the first projection launch's exit each of its arrays holds what its write-backs leave, and every other buffer
    what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The attention launch's exit contents read at the core's own references. -/
abbrev V6 : (c : Dev nD) → (b : Ref sig .tc) → Buf (Elt F) ((c : Thread nD τ).loc b) := fun c b => W6 m ρ c b
/-- At the attention launch's exit each of its arrays holds what its write-backs leave, and every other buffer what it
    held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- The second projection launch's exit contents read at the core's own references. -/
abbrev V8 : (c : Dev nD) → (b : Ref sig .tc) → Buf (Elt F) ((c : Thread nD τ).loc b) := fun c b => W8 m ρ c b
/-- At the second projection launch's exit each of its arrays holds what its write-backs leave, and every other buffer
    what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### The arguments end as launched: no host operation writes one, and a launch reads one through an input window
    or not at all, so the contents at an argument's buffer walk back to the launch memory -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps3 _ hostOps3_writes (by decide)
    _ = W7 m ρ c (Proc.devRef .tc main_arg8) := (W8_arr m ρ c 2).trans (((dat2 (V7 m ρ) c).arrAt_in 2 rfl _).trans (A_eq2 (V7 m ρ) c 2))
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

/-- Every launch's proof data, each at its launch's entry contents: a literal choice on the launch's index. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a launch's
    invariant takes it in and gives it back) and the core owing nothing. -/
abbrev R (c : Dev nD) : sProp 𝕄 := iprop((∃ r, prngReg c r) ∗ ∃ W, owes (c : Thread nD τ) (0 : CellTallies nD τ sig Unit) W)
/-- A stretch of host operations as an item: over the unscoped buffers from the contents `W`, `R` riding along; it
    leaves those buffers at what the operations compute from `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last contents, the generator register at
    some state. -/
abbrev Tₙ (c : Dev nD) : sProp 𝕄 := iprop(StableHlo.held (c : Thread nD τ) (Pipeline.ucRefs τ sig) (W9 m ρ c) ∗ ∃ r, prngReg c r)

/-- A whole scratch array held at named contents is held at some contents. -/
theorem owns_whole_forget (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  rw [owns_whole]
  iintro H; iexists _; iexact H

/-! ## The launches as items -/

set_option backward.isDefEq.respectTransparency.types false in
/-- THE FIRST PROJECTION LAUNCH over the thread state: entered from every unscoped buffer at `W1`, left at `W2`. Its
    arrays are split out of the unscoped buffers at entry and put back at the exit contents; the generator register
    goes into the launch's invariant (the scoped buffers it stages nothing in, the register) and comes back; nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION LAUNCH over the thread state: entered from every unscoped buffer at `W5`, left at `W6`. Its
    arrays are split out of the unscoped buffers at entry and put back at the exit contents; the generator register
    goes into the launch's invariant (the scoped buffers it stages nothing in, the register) and comes back; nothing
    is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hN : cfg1.N ≠ 0 := by rw [show cfg1.N = grid1.N from rfl, N_1]; decide
    rw [Pipeline.ownSems0_none, show (pdats m ρ 1 c).Φ (Fin.last _) = PhiS (V5 m ρ) c cfg1.N (Nat.le_refl _) from PhiS_last (V5 m ρ) c,
      PhiS_pos (V5 m ρ) c cfg1.N (Nat.le_refl _) hN,
      show Pipeline.scopedRest (Ix := Unit) (Name := ℕ) (U := UR sig nD τ) (Lvl := ℕ) (Val := Elt F) (Pipeline.pin (pcfgs (F := F)) adm 1).spec c
        = Pipeline.scopedRest spec1 c from rfl, scopedRest1_eq]
    unfold restOther1
    iintro ⟨H0, H1, H2, ⟨Ha, Hb, Hc, Hd, He, Hf, Hg, Hh, Hi, Hj, Hk, Hl⟩, Hr⟩
    isplitl [Hr]; · iexact Hr
    isplitr; · iempintro
    isplitl [Ha]; · iexact Ha
    isplitl [Hb]; · iexact Hb
    isplitl [Hc]; · iexact Hc
    isplitl [Hd]; · iexact Hd
    isplitl [He]; · iexact He
    isplitl [Hf]; · iexact Hf
    isplitl [H0]; · iapply (owns_whole_forget c cc1_scratch0 _); iexact H0
    isplitl [H1]; · iapply (owns_whole_forget c cc1_scratch1 _); iexact H1
    isplitl [H2]; · iapply (owns_whole_forget c cc1_scratch2 _); iexact H2
    isplitl [Hg]; · iexact Hg
    isplitl [Hh]; · iexact Hh
    isplitl [Hi]; · iexact Hi
    isplitl [Hj]; · iexact Hj
    isplitl [Hk]; · iexact Hk
    iexact Hl
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PROJECTION LAUNCH over the thread state: entered from every unscoped buffer at `W7`, left at `W8`. Its
    arrays are split out of the unscoped buffers at entry and put back at the exit contents; the generator register
    goes into the launch's invariant (the scoped buffers it stages nothing in, the register) and comes back; nothing
    is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as items, and the launch -/

/-- The entry function's nine items in order: a host item per stretch from its boundary's contents, a launch item per
    kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- The entry function IS the run of the items: it is the chain of their programs, and the items' run is that chain. -/
theorem main_run (c : Dev nD) : main (F := F) c = Pipeline.Seg.run (segs m ρ) := (main_chain c).trans (by chain_rfl)

set_option backward.isDefEq.respectTransparency.types false in
/-- THE RUN. From any memory with zero counters, every weakly fair execution of the entry function terminates,
    nothing faulting, and in every final state each unscoped buffer of each core holds the last contents `W9`:
    the three launches composed over the items, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The run read at the result and at the ten arguments: the result's buffer holds the last contents there, and each
    argument's buffer what it held at launch. -/
theorem run_result : θ_run defs (onTc (τ := τ) (main (F := F))) ⟨m, fun _ => 0, ρ⟩ (fun r => ∀ c : Dev nD,
      r.2.mem ((c.tc : Thread nD τ).loc main_v57) = W9 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨h c _ (mem_uc main_v57 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩) (run_all m ρ)

/-- THE FRAME: every weakly fair execution of the entry function terminates, nothing faulting, and every final state
    has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.KernelIdeal.Hand

end
-- ==== Proof.Spec.lean ====
/-
  The mathematics both programs compute, over the extended reals, as functions of coordinates.
  A linear layer is x·W + b. One attention head takes query, key and value rows and a bias table: the logit of
  query row i against key row j is their inner product divided by 8 plus the bias; each row's logits are shifted by
  the row maximum and exponentiated; a weight is that exponential over the row's sum of them; the output row is the
  weights' combination of the value rows.
-/
import Idealize.ShloMosaic.PureOps.Ideal

noncomputable section

namespace Cert.Spec

open Idealize.ShloMosaic

/-- Row `r`, column `j` of x·W + b, the weight indexed (inner, column). -/
def lin {R K N : ℕ} (x : Fin R → Fin K → EReal) (w : Fin K → Fin N → EReal) (b : Fin N → EReal) (r : Fin R) (j : Fin N) : EReal :=
  (∑ k : Fin K, x r k * w k j) + b j

section Attn

variable {L D : ℕ} (q k v : Fin L → Fin D → EReal) (bias : Fin L → Fin L → EReal)

/-- The logit of query row `i` against key row `j`. -/
def logit (i j : Fin L) : EReal := Ideal.div (∑ d : Fin D, q i d * k j d) ((8 : ℝ) : EReal) + bias i j

/-- The largest logit of row `i`. -/
def rowMax (i : Fin L) : EReal := Finset.univ.sup fun j => logit q k bias i j

/-- The shifted exponential of one logit. -/
def wgt (i j : Fin L) : EReal := Ideal.exp (logit q k bias i j - rowMax q k bias i)

/-- Row `i`'s normaliser. -/
def den (i : Fin L) : EReal := ∑ j : Fin L, wgt q k bias i j

/-- The attention output at row `i`, feature `d`. -/
def attn (i : Fin L) (d : Fin D) : EReal := ∑ j : Fin L, Ideal.div (wgt q k bias i j) (den q k bias i) * v j d

end Attn

end Cert.Spec

end
-- ==== Proof.SpecFinal.lean ====
/-
  The whole layer, over the extended reals, as a function of coordinates: the three projections of the input (a
  projection's feature j of row (b, l) is the inner product of the row with the weight's row j, plus the bias), the
  sixteen heads' attention over them (head h uses features 64·h … 64·h + 63), and the output projection of the heads
  merged back into 1024 features.
-/
import proofs.«423465_j4655744549114_3_alg».proof.Proof.Spec

noncomputable section

namespace Cert.Spec

open Idealize.ShloMosaic

/-- Feature `d` of head `h` among the 1024 features. -/
def hd (h : Fin 16) (d : Fin 64) : Fin 1024 := ⟨h.val * 64 + d.val, by omega⟩

/-- The head a feature belongs to, and its place in that head. -/
def hdOf (c : Fin 1024) : Fin 16 := ⟨c.val / 64, by omega⟩
def dOf (c : Fin 1024) : Fin 64 := ⟨c.val % 64, Nat.mod_lt _ (by decide)⟩

/-- A projection of the input: batch `b`, row `l`, feature `j`. -/
def proj (x : Fin 4 → Fin 2048 → Fin 1024 → EReal) (w : Fin 1024 → Fin 1024 → EReal) (bb : Fin 1024 → EReal)
    (b : Fin 4) (l : Fin 2048) (j : Fin 1024) : EReal :=
  (∑ c : Fin 1024, x b l c * w j c) + bb j

/-- Head `h`'s attention output for batch `b`, query row `i`, feature `d` of the head. -/
def headOut (x : Fin 4 → Fin 2048 → Fin 1024 → EReal) (wq : Fin 1024 → Fin 1024 → EReal) (bq : Fin 1024 → EReal)
    (wk : Fin 1024 → Fin 1024 → EReal) (bk : Fin 1024 → EReal) (wv : Fin 1024 → Fin 1024 → EReal) (bv : Fin 1024 → EReal)
    (bias : Fin 16 → Fin 2048 → Fin 2048 → EReal) (b : Fin 4) (h : Fin 16) (i : Fin 2048) (d : Fin 64) : EReal :=
  attn (fun i d => proj x wq bq b i (hd h d)) (fun j d => proj x wk bk b j (hd h d)) (fun j d => proj x wv bv b j (hd h d))
    (bias h) i d

/-- The layer's result at batch `b`, row `l`, feature `e`. -/
def final (x : Fin 4 → Fin 2048 → Fin 1024 → EReal) (wq : Fin 1024 → Fin 1024 → EReal) (bq : Fin 1024 → EReal)
    (wk : Fin 1024 → Fin 1024 → EReal) (bk : Fin 1024 → EReal) (wv : Fin 1024 → Fin 1024 → EReal) (bv : Fin 1024 → EReal)
    (wo : Fin 1024 → Fin 1024 → EReal) (bo : Fin 1024 → EReal)
    (bias : Fin 16 → Fin 2048 → Fin 2048 → EReal) (b : Fin 4) (l : Fin 2048) (e : Fin 1024) : EReal :=
  (∑ c : Fin 1024, headOut x wq bq wk bk wv bv bias b (hdOf c) l (dOf c) * wo e c) + bo e

end Cert.Spec

end
-- ==== Proof.KerArgs.lean ====
/-
  The argument arrays read at coordinates, and the bias table as the attention launch finds it.
-/
import proofs.«423465_j4655744549114_3_alg».proof.Proof.KernelIdeal.Fold
import proofs.«423465_j4655744549114_3_alg».proof.Proof.SpecFinal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The input at batch `b`, row `l`, feature `k`. -/
abbrev argX (c : Dev nD) : Fin 4 → Fin 2048 → Fin 1024 → EReal :=
  fun b l k => (m ((c.tc : Thread nD τ).loc main_arg0) : S4x2048x1024.Idx → EReal) (ix3 b l k)
/-- The four weights at (output feature, input feature) and the four biases. -/
abbrev argWq (c : Dev nD) : Fin 1024 → Fin 1024 → EReal := fun j k => (m ((c.tc : Thread nD τ).loc main_arg1) : S1024x1024.Idx → EReal) (ix2 j k)
abbrev argBq (c : Dev nD) : Fin 1024 → EReal := fun j => (m ((c.tc : Thread nD τ).loc main_arg2) : S1024.Idx → EReal) (ix1 j)
abbrev argWk (c : Dev nD) : Fin 1024 → Fin 1024 → EReal := fun j k => (m ((c.tc : Thread nD τ).loc main_arg3) : S1024x1024.Idx → EReal) (ix2 j k)
abbrev argBk (c : Dev nD) : Fin 1024 → EReal := fun j => (m ((c.tc : Thread nD τ).loc main_arg4) : S1024.Idx → EReal) (ix1 j)
abbrev argWv (c : Dev nD) : Fin 1024 → Fin 1024 → EReal := fun j k => (m ((c.tc : Thread nD τ).loc main_arg5) : S1024x1024.Idx → EReal) (ix2 j k)
abbrev argBv (c : Dev nD) : Fin 1024 → EReal := fun j => (m ((c.tc : Thread nD τ).loc main_arg6) : S1024.Idx → EReal) (ix1 j)
abbrev argWo (c : Dev nD) : Fin 1024 → Fin 1024 → EReal := fun j k => (m ((c.tc : Thread nD τ).loc main_arg7) : S1024x1024.Idx → EReal) (ix2 j k)
abbrev argBo (c : Dev nD) : Fin 1024 → EReal := fun j => (m ((c.tc : Thread nD τ).loc main_arg8) : S1024.Idx → EReal) (ix1 j)

/-- The bias table (head, query row, key row) as the attention launch finds it. -/
abbrev kerBias (c : Dev nD) : Fin 16 → Fin 2048 → Fin 2048 → EReal :=
  fun h i j => (V5 m ρ c main_v50 : S16x2048x2048.Idx → EReal) (ix3 h i j)

/-- Every entry of every argument array is a real number. -/
def ArgsReal (c : Dev nD) : Prop :=
  (∀ i, ∃ r : ℝ, (m ((c.tc : Thread nD τ).loc main_arg0) : S4x2048x1024.Idx → EReal) i = (r : EReal))
  ∧ (∀ i, ∃ r : ℝ, (m ((c.tc : Thread nD τ).loc main_arg1) : S1024x1024.Idx → EReal) i = (r : EReal))
  ∧ (∀ i, ∃ r : ℝ, (m ((c.tc : Thread nD τ).loc main_arg2) : S1024.Idx → EReal) i = (r : EReal))
  ∧ (∀ i, ∃ r : ℝ, (m ((c.tc : Thread nD τ).loc main_arg3) : S1024x1024.Idx → EReal) i = (r : EReal))
  ∧ (∀ i, ∃ r : ℝ, (m ((c.tc : Thread nD τ).loc main_arg4) : S1024.Idx → EReal) i = (r : EReal))
  ∧ (∀ i, ∃ r : ℝ, (m ((c.tc : Thread nD τ).loc main_arg5) : S1024x1024.Idx → EReal) i = (r : EReal))
  ∧ (∀ i, ∃ r : ℝ, (m ((c.tc : Thread nD τ).loc main_arg6) : S1024.Idx → EReal) i = (r : EReal))
  ∧ (∀ i, ∃ r : ℝ, (m ((c.tc : Thread nD τ).loc main_arg7) : S1024x1024.Idx → EReal) i = (r : EReal))
  ∧ (∀ i, ∃ r : ℝ, (m ((c.tc : Thread nD τ).loc main_arg8) : S1024.Idx → EReal) i = (r : EReal))
  ∧ (∀ i, ∃ r : ℝ, (m ((c.tc : Thread nD τ).loc main_arg9) : S32x16.Idx → EReal) i = (r : EReal))

end Cert.KernelIdeal.Val

end
-- ==== Proof.Val0.lean ====
/-
  What the first projection launch leaves in its result array, over the extended reals: row r, column j is the
  inner product of row r of the flattened input with column j of the transposed weight, plus the bias' entry j.
  Each grid point writes the 512 rows of its block; the sixteen blocks tile the array.
-/
import proofs.«423465_j4655744549114_3_alg».proof.Proof.KernelIdeal.Reg0
import proofs.«423465_j4655744549114_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## The product's operand indices, coordinate by coordinate -/

/-- The left operand's row is the result's row. -/
theorem lhs_lin0_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

/-- The left operand's column is the contraction index. -/
theorem lhs_lin0_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q

/-- The right operand's row is the contraction index. -/
theorem rhs_lin0_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q

/-- The right operand's column is the result's column. -/
theorem rhs_lin0_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-! ## The block's payload at an index -/

/-- The product of a 512 x 1024 block with the 1024 x 3072 transposed weight into the zero accumulator, at row p and column q:
    the inner product of the block's row p with the transposed weight's column q. -/
theorem matmul_lin0_apply (a : FVec Ideal S512x1024 .bf16) (w : FVec Ideal S1024x3072 .bf16) (p : Fin 512) (q : Fin 3072) :
    (matmul dot_S512x1024_S1024x3072_S512x3072_1_0_0_1_n_n none a w (constant (F := Ideal) S512x3072 .f32 0x00000000#32) : S512x3072.Idx → EReal) (ix2 p q)
      = ∑ k : Fin 1024, a (ix2 p k) * w (ix2 k q) := by
  refine (Ideal.matmul_constant_zero_apply dot_S512x1024_S1024x3072_S512x3072_1_0_0_1_n_n none a w (ix2 p q)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k :=
    funext fun ax => Fin.ext (by
      match ax with
      | ⟨0, _⟩ => exact lhs_lin0_0 _ _
      | ⟨1, _⟩ => exact (lhs_lin0_1 _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q :=
    funext fun ax => Fin.ext (by
      match ax with
      | ⟨0, _⟩ => exact (rhs_lin0_0 _ _).trans hk
      | ⟨1, _⟩ => exact rhs_lin0_1 _ _)
  rw [el, er]

/-- The bias, a vector of 3072 entries laid out as one row and copied down the 512 rows, at row p and column q: entry q. -/
theorem bias_lin0_apply (b : FVec Ideal S3072 .f32) (p : Fin 512) (q : Fin 3072) :
    (broadcastTo S512x3072 (shapeCast S1x3072 (shapeCast S3072 b Facts₀.shapeCasts_S3072_S3072) Facts₀.shapeCasts_S3072_S1x3072)
        Facts₀.broadcasts_S1x3072_S512x3072 : S512x3072.Idx → EReal) (ix2 p q) = b (ix1 q) := by
  rw [broadcastTo_1b_ab_apply, shapeCast_a_1a_apply, shapeCast_self]

/-- What one grid point stores, at row p and column q of its block: the inner product of row p of the input block with
    column q of the transposed weight, plus the bias' entry q. The changes of format are the identity on the extended reals. -/
theorem pay_lin0_apply (x0 : Vec Ideal S512x1024 .f32) (x1 : Vec Ideal S1024x3072 .bf16) (x2 : Vec Ideal S3072 .f32) (p : Fin 512) (q : Fin 3072) :
    (k0_pay1 x0 x1 x2 : S512x3072.Idx → EReal) (ix2 p q) = (∑ k : Fin 1024, x0 (ix2 p k) * x1 (ix2 k q)) + x2 (ix1 q) := by
  unfold k0_pay1
  refine (congrArg₂ (· + ·) (matmul_lin0_apply _ _ p q) (bias_lin0_apply x2 p q)).trans ?_
  simp only [shapeCast_self]
  rfl

/-! ## The blocks a grid point works on -/

variable (V : (c : Dev nD) → (b : Ref sig .tc) → Buf (Elt Ideal) ((c : Thread nD τ).loc b))

/-- The three argument arrays as functions of their indices into the extended reals. -/
abbrev xs (c : Dev nD) : S8192x1024.Idx → EReal := V c main_v0
abbrev ws (c : Dev nD) : S1024x3072.Idx → EReal := V c main_v3
abbrev bs (c : Dev nD) : S3072.Idx → EReal := V c main_v4

theorem zero2 : (![0, 0] : Fin 2 → Nat) = fun _ => 0 := funext fun a => by fin_cases a <;> rfl
theorem zero1 : (![0] : Fin 1 → Nat) = fun _ => 0 := funext fun a => by fin_cases a <;> rfl

/-- The printed index maps over the sixteen points: the input's and the result's blocks move down the rows with the
    point, the weight's and the bias' block is always the whole array. -/
theorem index_lin0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The input block at point t is rows 512 t … 512 t + 511 of the flattened input. -/
theorem iblk_x (c : Dev nD) (t : Fin cfg0.N) (p : Fin 512) (k : Fin 1024) (r : Fin 8192) (hr : r.val = 512 * t.val + p.val) :
    (iblk0 V c 0 t : Vec Ideal S512x1024 .f32) (ix2 p k) = xs V c (ix2 r k) := by
  obtain ⟨e0, e1, -⟩ := index_lin0 t
  unfold iblk0
  rw [View.read_apply]
  show V c main_v0 _ = V c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weight's block at every point is the whole transposed weight. -/
theorem iblk_w (c : Dev nD) (t : Fin cfg0.N) (k : Fin 1024) (q : Fin 3072) :
    (iblk0 V c 1 t : Vec Ideal S1024x3072 .bf16) (ix2 k q) = ws V c (ix2 k q) := by
  obtain ⟨-, -, e0, e1, -⟩ := index_lin0 t
  unfold iblk0
  rw [View.read_apply]
  show V c main_v3 _ = V c main_v3 _
  congr 1
  funext a
  apply Fin.ext
  match a with
  | ⟨0, _⟩ => show win0_1.index t (0 : Fin 2) * 1024 + 1 * k.val = k.val; rw [e0]; omega
  | ⟨1, _⟩ => show win0_1.index t (1 : Fin 2) * 3072 + 1 * q.val = q.val; rw [e1]; omega

/-- The bias' block at every point is the whole bias. -/
theorem iblk_b (c : Dev nD) (t : Fin cfg0.N) (q : Fin 3072) :
    (iblk0 V c 2 t : Vec Ideal S3072 .f32) (ix1 q) = bs V c (ix1 q) := by
  obtain ⟨-, -, -, -, e0, -⟩ := index_lin0 t
  unfold iblk0
  rw [View.read_apply]
  show V c main_v4 _ = V c main_v4 _
  congr 1
  funext a
  apply Fin.ext
  match a with
  | ⟨0, _⟩ => show win0_2.index t (0 : Fin 1) * 3072 + 1 * q.val = q.val; rw [e0]; omega

/-! ## From the blocks to the array -/

/-- What the result array ends holding: x·W + b of the three argument arrays, index by index. -/
abbrev lin0 (c : Dev nD) : S8192x3072.Idx → EReal := fun i =>
  Cert.Spec.lin (fun r k => xs V c (ix2 r k)) (fun k j => ws V c (ix2 k j)) (fun j => bs V c (ix1 j)) (i 0) (i 1)

/-- What point t stores at row p and column q of its block is x·W + b at row 512 t + p and column q. -/
theorem out_lin0_apply (c : Dev nD) (t : Fin cfg0.N) (p : Fin 512) (q : Fin 3072) (r : Fin 8192) (hr : r.val = 512 * t.val + p.val) :
    (k0_pay1 (iblk0 V c 0 t) (iblk0 V c 1 t) (iblk0 V c 2 t) : S512x3072.Idx → EReal) (ix2 p q) = lin0 V c (ix2 r q) := by
  refine (pay_lin0_apply (iblk0 V c 0 t) (iblk0 V c 1 t) (iblk0 V c 2 t) p q).trans ?_
  show _ = (∑ k : Fin 1024, xs V c (ix2 r k) * ws V c (ix2 k q)) + bs V c (ix1 q)
  refine congrArg₂ (· + ·) (Finset.sum_congr rfl fun k _ => ?_) (iblk_b V c t q)
  exact congrArg₂ (· * ·) (iblk_x V c t p k r hr) (iblk_w V c t k q)

/-- What point t writes back is its block of x·W + b. -/
theorem flushed_lin0 (c : Dev nD) (t : Fin cfg0.N) :
    (dat0 (F := Ideal) V c).flushed 3 t = ((cfg0.win 3).blk t).view.read (Elt Ideal) (lin0 V c) := by
  show (cfg0.win 3).cut (grid0.coords t) ((dat0 (F := Ideal) V c).after 3 t) = _
  rw [after0_3]
  unfold out0_3
  rw [View.canon_unit_zero zero2]
  simp only [View.ld_unit_zero (S := S512x1024) zero2, View.ld_unit_zero (S := S1024x3072) zero2, View.ld_unit_zero (S := S3072) zero1]
  obtain ⟨-, -, -, -, -, e0, e1⟩ := index_lin0 t
  funext y
  obtain ⟨p, q, rfl⟩ : ∃ (p : Fin 512) (q : Fin 3072), y = ix2 p q := ⟨y 0, y 1, eq_ix2 y⟩
  have ht : t.val < 16 := t.isLt
  refine (out_lin0_apply V c t p q ⟨512 * t.val + p.val, by omega⟩ rfl).trans ?_
  rw [View.read_apply]
  show lin0 V c _ = lin0 V c _
  congr 1
  funext a
  apply Fin.ext
  match a with
  | ⟨0, _⟩ => show 512 * t.val + p.val = win0_3.index t (0 : Fin 2) * 512 + 1 * p.val; rw [e0]; omega
  | ⟨1, _⟩ => show q.val = win0_3.index t (1 : Fin 2) * 3072 + 1 * q.val; rw [e1]; omega

/-- An index of the result array is in point t's block iff each coordinate is in the block's range on its axis. -/
theorem mem_blk_lin0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v5).slice (win0_3.rect t)).set ↔ _
  rw [View.set_slice_whole, Rect.mem_set_unit]
  exact Iff.rfl

/-- Every index of the result array is in some point's block: row r is in the block of point r / 512. -/
theorem cover_lin0 (i : S8192x3072.Idx) :
    ∃ t : Fin cfg0.N, (cfg0.win 3).flush t = true ∧ i ∈ ((cfg0.win 3).blk t).view.set := by
  have hi0 : (i 0).val < 8192 := idx2_lt0 i
  have hi1 : (i 1).val < 3072 := idx2_lt1 i
  have hN : cfg0.N = 16 := N_0
  refine ⟨⟨(i 0).val / 512, by rw [hN]; omega⟩, flush0_3 _, ?_⟩
  rw [mem_blk_lin0]
  obtain ⟨-, -, -, -, -, e0, e1⟩ := index_lin0 ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 3072 ≤ (i 1).val ∧ (i 1).val < win0_3.index _ (1 : Fin 2) * 3072 + 3072
    rw [e1]; omega

/-- So the result array ends holding x·W + b. -/
theorem final_lin0 (c : Dev nD) : (dat0 (F := Ideal) V c).arrAt 3 cfg0.N = lin0 V c :=
  (dat0 (F := Ideal) V c).arrAt_eq_of_cover 3 (lin0 V c) (fun t _ => flushed_lin0 V c t) cover_lin0

theorem val0 (c : Dev nD) (r : Fin 8192) (j : Fin 3072) :
    ((dat0 (F := Ideal) V c).arrAt 3 cfg0.N : S8192x3072.Idx → EReal) (ix2 r j)
      = Cert.Spec.lin (fun r k => (V c main_v0 : S8192x1024.Idx → EReal) (ix2 r k))
          (fun k j => (V c main_v3 : S1024x3072.Idx → EReal) (ix2 k j))
          (fun j => (V c main_v4 : S3072.Idx → EReal) (ix1 j)) r j := by
  rw [final_lin0 V c]

end Cert.KernelIdeal.Val

end
-- ==== Proof.LibNary3.lean ====
/-
  An operation over a literal family of THREE references (a concatenation of three operands) leaves in its result buffer
  its function applied to the three operands' contents, each read at its own reference; so the contents a later
  operation finds there can be traced on through the operands. General: no program is mentioned.
-/
import Idealize.ShloMosaic.Lib.StableHlo.Run
import Mathlib.Tactic.FinCases

noncomputable section

namespace Cert.LibNary3

open Idealize.ShloMosaic Idealize.ShloMosaic.StableHlo Idealize.SL.Sem

variable {τ : Topo} {sig : RefSig} {Val : EltTy → Type}
variable {x a b y : Ref sig .tc}

/-- The result of an operation over the literal family `![x, a, b]`, with each operand's contents at its own
    reference: the family `fun k => F (![x, a, b] k)` is, entry by entry, the three contents in order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a literal list of operations, one rewrite at a time: each operation's result at its
    own result buffer is its function's value, at any other reference what was there before; an operation over three
    literal references is read by `nary3_result`, so the trace goes on through its operands. -/
macro "after_results3" : tactic =>
  `(tactic| (simp only [StableHlo.after_cons, StableHlo.after_nil]
             repeat (first
               | rw [StableHlo.nullary_result] | rw [StableHlo.unary_result] | rw [StableHlo.binary_result]
               | rw [StableHlo.ternary_result] | rw [StableHlo.quaternary_result] | rw [StableHlo.reshape_result]
               | rw [StableHlo.binaryIndexed_result] | rw [StableHlo.nary4_result] | rw [Cert.LibNary3.nary3_result]
               | rw [StableHlo.nary_result] | rw [StableHlo.unaryIndexed_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide)
               | (rw [StableHlo.binaryIndexed_result_ne]; rotate_left; decide)
               | (rw [StableHlo.nary_result_ne]; rotate_left; decide)
               | (rw [StableHlo.unaryIndexed_result_ne]; rotate_left; decide))))

end Cert.LibNary3

end
-- ==== Proof.KerQKV.lean ====
/-
  The query, key and value arrays as the attention launch finds them are the specification's projections: entry
  (head h, batch b, row l, feature d) is the projection of input row (b, l) at feature 64·h + d. The first launch leaves
  x·W + b with the three weights side by side (columns 0–1023 queries, 1024–2047 keys, 2048–3071 values); the host
  stretch after it slices the three column ranges, splits the 1024 features into 16 heads of 64 and moves the head
  axis to the front.
-/
import proofs.«423465_j4655744549114_3_alg».proof.Proof.KerArgs
import proofs.«423465_j4655744549114_3_alg».proof.Proof.Val0
import proofs.«423465_j4655744549114_3_alg».proof.Proof.LibNary3
import proofs.«423465_j4655744549114_3_alg».proof.Proof.Gen.KernelIdeal.Regions
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

open Cert.LibNary3

/-! ## A concatenation of three equal pieces along the leading axis, read at an index

Row j of the three weights stacked is row j − 1024·p of weight p, for the p with 1024·p ≤ j < 1024·(p + 1); the same
for the three biases laid end to end. -/

/-- Rows 0–1023 of the stack are the first piece's rows. -/
theorem qkv_cat_w0 (A B C : S1024x1024.Idx → EReal) (j : Fin 3072) (k : Fin 1024) (j' : Fin 1024) (hj : j.val = 0 + j'.val) :
    concatenate S3072x1024 0 [⟨S1024x1024, A⟩, ⟨S1024x1024, B⟩, ⟨S1024x1024, C⟩]
        Facts₀.concatenates_S1024x1024_S1024x1024_S1024x1024_S3072x1024_d0 (ix2 j k) = A (ix2 j' k) :=
  concatenate_apply_piece 0 _ _ (ix2 j k) 0 (by show (_ : ℕ) < 3; omega) S1024x1024 A rfl rfl 0 rfl (ix2 j' k)
    (fun b hb => match b, hb with | ⟨0, _⟩, hb => absurd rfl hb | ⟨1, _⟩, _ => rfl)
    (by show 0 + j'.val = j.val; omega)

/-- Rows 1024–2047 of the stack are the second piece's rows. -/
theorem qkv_cat_w1 (A B C : S1024x1024.Idx → EReal) (j : Fin 3072) (k : Fin 1024) (j' : Fin 1024) (hj : j.val = 1024 + j'.val) :
    concatenate S3072x1024 0 [⟨S1024x1024, A⟩, ⟨S1024x1024, B⟩, ⟨S1024x1024, C⟩]
        Facts₀.concatenates_S1024x1024_S1024x1024_S1024x1024_S3072x1024_d0 (ix2 j k) = B (ix2 j' k) :=
  concatenate_apply_piece 0 _ _ (ix2 j k) 1 (by show (_ : ℕ) < 3; omega) S1024x1024 B rfl rfl 1024 rfl (ix2 j' k)
    (fun b hb => match b, hb with | ⟨0, _⟩, hb => absurd rfl hb | ⟨1, _⟩, _ => rfl)
    (by show 1024 + j'.val = j.val; omega)

/-- Rows 2048–3071 of the stack are the third piece's rows. -/
theorem qkv_cat_w2 (A B C : S1024x1024.Idx → EReal) (j : Fin 3072) (k : Fin 1024) (j' : Fin 1024) (hj : j.val = 2048 + j'.val) :
    concatenate S3072x1024 0 [⟨S1024x1024, A⟩, ⟨S1024x1024, B⟩, ⟨S1024x1024, C⟩]
        Facts₀.concatenates_S1024x1024_S1024x1024_S1024x1024_S3072x1024_d0 (ix2 j k) = C (ix2 j' k) :=
  concatenate_apply_piece 0 _ _ (ix2 j k) 2 (by show (_ : ℕ) < 3; omega) S1024x1024 C rfl rfl 2048 rfl (ix2 j' k)
    (fun b hb => match b, hb with | ⟨0, _⟩, hb => absurd rfl hb | ⟨1, _⟩, _ => rfl)
    (by show 2048 + j'.val = j.val; omega)

/-- Entries 0–1023 of the three vectors laid end to end are the first's. -/
theorem qkv_cat_b0 (A B C : S1024.Idx → EReal) (j : Fin 3072) (j' : Fin 1024) (hj : j.val = 0 + j'.val) :
    concatenate S3072 0 [⟨S1024, A⟩, ⟨S1024, B⟩, ⟨S1024, C⟩]
        Facts₀.concatenates_S1024_S1024_S1024_S3072_d0 (ix1 j) = A (ix1 j') :=
  concatenate_apply_piece 0 _ _ (ix1 j) 0 (by show (_ : ℕ) < 3; omega) S1024 A rfl rfl 0 rfl (ix1 j')
    (fun b hb => match b, hb with | ⟨0, _⟩, hb => absurd rfl hb)
    (by show 0 + j'.val = j.val; omega)

/-- Entries 1024–2047 are the second's. -/
theorem qkv_cat_b1 (A B C : S1024.Idx → EReal) (j : Fin 3072) (j' : Fin 1024) (hj : j.val = 1024 + j'.val) :
    concatenate S3072 0 [⟨S1024, A⟩, ⟨S1024, B⟩, ⟨S1024, C⟩]
        Facts₀.concatenates_S1024_S1024_S1024_S3072_d0 (ix1 j) = B (ix1 j') :=
  concatenate_apply_piece 0 _ _ (ix1 j) 1 (by show (_ : ℕ) < 3; omega) S1024 B rfl rfl 1024 rfl (ix1 j')
    (fun b hb => match b, hb with | ⟨0, _⟩, hb => absurd rfl hb)
    (by show 1024 + j'.val = j.val; omega)

/-- Entries 2048–3071 are the third's. -/
theorem qkv_cat_b2 (A B C : S1024.Idx → EReal) (j : Fin 3072) (j' : Fin 1024) (hj : j.val = 2048 + j'.val) :
    concatenate S3072 0 [⟨S1024, A⟩, ⟨S1024, B⟩, ⟨S1024, C⟩]
        Facts₀.concatenates_S1024_S1024_S1024_S3072_d0 (ix1 j) = C (ix1 j') :=
  concatenate_apply_piece 0 _ _ (ix1 j) 2 (by show (_ : ℕ) < 3; omega) S1024 C rfl rfl 2048 rfl (ix1 j')
    (fun b hb => match b, hb with | ⟨0, _⟩, hb => absurd rfl hb)
    (by show 2048 + j'.val = j.val; omega)

/-! ## The first launch's three arrays, as the first host stretch leaves them -/

/-- The flattened input: row 2048·b + l is row l of batch b (the row-major position is unchanged). -/
theorem qkv_x_read (c : Dev nD) (b : Fin 4) (l : Fin 2048) (k : Fin 1024) (r : Fin 8192) (hr : r.val = b.val * 2048 + l.val) :
    (Hand.V1 m ρ c main_v0 : S8192x1024.Idx → EReal) (ix2 r k) = argX m c b l k := by
  dsimp only [Hand.V1, W1]
  after_results3
  show shapeCast S8192x1024 (m ((c.tc : Thread nD τ).loc main_arg0) : S4x2048x1024.Idx → EReal) Facts₀.shapeCasts_S4x2048x1024_S8192x1024 (ix2 r k) = _
  exact shapeCast_apply _ _ (ix2 r k) (ix3 b l k) (by
    rw [Shape.rowMajor_val_three, Shape.rowMajor_val_two]
    show (b.val * 2048 + l.val) * 1024 + k.val = r.val * 1024 + k.val
    rw [hr])

/-- The transposed stack of the three weights, at (input feature k, column j) with j among the first 1024 columns: the query weight at (j, k). The change of format is the identity on the extended reals. -/
theorem qkv_w_read_q (c : Dev nD) (k : Fin 1024) (j : Fin 3072) (j' : Fin 1024) (hj : j.val = 0 + j'.val) :
    (Hand.V1 m ρ c main_v3 : S1024x3072.Idx → EReal) (ix2 k j) = argWq m c j' k := by
  dsimp only [Hand.V1, W1]
  after_results3
  refine (truncf_apply (ψ := .bf16) (φ := .f32) _ _ _).trans ?_
  refine (transpose_apply [1, 0] _ _ (ix2 k j) (ix2 j k) (fun b => match b with | ⟨0, _⟩ => rfl | ⟨1, _⟩ => rfl)).trans ?_
  exact qkv_cat_w0 (m ((c.tc : Thread nD τ).loc main_arg1)) (m ((c.tc : Thread nD τ).loc main_arg3)) (m ((c.tc : Thread nD τ).loc main_arg5)) j k j' hj

/-- The same at a column among the second 1024: the key weight at (j − 1024, k). -/
theorem qkv_w_read_k (c : Dev nD) (k : Fin 1024) (j : Fin 3072) (j' : Fin 1024) (hj : j.val = 1024 + j'.val) :
    (Hand.V1 m ρ c main_v3 : S1024x3072.Idx → EReal) (ix2 k j) = argWk m c j' k := by
  dsimp only [Hand.V1, W1]
  after_results3
  refine (truncf_apply (ψ := .bf16) (φ := .f32) _ _ _).trans ?_
  refine (transpose_apply [1, 0] _ _ (ix2 k j) (ix2 j k) (fun b => match b with | ⟨0, _⟩ => rfl | ⟨1, _⟩ => rfl)).trans ?_
  exact qkv_cat_w1 (m ((c.tc : Thread nD τ).loc main_arg1)) (m ((c.tc : Thread nD τ).loc main_arg3)) (m ((c.tc : Thread nD τ).loc main_arg5)) j k j' hj

/-- The same at a column among the last 1024: the value weight at (j − 2048, k). -/
theorem qkv_w_read_v (c : Dev nD) (k : Fin 1024) (j : Fin 3072) (j' : Fin 1024) (hj : j.val = 2048 + j'.val) :
    (Hand.V1 m ρ c main_v3 : S1024x3072.Idx → EReal) (ix2 k j) = argWv m c j' k := by
  dsimp only [Hand.V1, W1]
  after_results3
  refine (truncf_apply (ψ := .bf16) (φ := .f32) _ _ _).trans ?_
  refine (transpose_apply [1, 0] _ _ (ix2 k j) (ix2 j k) (fun b => match b with | ⟨0, _⟩ => rfl | ⟨1, _⟩ => rfl)).trans ?_
  exact qkv_cat_w2 (m ((c.tc : Thread nD τ).loc main_arg1)) (m ((c.tc : Thread nD τ).loc main_arg3)) (m ((c.tc : Thread nD τ).loc main_arg5)) j k j' hj

/-- The three biases laid end to end, at an entry among the first 1024: the query bias. -/
theorem qkv_b_read_q (c : Dev nD) (j : Fin 3072) (j' : Fin 1024) (hj : j.val = 0 + j'.val) :
    (Hand.V1 m ρ c main_v4 : S3072.Idx → EReal) (ix1 j) = argBq m c j' := by
  dsimp only [Hand.V1, W1]
  after_results3
  exact qkv_cat_b0 (m ((c.tc : Thread nD τ).loc main_arg2)) (m ((c.tc : Thread nD τ).loc main_arg4)) (m ((c.tc : Thread nD τ).loc main_arg6)) j j' hj

/-- At an entry among the second 1024: the key bias. -/
theorem qkv_b_read_k (c : Dev nD) (j : Fin 3072) (j' : Fin 1024) (hj : j.val = 1024 + j'.val) :
    (Hand.V1 m ρ c main_v4 : S3072.Idx → EReal) (ix1 j) = argBk m c j' := by
  dsimp only [Hand.V1, W1]
  after_results3
  exact qkv_cat_b1 (m ((c.tc : Thread nD τ).loc main_arg2)) (m ((c.tc : Thread nD τ).loc main_arg4)) (m ((c.tc : Thread nD τ).loc main_arg6)) j j' hj

/-- At an entry among the last 1024: the value bias. -/
theorem qkv_b_read_v (c : Dev nD) (j : Fin 3072) (j' : Fin 1024) (hj : j.val = 2048 + j'.val) :
    (Hand.V1 m ρ c main_v4 : S3072.Idx → EReal) (ix1 j) = argBv m c j' := by
  dsimp only [Hand.V1, W1]
  after_results3
  exact qkv_cat_b2 (m ((c.tc : Thread nD τ).loc main_arg2)) (m ((c.tc : Thread nD τ).loc main_arg4)) (m ((c.tc : Thread nD τ).loc main_arg6)) j j' hj

/-! ## The attention launch's three arrays, as the host stretch before it leaves them

Entry (h, b, l, d) of the head-major array is entry (b, l, h, d) of the array split into heads, which is entry
(2048·b + l, 64·h + d) of the column slice (same row-major position), which is that entry of the first launch's result
moved right by the slice's first column. The two later stretches write none of the three arrays. -/

/-- The query array: columns 0–1023 of the first launch's result. -/
theorem qkv_q_read (c : Dev nD) (h : Fin 16) (b : Fin 4) (l : Fin 2048) (d : Fin 64) (r : Fin 8192) (j : Fin 3072)
    (hr : r.val = b.val * 2048 + l.val) (hj : j.val = 0 + (h.val * 64 + d.val)) :
    (V5 m ρ c main_v10 : S16x4x2048x64.Idx → EReal) (ix4 h b l d)
      = (W2 m ρ c (Proc.devRef .tc main_v5) : S8192x3072.Idx → EReal) (ix2 r j) := by
  dsimp only [Hand.V5, W5, W4, W3]
  rw [StableHlo.after_of_writes_sub (r := main_v10) hostOps1_2 _ hostOps1_2_writes (by decide),
    StableHlo.after_of_writes_sub (r := main_v10) hostOps1_1 _ hostOps1_1_writes (by decide)]
  after_results3
  refine (transpose_apply [2, 0, 1, 3] _ _ (ix4 h b l d) (ix4 b l h d)
    (fun a => match a with | ⟨0, _⟩ => rfl | ⟨1, _⟩ => rfl | ⟨2, _⟩ => rfl | ⟨3, _⟩ => rfl)).trans ?_
  show shapeCast S4x2048x16x64 (extractStridedSlice S8192x1024 ![0, 0] (W2 m ρ c (Proc.devRef .tc main_v5)) Facts₀.slices_S8192x3072_S8192x1024_0_0)
      Facts₀.shapeCasts_S8192x1024_S4x2048x16x64 (ix4 b l h d) = _
  have hh : h.val < 16 := h.isLt
  have hd : d.val < 64 := d.isLt
  refine (shapeCast_apply _ _ (ix4 b l h d) (ix2 r ⟨h.val * 64 + d.val, by omega⟩) (by
    rw [Shape.rowMajor_val_two, Shape.rowMajor_val_four]
    show r.val * 1024 + (h.val * 64 + d.val) = ((b.val * 2048 + l.val) * 16 + h.val) * 64 + d.val
    rw [hr]; omega)).trans ?_
  exact extractStridedSlice_apply _ _ _ _ (ix2 r j) (fun a => match a with
    | ⟨0, _⟩ => by show r.val = 0 + r.val; omega
    | ⟨1, _⟩ => by show j.val = 0 + (h.val * 64 + d.val); exact hj)

/-- The key array: columns 1024–2047. -/
theorem qkv_k_read (c : Dev nD) (h : Fin 16) (b : Fin 4) (l : Fin 2048) (d : Fin 64) (r : Fin 8192) (j : Fin 3072)
    (hr : r.val = b.val * 2048 + l.val) (hj : j.val = 1024 + (h.val * 64 + d.val)) :
    (V5 m ρ c main_v12 : S16x4x2048x64.Idx → EReal) (ix4 h b l d)
      = (W2 m ρ c (Proc.devRef .tc main_v5) : S8192x3072.Idx → EReal) (ix2 r j) := by
  dsimp only [Hand.V5, W5, W4, W3]
  rw [StableHlo.after_of_writes_sub (r := main_v12) hostOps1_2 _ hostOps1_2_writes (by decide),
    StableHlo.after_of_writes_sub (r := main_v12) hostOps1_1 _ hostOps1_1_writes (by decide)]
  after_results3
  refine (transpose_apply [2, 0, 1, 3] _ _ (ix4 h b l d) (ix4 b l h d)
    (fun a => match a with | ⟨0, _⟩ => rfl | ⟨1, _⟩ => rfl | ⟨2, _⟩ => rfl | ⟨3, _⟩ => rfl)).trans ?_
  show shapeCast S4x2048x16x64 (extractStridedSlice S8192x1024 ![0, 1024] (W2 m ρ c (Proc.devRef .tc main_v5)) Facts₀.slices_S8192x3072_S8192x1024_0_1024)
      Facts₀.shapeCasts_S8192x1024_S4x2048x16x64 (ix4 b l h d) = _
  have hh : h.val < 16 := h.isLt
  have hd : d.val < 64 := d.isLt
  refine (shapeCast_apply _ _ (ix4 b l h d) (ix2 r ⟨h.val * 64 + d.val, by omega⟩) (by
    rw [Shape.rowMajor_val_two, Shape.rowMajor_val_four]
    show r.val * 1024 + (h.val * 64 + d.val) = ((b.val * 2048 + l.val) * 16 + h.val) * 64 + d.val
    rw [hr]; omega)).trans ?_
  exact extractStridedSlice_apply _ _ _ _ (ix2 r j) (fun a => match a with
    | ⟨0, _⟩ => by show r.val = 0 + r.val; omega
    | ⟨1, _⟩ => by show j.val = 1024 + (h.val * 64 + d.val); exact hj)

/-- The value array: columns 2048–3071. -/
theorem qkv_v_read (c : Dev nD) (h : Fin 16) (b : Fin 4) (l : Fin 2048) (d : Fin 64) (r : Fin 8192) (j : Fin 3072)
    (hr : r.val = b.val * 2048 + l.val) (hj : j.val = 2048 + (h.val * 64 + d.val)) :
    (V5 m ρ c main_v14 : S16x4x2048x64.Idx → EReal) (ix4 h b l d)
      = (W2 m ρ c (Proc.devRef .tc main_v5) : S8192x3072.Idx → EReal) (ix2 r j) := by
  dsimp only [Hand.V5, W5, W4, W3]
  rw [StableHlo.after_of_writes_sub (r := main_v14) hostOps1_2 _ hostOps1_2_writes (by decide),
    StableHlo.after_of_writes_sub (r := main_v14) hostOps1_1 _ hostOps1_1_writes (by decide)]
  after_results3
  refine (transpose_apply [2, 0, 1, 3] _ _ (ix4 h b l d) (ix4 b l h d)
    (fun a => match a with | ⟨0, _⟩ => rfl | ⟨1, _⟩ => rfl | ⟨2, _⟩ => rfl | ⟨3, _⟩ => rfl)).trans ?_
  show shapeCast S4x2048x16x64 (extractStridedSlice S8192x1024 ![0, 2048] (W2 m ρ c (Proc.devRef .tc main_v5)) Facts₀.slices_S8192x3072_S8192x1024_0_2048)
      Facts₀.shapeCasts_S8192x1024_S4x2048x16x64 (ix4 b l h d) = _
  have hh : h.val < 16 := h.isLt
  have hd : d.val < 64 := d.isLt
  refine (shapeCast_apply _ _ (ix4 b l h d) (ix2 r ⟨h.val * 64 + d.val, by omega⟩) (by
    rw [Shape.rowMajor_val_two, Shape.rowMajor_val_four]
    show r.val * 1024 + (h.val * 64 + d.val) = ((b.val * 2048 + l.val) * 16 + h.val) * 64 + d.val
    rw [hr]; omega)).trans ?_
  exact extractStridedSlice_apply _ _ _ _ (ix2 r j) (fun a => match a with
    | ⟨0, _⟩ => by show r.val = 0 + r.val; omega
    | ⟨1, _⟩ => by show j.val = 2048 + (h.val * 64 + d.val); exact hj)

/-! ## The three projections

The first launch's result at (row, column) is the inner product of the flattened input's row with the transposed
stack's column, plus the stacked bias' entry; term by term these are the input's row (b, l), the weight's row 64·h + d
and the bias' entry 64·h + d. -/

theorem q_eq (c : Dev nD) (h : Fin 16) (b : Fin 4) (l : Fin 2048) (d : Fin 64) :
    (V5 m ρ c main_v10 : S16x4x2048x64.Idx → EReal) (ix4 h b l d)
      = Cert.Spec.proj (argX m c) (argWq m c) (argBq m c) b l (Cert.Spec.hd h d) := by
  have hh : h.val < 16 := h.isLt
  have hd : d.val < 64 := d.isLt
  have hb : b.val < 4 := b.isLt
  have hl : l.val < 2048 := l.isLt
  refine (qkv_q_read m ρ c h b l d ⟨b.val * 2048 + l.val, by omega⟩ ⟨0 + (h.val * 64 + d.val), by omega⟩ rfl rfl).trans ?_
  rw [show W2 m ρ c (Proc.devRef .tc main_v5) = (dat0 (Hand.V1 m ρ) c).arrAt 3 cfg0.N from W2_arr m ρ c 3]
  refine (val0 (Hand.V1 m ρ) c _ _).trans ?_
  unfold Cert.Spec.lin Cert.Spec.proj
  refine congrArg₂ (· + ·) (Finset.sum_congr rfl fun k _ => congrArg₂ (· * ·) ?_ ?_) ?_
  · exact qkv_x_read m ρ c b l k _ rfl
  · exact qkv_w_read_q m ρ c k _ (Cert.Spec.hd h d) rfl
  · exact qkv_b_read_q m ρ c _ (Cert.Spec.hd h d) rfl

theorem k_eq (c : Dev nD) (h : Fin 16) (b : Fin 4) (l : Fin 2048) (d : Fin 64) :
    (V5 m ρ c main_v12 : S16x4x2048x64.Idx → EReal) (ix4 h b l d)
      = Cert.Spec.proj (argX m c) (argWk m c) (argBk m c) b l (Cert.Spec.hd h d) := by
  have hh : h.val < 16 := h.isLt
  have hd : d.val < 64 := d.isLt
  have hb : b.val < 4 := b.isLt
  have hl : l.val < 2048 := l.isLt
  refine (qkv_k_read m ρ c h b l d ⟨b.val * 2048 + l.val, by omega⟩ ⟨1024 + (h.val * 64 + d.val), by omega⟩ rfl rfl).trans ?_
  rw [show W2 m ρ c (Proc.devRef .tc main_v5) = (dat0 (Hand.V1 m ρ) c).arrAt 3 cfg0.N from W2_arr m ρ c 3]
  refine (val0 (Hand.V1 m ρ) c _ _).trans ?_
  unfold Cert.Spec.lin Cert.Spec.proj
  refine congrArg₂ (· + ·) (Finset.sum_congr rfl fun k _ => congrArg₂ (· * ·) ?_ ?_) ?_
  · exact qkv_x_read m ρ c b l k _ rfl
  · exact qkv_w_read_k m ρ c k _ (Cert.Spec.hd h d) rfl
  · exact qkv_b_read_k m ρ c _ (Cert.Spec.hd h d) rfl

theorem v_eq (c : Dev nD) (h : Fin 16) (b : Fin 4) (l : Fin 2048) (d : Fin 64) :
    (V5 m ρ c main_v14 : S16x4x2048x64.Idx → EReal) (ix4 h b l d)
      = Cert.Spec.proj (argX m c) (argWv m c) (argBv m c) b l (Cert.Spec.hd h d) := by
  have hh : h.val < 16 := h.isLt
  have hd : d.val < 64 := d.isLt
  have hb : b.val < 4 := b.isLt
  have hl : l.val < 2048 := l.isLt
  refine (qkv_v_read m ρ c h b l d ⟨b.val * 2048 + l.val, by omega⟩ ⟨2048 + (h.val * 64 + d.val), by omega⟩ rfl rfl).trans ?_
  rw [show W2 m ρ c (Proc.devRef .tc main_v5) = (dat0 (Hand.V1 m ρ) c).arrAt 3 cfg0.N from W2_arr m ρ c 3]
  refine (val0 (Hand.V1 m ρ) c _ _).trans ?_
  unfold Cert.Spec.lin Cert.Spec.proj
  refine congrArg₂ (· + ·) (Finset.sum_congr rfl fun k _ => congrArg₂ (· * ·) ?_ ?_) ?_
  · exact qkv_x_read m ρ c b l k _ rfl
  · exact qkv_w_read_v m ρ c k _ (Cert.Spec.hd h d) rfl
  · exact qkv_b_read_v m ρ c _ (Cert.Spec.hd h d) rfl

end Cert.KernelIdeal.Val

end
-- ==== Proof.LibSoftmax.lean ====
/-
  The streaming form of a softmax-weighted sum, over the extended reals. A row's logits `s j` and values `v j` are real.
  For a finite set S of columns write M(S) for the largest logit over S (bottom for the empty set), and for a shift M
  the sums Z(S, M) = Σ_{j∈S} exp (s j − M) and A(S, M) = Σ_{j∈S} exp (s j − M)·v j. Taking in a further nonempty block T
  disjoint from S, with M' = max (M(S)) (M(T)), rescales the old sums by exp (M(S) − M') — which is 0 when S is empty,
  the maximum then being bottom — and adds T's terms at the new shift; and at the end A/Z is the weighted sum with the
  normalised weights. General: no program is mentioned.
-/
import Idealize.ShloMosaic.PureOps.Ideal
import Mathlib.Data.EReal.Operations
import Mathlib.Data.EReal.Inv
import Mathlib.Data.Finset.Lattice.Fold
import Mathlib.Algebra.BigOperators.Group.Finset.Basic
import Mathlib.Algebra.BigOperators.Ring.Finset
import Mathlib.Algebra.Order.BigOperators.Group.Finset
import Mathlib.Analysis.Complex.Exponential

noncomputable section

namespace Cert.LibSoftmax

open Idealize.ShloMosaic

variable {ι : Type} [DecidableEq ι]

/-- The largest logit over `S` (bottom for the empty set). -/
def smax (s : ι → ℝ) (S : Finset ι) : EReal := S.sup fun j => ((s j : ℝ) : EReal)

/-- Σ_{j∈S} exp (s j − M). -/
def ssum (s : ι → ℝ) (S : Finset ι) (M : EReal) : EReal := ∑ j ∈ S, Ideal.exp (((s j : ℝ) : EReal) - M)

/-- Σ_{j∈S} exp (s j − M)·v j. -/
def swsum (s v : ι → ℝ) (S : Finset ι) (M : EReal) : EReal := ∑ j ∈ S, Ideal.exp (((s j : ℝ) : EReal) - M) * ((v j : ℝ) : EReal)

/-! ### Coercions -/

/-- The coercion of a finite real sum is the sum of the coercions. -/
theorem coe_finset_sum (f : ι → ℝ) (S : Finset ι) : ((∑ j ∈ S, f j : ℝ) : EReal) = ∑ j ∈ S, ((f j : ℝ) : EReal) := by
  induction S using Finset.induction_on with
  | empty => simp
  | insert a S ha ih => rw [Finset.sum_insert ha, Finset.sum_insert ha, EReal.coe_add, ih]

/-- The coercion of a maximum of reals is the maximum of the coercions. -/
theorem coe_max (x y : ℝ) : ((max x y : ℝ) : EReal) = max (x : EReal) (y : EReal) :=
  EReal.coe_strictMono.monotone.map_max

/-- Over a nonempty set the largest logit is the coercion of the real maximum. -/
theorem smax_coe (s : ι → ℝ) (S : Finset ι) (hS : S.Nonempty) : smax s S = ((S.sup' hS s : ℝ) : EReal) := by
  rw [smax, ← Finset.sup'_eq_sup hS]
  exact (Finset.comp_sup'_eq_sup'_comp hS (fun x : ℝ => (x : EReal)) coe_max).symm

theorem smax_empty (s : ι → ℝ) : smax s ∅ = ⊥ := Finset.sup_empty

/-- The normaliser at a real shift is the coercion of the real sum of exponentials. -/
theorem ssum_coe (s : ι → ℝ) (S : Finset ι) (M : ℝ) :
    ssum s S (M : EReal) = ((∑ j ∈ S, Real.exp (s j - M) : ℝ) : EReal) := by
  rw [ssum, coe_finset_sum]
  refine Finset.sum_congr rfl fun j _ => ?_
  rw [← EReal.coe_sub, Ideal.exp_coe]

/-- The weighted sum at a real shift is the coercion of the real weighted sum. -/
theorem swsum_coe (s v : ι → ℝ) (S : Finset ι) (M : ℝ) :
    swsum s v S (M : EReal) = ((∑ j ∈ S, Real.exp (s j - M) * v j : ℝ) : EReal) := by
  rw [swsum, coe_finset_sum]
  refine Finset.sum_congr rfl fun j _ => ?_
  rw [← EReal.coe_sub, Ideal.exp_coe, EReal.coe_mul]

/-- Over a nonempty set the largest logit is a real. -/
theorem smax_real (s : ι → ℝ) (S : Finset ι) (hS : S.Nonempty) : ∃ r : ℝ, smax s S = (r : EReal) :=
  ⟨_, smax_coe s S hS⟩

/-- The sums at a real shift are reals; the normaliser over a nonempty set at its own maximum is a positive real. -/
theorem ssum_real (s : ι → ℝ) (S : Finset ι) (M : ℝ) : ∃ r : ℝ, ssum s S (M : EReal) = (r : EReal) :=
  ⟨_, ssum_coe s S M⟩
theorem swsum_real (s v : ι → ℝ) (S : Finset ι) (M : ℝ) : ∃ r : ℝ, swsum s v S (M : EReal) = (r : EReal) :=
  ⟨_, swsum_coe s v S M⟩

/-- A sum of exponentials over a nonempty set is positive. -/
theorem sum_exp_pos (s : ι → ℝ) (S : Finset ι) (hS : S.Nonempty) (M : ℝ) : 0 < ∑ j ∈ S, Real.exp (s j - M) :=
  Finset.sum_pos (fun j _ => Real.exp_pos _) hS

theorem ssum_pos (s : ι → ℝ) (S : Finset ι) (hS : S.Nonempty) : ∃ r : ℝ, 0 < r ∧ ssum s S (smax s S) = (r : EReal) := by
  rw [smax_coe s S hS]
  exact ⟨_, sum_exp_pos s S hS _, ssum_coe s S _⟩

/-- Rescaling a real sum of exponentials from the shift M to the shift M'. -/
theorem rescale_sum (s : ι → ℝ) (S : Finset ι) (M M' : ℝ) :
    Real.exp (M - M') * ∑ j ∈ S, Real.exp (s j - M) = ∑ j ∈ S, Real.exp (s j - M') := by
  rw [Finset.mul_sum]
  refine Finset.sum_congr rfl fun j _ => ?_
  rw [← Real.exp_add]; congr 1; ring

theorem rescale_wsum (s v : ι → ℝ) (S : Finset ι) (M M' : ℝ) :
    Real.exp (M - M') * ∑ j ∈ S, Real.exp (s j - M) * v j = ∑ j ∈ S, Real.exp (s j - M') * v j := by
  rw [Finset.mul_sum]
  refine Finset.sum_congr rfl fun j _ => ?_
  rw [← mul_assoc, ← Real.exp_add]; congr 2; ring

/-- Taking in a block: the new maximum, the rescaled normaliser, the rescaled weighted sum. -/
theorem online_step (s v : ι → ℝ) (S T : Finset ι) (hd : Disjoint S T) (hT : T.Nonempty) :
    max (smax s S) (smax s T) = smax s (S ∪ T)
    ∧ Ideal.exp (smax s S - max (smax s S) (smax s T)) * ssum s S (smax s S) + ssum s T (max (smax s S) (smax s T))
        = ssum s (S ∪ T) (smax s (S ∪ T))
    ∧ Ideal.exp (smax s S - max (smax s S) (smax s T)) * swsum s v S (smax s S) + swsum s v T (max (smax s S) (smax s T))
        = swsum s v (S ∪ T) (smax s (S ∪ T)) := by
  have hmax : max (smax s S) (smax s T) = smax s (S ∪ T) := (Finset.sup_union).symm
  refine ⟨hmax, ?_, ?_⟩
  all_goals rw [← hmax]
  all_goals rcases S.eq_empty_or_nonempty with rfl | hS
  · -- the old set empty: the factor is exp ⊥ = 0, the old sum the empty sum
    rw [smax_empty, bot_sup_eq, EReal.bot_sub, Ideal.exp_bot, zero_mul, zero_add, Finset.empty_union]
  · rw [smax_coe s S hS, smax_coe s T hT, ← coe_max, ← EReal.coe_sub, Ideal.exp_coe, ssum_coe, ssum_coe, ssum_coe,
      ← EReal.coe_mul, ← EReal.coe_add, rescale_sum, Finset.sum_union hd]
  · rw [smax_empty, bot_sup_eq, EReal.bot_sub, Ideal.exp_bot, zero_mul, zero_add, Finset.empty_union]
  · rw [smax_coe s S hS, smax_coe s T hT, ← coe_max, ← EReal.coe_sub, Ideal.exp_coe, swsum_coe, swsum_coe, swsum_coe,
      ← EReal.coe_mul, ← EReal.coe_add, rescale_wsum, Finset.sum_union hd]

/-- At the end the quotient of the two sums is the weighted sum with normalised weights. -/
theorem online_final (s v : ι → ℝ) (S : Finset ι) (hS : S.Nonempty) :
    Ideal.div (swsum s v S (smax s S)) (ssum s S (smax s S))
      = ∑ j ∈ S, Ideal.div (Ideal.exp (((s j : ℝ) : EReal) - smax s S)) (ssum s S (smax s S)) * ((v j : ℝ) : EReal) := by
  rw [smax_coe s S hS, ssum_coe, swsum_coe]
  have hZ : (∑ j ∈ S, Real.exp (s j - S.sup' hS s)) ≠ 0 := (sum_exp_pos s S hS _).ne'
  rw [Ideal.div_coe hZ, ← EReal.coe_mul, Finset.sum_mul, coe_finset_sum]
  refine Finset.sum_congr rfl fun j _ => ?_
  rw [Ideal.div_coe hZ, ← EReal.coe_sub, Ideal.exp_coe, ← EReal.coe_mul, ← EReal.coe_mul]
  congr 1; ring

end Cert.LibSoftmax

end
-- ==== Proof.Val1Pay.lean ====
/-
  The attention body's arithmetic read at an index, over the extended reals. For one point's query block (4 batches x
  1024 rows x 64 features), key and value blocks (4 x 256 x 64) and bias block (1024 x 256): the block's logit of
  batch b, query row r against key row jj is the inner product over the features divided by 8 plus the bias; the new
  running maximum is the old one against the row's largest block logit; the normaliser and the weighted sum are
  rescaled by exp (old maximum − new maximum) and take the block's terms; the reset triple is (bottom, 0, 0); the
  output is the weighted sum over the normaliser.
-/
import proofs.«423465_j4655744549114_3_alg».proof.Proof.KernelIdeal.Reg1Defs
import proofs.«423465_j4655744549114_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The block's logit of batch `b`, query row `r` against key row `jj`. -/
def blkLogit (x0 : Vec Ideal S1x4x1024x64 .bf16) (x1 : Vec Ideal S1x4x256x64 .bf16) (x3 : Vec Ideal S1x1024x256 .bf16)
    (b : Fin 4) (r : Fin 1024) (jj : Fin 256) : EReal :=
  Ideal.div (∑ d : Fin 64, (x0 : S1x4x1024x64.Idx → EReal) (ix4 0 b r d) * (x1 : S1x4x256x64.Idx → EReal) (ix4 0 b jj d)) ((8 : ℝ) : EReal)
    + (x3 : S1x1024x256.Idx → EReal) (ix3 0 r jj)

/-! ## The printed constants as extended reals -/

/-- The scale `0x3E000000` is one eighth. -/
theorem ofBits_eighth : Ideal.ofBits .f32 0x3E000000#32 = ((0.125 : ℝ) : EReal) := by
  simp [Ideal.ofBits, Ideal.ieee, -EReal.coe_mul]; norm_num

/-- The pattern `0xFF800000` is minus infinity, the bottom of the extended reals. -/
theorem ofBits_negInf : Ideal.ofBits .f32 0xFF800000#32 = ⊥ := by
  simp [Ideal.ofBits, Ideal.ieee]

/-- A product with one eighth is the quotient by eight, at the infinities too. -/
theorem mul_eighth (x : EReal) : x * ((0.125 : ℝ) : EReal) = Ideal.div x ((8 : ℝ) : EReal) := by
  rw [Ideal.div_coe (by norm_num : (8 : ℝ) ≠ 0)]
  norm_num

/-! ## The layout operations at an index given by coordinates -/

section Layout
variable {α : Type}

/-- The bias block `[1, 1024, 256]` broadcast over the four batches reads its one slab. -/
theorem bcast_bias_apply (v : S1x1024x256.Idx → α) (b : Fin 4) (r : Fin 1024) (jj : Fin 256) :
    broadcastTo S4x1024x256 v broadcasts_S1x1024x256_S4x1024x256 (ix3 b r jj) = v (ix3 (0 : Fin 1) r jj) := by
  refine broadcastTo_apply v broadcasts_S1x1024x256_S4x1024x256 (ix3 b r jj) (ix3 (0 : Fin 1) r jj) fun ax => ?_
  match ax with
  | ⟨0, _⟩ => rfl
  | ⟨1, _⟩ => rfl
  | ⟨2, _⟩ => rfl

/-- A column `[4, 1024, 1]` broadcast along 256 lanes reads the row's one entry. -/
theorem bcast_col256_apply (v : S4x1024x1.Idx → α) (b : Fin 4) (r : Fin 1024) (jj : Fin 256) :
    broadcastTo S4x1024x256 v broadcasts_S4x1024x1_S4x1024x256 (ix3 b r jj) = v (ix3 b r (0 : Fin 1)) := by
  refine broadcastTo_apply v broadcasts_S4x1024x1_S4x1024x256 (ix3 b r jj) (ix3 b r (0 : Fin 1)) fun ax => ?_
  match ax with
  | ⟨0, _⟩ => rfl
  | ⟨1, _⟩ => rfl
  | ⟨2, _⟩ => rfl

/-- A column `[4, 1024, 1]` broadcast along 64 lanes reads the row's one entry. -/
theorem bcast_col64_apply (v : S4x1024x1.Idx → α) (b : Fin 4) (r : Fin 1024) (d : Fin 64) :
    broadcastTo S4x1024x64 v broadcasts_S4x1024x1_S4x1024x64 (ix3 b r d) = v (ix3 b r (0 : Fin 1)) := by
  refine broadcastTo_apply v broadcasts_S4x1024x1_S4x1024x64 (ix3 b r d) (ix3 b r (0 : Fin 1)) fun ax => ?_
  match ax with
  | ⟨0, _⟩ => rfl
  | ⟨1, _⟩ => rfl
  | ⟨2, _⟩ => rfl

/-- A `[4, 1024]` array cast to `[4, 1024, 1]` (a reduction's kept axis) reads, at `(b, r, u)`, the operand at `(b, r)`. -/
theorem cast_keep_apply (v : S4x1024.Idx → α) (b : Fin 4) (r : Fin 1024) (u : Fin 1) :
    shapeCast S4x1024x1 v shapeCasts_S4x1024_S4x1024x1 (ix3 b r u) = v (ix2 b r) :=
  shapeCast_apply v shapeCasts_S4x1024_S4x1024x1 (ix3 b r u) (ix2 b r) (by
    have hu : u.val = 0 := by omega
    rw [Shape.rowMajor_val_three, Shape.rowMajor_val_two]
    show b.val * 1024 + r.val = (b.val * 1024 + r.val) * 1 + u.val
    rw [hu, Nat.mul_one, Nat.add_zero])

end Layout

/-! ## The two contractions -/

theorem lhs_qk_0 (i : S4x1024x256.Idx) (q : dot_S4x1024x64_S4x256x64_S4x1024x256_2_2_1_1_0_0.contr.Idx) :
    (dot_S4x1024x64_S4x256x64_S4x1024x256_2_2_1_1_0_0.lhsIdx i q 0).val = (i 0).val := by
  unfold DotDims.lhsIdx
  rw [dif_pos (show (0 : Fin S4x1024x64.rank) ∈ dot_S4x1024x64_S4x256x64_S4x1024x256_2_2_1_1_0_0.lhsBatch by decide)]
  rfl
theorem lhs_qk_1 (i : S4x1024x256.Idx) (q : dot_S4x1024x64_S4x256x64_S4x1024x256_2_2_1_1_0_0.contr.Idx) :
    (dot_S4x1024x64_S4x256x64_S4x1024x256_2_2_1_1_0_0.lhsIdx i q 1).val = (i 1).val := by
  unfold DotDims.lhsIdx
  rw [dif_neg (show ¬(1 : Fin S4x1024x64.rank) ∈ dot_S4x1024x64_S4x256x64_S4x1024x256_2_2_1_1_0_0.lhsBatch by decide), dif_pos (show (1 : Fin S4x1024x64.rank) ∈ dot_S4x1024x64_S4x256x64_S4x1024x256_2_2_1_1_0_0.lhsNonContracting by decide)]
  rfl
theorem lhs_qk_2 (i : S4x1024x256.Idx) (q : dot_S4x1024x64_S4x256x64_S4x1024x256_2_2_1_1_0_0.contr.Idx) :
    (dot_S4x1024x64_S4x256x64_S4x1024x256_2_2_1_1_0_0.lhsIdx i q 2).val = (q ⟨0, by decide⟩).val :=
  dot_S4x1024x64_S4x256x64_S4x1024x256_2_2_1_1_0_0.lhsIdx_val_of_single rfl i q
theorem rhs_qk_0 (i : S4x1024x256.Idx) (q : dot_S4x1024x64_S4x256x64_S4x1024x256_2_2_1_1_0_0.contr.Idx) :
    (dot_S4x1024x64_S4x256x64_S4x1024x256_2_2_1_1_0_0.rhsIdx i q 0).val = (i 0).val := by
  unfold DotDims.rhsIdx
  rw [dif_pos (show (0 : Fin S4x256x64.rank) ∈ dot_S4x1024x64_S4x256x64_S4x1024x256_2_2_1_1_0_0.rhsBatch by decide)]
  rfl
theorem rhs_qk_1 (i : S4x1024x256.Idx) (q : dot_S4x1024x64_S4x256x64_S4x1024x256_2_2_1_1_0_0.contr.Idx) :
    (dot_S4x1024x64_S4x256x64_S4x1024x256_2_2_1_1_0_0.rhsIdx i q 1).val = (i 2).val := by
  unfold DotDims.rhsIdx
  rw [dif_neg (show ¬(1 : Fin S4x256x64.rank) ∈ dot_S4x1024x64_S4x256x64_S4x1024x256_2_2_1_1_0_0.rhsBatch by decide), dif_pos (show (1 : Fin S4x256x64.rank) ∈ dot_S4x1024x64_S4x256x64_S4x1024x256_2_2_1_1_0_0.rhsNonContracting by decide)]
  rfl
theorem rhs_qk_2 (i : S4x1024x256.Idx) (q : dot_S4x1024x64_S4x256x64_S4x1024x256_2_2_1_1_0_0.contr.Idx) :
    (dot_S4x1024x64_S4x256x64_S4x1024x256_2_2_1_1_0_0.rhsIdx i q 2).val = (q ⟨0, by decide⟩).val :=
  dot_S4x1024x64_S4x256x64_S4x1024x256_2_2_1_1_0_0.rhsIdx_val_of_single rfl i q

/-- The query-key contraction into the zero splat, at batch `b`, query row `r`, key row `jj`: the inner product over the 64 features. -/
theorem matmul_qk_apply (a : FVec Ideal S4x1024x64 .bf16) (k : FVec Ideal S4x256x64 .bf16) (b : Fin 4) (r : Fin 1024) (jj : Fin 256) :
    matmul dot_S4x1024x64_S4x256x64_S4x1024x256_2_2_1_1_0_0 none a k (constant (F := Ideal) S4x1024x256 .f32 0x00000000#32) (ix3 b r jj)
      = ∑ d : Fin 64, a (ix3 b r d) * k (ix3 b jj d) := by
  simp only [matmul]
  rw [Ideal.matmul_constant_zero_apply, ← Equiv.sum_comp (contrEquiv1 dot_S4x1024x64_S4x256x64_S4x1024x256_2_2_1_1_0_0 64 rfl rfl).symm]
  refine Finset.sum_congr rfl fun d _ => ?_
  have hk := contrEquiv1_symm_val dot_S4x1024x64_S4x256x64_S4x1024x256_2_2_1_1_0_0 64 rfl rfl d
  have el : dot_S4x1024x64_S4x256x64_S4x1024x256_2_2_1_1_0_0.lhsIdx (ix3 b r jj) ((contrEquiv1 dot_S4x1024x64_S4x256x64_S4x1024x256_2_2_1_1_0_0 64 rfl rfl).symm d) = ix3 b r d := funext fun ax => Fin.ext (by
    match ax with
    | ⟨0, _⟩ => exact lhs_qk_0 _ _
    | ⟨1, _⟩ => exact lhs_qk_1 _ _
    | ⟨2, _⟩ => exact (lhs_qk_2 _ _).trans hk)
  have er : dot_S4x1024x64_S4x256x64_S4x1024x256_2_2_1_1_0_0.rhsIdx (ix3 b r jj) ((contrEquiv1 dot_S4x1024x64_S4x256x64_S4x1024x256_2_2_1_1_0_0 64 rfl rfl).symm d) = ix3 b jj d := funext fun ax => Fin.ext (by
    match ax with
    | ⟨0, _⟩ => exact rhs_qk_0 _ _
    | ⟨1, _⟩ => exact rhs_qk_1 _ _
    | ⟨2, _⟩ => exact (rhs_qk_2 _ _).trans hk)
  rw [el, er]

theorem lhs_pv_0 (i : S4x1024x64.Idx) (q : dot_S4x1024x256_S4x256x64_S4x1024x64_2_1_1_2_0_0.contr.Idx) :
    (dot_S4x1024x256_S4x256x64_S4x1024x64_2_1_1_2_0_0.lhsIdx i q 0).val = (i 0).val := by
  unfold DotDims.lhsIdx
  rw [dif_pos (show (0 : Fin S4x1024x256.rank) ∈ dot_S4x1024x256_S4x256x64_S4x1024x64_2_1_1_2_0_0.lhsBatch by decide)]
  rfl
theorem lhs_pv_1 (i : S4x1024x64.Idx) (q : dot_S4x1024x256_S4x256x64_S4x1024x64_2_1_1_2_0_0.contr.Idx) :
    (dot_S4x1024x256_S4x256x64_S4x1024x64_2_1_1_2_0_0.lhsIdx i q 1).val = (i 1).val := by
  unfold DotDims.lhsIdx
  rw [dif_neg (show ¬(1 : Fin S4x1024x256.rank) ∈ dot_S4x1024x256_S4x256x64_S4x1024x64_2_1_1_2_0_0.lhsBatch by decide), dif_pos (show (1 : Fin S4x1024x256.rank) ∈ dot_S4x1024x256_S4x256x64_S4x1024x64_2_1_1_2_0_0.lhsNonContracting by decide)]
  rfl
theorem lhs_pv_2 (i : S4x1024x64.Idx) (q : dot_S4x1024x256_S4x256x64_S4x1024x64_2_1_1_2_0_0.contr.Idx) :
    (dot_S4x1024x256_S4x256x64_S4x1024x64_2_1_1_2_0_0.lhsIdx i q 2).val = (q ⟨0, by decide⟩).val :=
  dot_S4x1024x256_S4x256x64_S4x1024x64_2_1_1_2_0_0.lhsIdx_val_of_single rfl i q
theorem rhs_pv_0 (i : S4x1024x64.Idx) (q : dot_S4x1024x256_S4x256x64_S4x1024x64_2_1_1_2_0_0.contr.Idx) :
    (dot_S4x1024x256_S4x256x64_S4x1024x64_2_1_1_2_0_0.rhsIdx i q 0).val = (i 0).val := by
  unfold DotDims.rhsIdx
  rw [dif_pos (show (0 : Fin S4x256x64.rank) ∈ dot_S4x1024x256_S4x256x64_S4x1024x64_2_1_1_2_0_0.rhsBatch by decide)]
  rfl
theorem rhs_pv_1 (i : S4x1024x64.Idx) (q : dot_S4x1024x256_S4x256x64_S4x1024x64_2_1_1_2_0_0.contr.Idx) :
    (dot_S4x1024x256_S4x256x64_S4x1024x64_2_1_1_2_0_0.rhsIdx i q 1).val = (q ⟨0, by decide⟩).val :=
  dot_S4x1024x256_S4x256x64_S4x1024x64_2_1_1_2_0_0.rhsIdx_val_of_single rfl i q
theorem rhs_pv_2 (i : S4x1024x64.Idx) (q : dot_S4x1024x256_S4x256x64_S4x1024x64_2_1_1_2_0_0.contr.Idx) :
    (dot_S4x1024x256_S4x256x64_S4x1024x64_2_1_1_2_0_0.rhsIdx i q 2).val = (i 2).val := by
  unfold DotDims.rhsIdx
  rw [dif_neg (show ¬(2 : Fin S4x256x64.rank) ∈ dot_S4x1024x256_S4x256x64_S4x1024x64_2_1_1_2_0_0.rhsBatch by decide), dif_pos (show (2 : Fin S4x256x64.rank) ∈ dot_S4x1024x256_S4x256x64_S4x1024x64_2_1_1_2_0_0.rhsNonContracting by decide)]
  rfl

/-- The weight-value contraction into the zero splat, at batch `b`, query row `r`, feature `d`: the sum over the block's 256 key rows. -/
theorem matmul_pv_apply (p : FVec Ideal S4x1024x256 .bf16) (v : FVec Ideal S4x256x64 .bf16) (b : Fin 4) (r : Fin 1024) (d : Fin 64) :
    matmul dot_S4x1024x256_S4x256x64_S4x1024x64_2_1_1_2_0_0 none p v (constant (F := Ideal) S4x1024x64 .f32 0x00000000#32) (ix3 b r d)
      = ∑ jj : Fin 256, p (ix3 b r jj) * v (ix3 b jj d) := by
  simp only [matmul]
  rw [Ideal.matmul_constant_zero_apply, ← Equiv.sum_comp (contrEquiv1 dot_S4x1024x256_S4x256x64_S4x1024x64_2_1_1_2_0_0 256 rfl rfl).symm]
  refine Finset.sum_congr rfl fun jj _ => ?_
  have hk := contrEquiv1_symm_val dot_S4x1024x256_S4x256x64_S4x1024x64_2_1_1_2_0_0 256 rfl rfl jj
  have el : dot_S4x1024x256_S4x256x64_S4x1024x64_2_1_1_2_0_0.lhsIdx (ix3 b r d) ((contrEquiv1 dot_S4x1024x256_S4x256x64_S4x1024x64_2_1_1_2_0_0 256 rfl rfl).symm jj) = ix3 b r jj := funext fun ax => Fin.ext (by
    match ax with
    | ⟨0, _⟩ => exact lhs_pv_0 _ _
    | ⟨1, _⟩ => exact lhs_pv_1 _ _
    | ⟨2, _⟩ => exact (lhs_pv_2 _ _).trans hk)
  have er : dot_S4x1024x256_S4x256x64_S4x1024x64_2_1_1_2_0_0.rhsIdx (ix3 b r d) ((contrEquiv1 dot_S4x1024x256_S4x256x64_S4x1024x64_2_1_1_2_0_0 256 rfl rfl).symm jj) = ix3 b jj d := funext fun ax => Fin.ext (by
    match ax with
    | ⟨0, _⟩ => exact rhs_pv_0 _ _
    | ⟨1, _⟩ => exact (rhs_pv_1 _ _).trans hk
    | ⟨2, _⟩ => exact rhs_pv_2 _ _)
  rw [el, er]

/-! ## The two lane reductions -/

/-- The reduced index `(b, r)` with key row `k` put back on the lane axis. -/
theorem lift_row (b : Fin 4) (r : Fin 1024) (k : Fin 256) :
    reduces_S4x1024x256_S4x1024.lift (ix2 b r) k = ix3 b r k :=
  funext fun ax => Fin.ext (by
    match ax with
    | ⟨0, _⟩ => rfl
    | ⟨1, _⟩ => rfl
    | ⟨2, _⟩ => rfl)

/-- On the extended reals the fold of `max` from the bottom is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- The lane maximum from minus infinity, at `(b, r)`: the supremum over the block's 256 key rows. -/
theorem rowMax_apply (src : FVec Ideal S4x1024x256 .f32) (hφ : FKind.Formats .f32)
    (hacc : (0xFF800000#32 : BitVec 32) = 0xFF800000#32) (b : Fin 4) (r : Fin 1024) :
    multiReduction (F := Ideal) .maximumf [2] S4x1024 src 0xFF800000#32 reduces_S4x1024x256_S4x1024 hφ hacc (ix2 b r)
      = Finset.univ.sup fun jj : Fin 256 => src (ix3 b r jj) := by
  refine (Ideal.multiReduction_maximumf_single src _ reduces_S4x1024x256_S4x1024 hφ hacc (ix2 b r)).trans ?_
  have e0 : (FloatOps.ofBits (F := Ideal) .f32 0xFF800000#32 : EReal) = ⊥ := ofBits_negInf
  rw [e0]
  refine (fold_max_bot _ _).trans ?_
  exact Finset.sup_congr rfl fun k _ => congrArg src (lift_row b r k)

/-- The lane sum from zero, at `(b, r)`: the sum over the block's 256 key rows. -/
theorem rowSum_apply (src : FVec Ideal S4x1024x256 .f32) (hφ : FKind.Formats .f32)
    (hacc : (0x00000000#32 : BitVec 32) = 0x00000000#32) (b : Fin 4) (r : Fin 1024) :
    multiReduction (F := Ideal) .add [2] S4x1024 src 0x00000000#32 reduces_S4x1024x256_S4x1024 hφ hacc (ix2 b r)
      = ∑ jj : Fin 256, src (ix3 b r jj) := by
  refine (Ideal.multiReduction_add_single src _ reduces_S4x1024x256_S4x1024 hφ hacc (ix2 b r)).trans ?_
  exact Finset.sum_congr rfl fun k _ => congrArg src (lift_row b r k)

/-! ## The payloads at an index -/

section Pay

variable (x0 : Vec Ideal S1x4x1024x64 .bf16) (x1 x2 : Vec Ideal S1x4x256x64 .bf16) (x3 : Vec Ideal S1x1024x256 .bf16)

/-- The block's logits: the inner product over the features, scaled by one eighth, plus the bias. -/
theorem pay9_apply (b : Fin 4) (r : Fin 1024) (jj : Fin 256) :
    (k1_pay9 x0 x1 x3 : S4x1024x256.Idx → EReal) (ix3 b r jj) = blkLogit x0 x1 x3 b r jj := by
  unfold k1_pay9 blkLogit
  simp only [addf_apply, mulf_apply, broadcast_apply]
  rw [matmul_qk_apply, bcast_bias_apply, shapeCast_ab_1ab_apply, extf_apply, shapeCast_1ab_ab_apply]
  simp only [shapeCast_1abc_abc_apply, Ideal.ofBits_def, ofBits_eighth, mul_eighth]

/-- The new running maximum: the old one against the row's largest block logit. -/
theorem pay10_apply (m : Vec Ideal S4x1024x1 .f32) (b : Fin 4) (r : Fin 1024) :
    (k1_pay10 x0 x1 x3 m : S4x1024x1.Idx → EReal) (ix3 b r 0)
      = max ((m : S4x1024x1.Idx → EReal) (ix3 b r 0)) (Finset.univ.sup fun jj : Fin 256 => blkLogit x0 x1 x3 b r jj) := by
  unfold k1_pay10
  rw [maximumf_apply, cast_keep_apply, rowMax_apply]
  simp only [pay9_apply]

/-- The rescaling factor: exp (old maximum − new maximum). -/
theorem pay11_apply (m m' : Vec Ideal S4x1024x1 .f32) (b : Fin 4) (r : Fin 1024) :
    (k1_pay11 x0 x1 x3 m m' : S4x1024x1.Idx → EReal) (ix3 b r 0)
      = Ideal.exp ((m' : S4x1024x1.Idx → EReal) (ix3 b r 0) - (k1_pay10 x0 x1 x3 m : S4x1024x1.Idx → EReal) (ix3 b r 0)) := by
  unfold k1_pay11
  rfl

/-- The block's weights: exp (logit − new maximum). -/
theorem pay12_apply (m : Vec Ideal S4x1024x1 .f32) (b : Fin 4) (r : Fin 1024) (jj : Fin 256) :
    (k1_pay12 x0 x1 x3 m : S4x1024x256.Idx → EReal) (ix3 b r jj)
      = Ideal.exp (blkLogit x0 x1 x3 b r jj - (k1_pay10 x0 x1 x3 m : S4x1024x1.Idx → EReal) (ix3 b r 0)) := by
  unfold k1_pay12
  show Ideal.exp ((k1_pay9 x0 x1 x3 : S4x1024x256.Idx → EReal) (ix3 b r jj)
    - broadcastTo S4x1024x256 (k1_pay10 x0 x1 x3 m) broadcasts_S4x1024x1_S4x1024x256 (ix3 b r jj)) = _
  rw [pay9_apply, bcast_col256_apply]

/-- The value block with its leading unit axis dropped. -/
theorem pay8_apply (b : Fin 4) (jj : Fin 256) (d : Fin 64) :
    (k1_pay8 x2 : S4x256x64.Idx → EReal) (ix3 b jj d) = (x2 : S1x4x256x64.Idx → EReal) (ix4 0 b jj d) := by
  unfold k1_pay8
  exact shapeCast_1abc_abc_apply x2 shapeCasts_S1x4x256x64_S4x256x64 b jj d

/-- The new normaliser from the factor, the weights and the old normaliser. -/
theorem pay1_apply (v24 : FVec Ideal S4x1024x1 .f32) (v27 : FVec Ideal S4x1024x256 .f32) (v28 : Vec Ideal S4x1024x1 .f32)
    (b : Fin 4) (r : Fin 1024) :
    (k1_pay1 v24 v27 v28 : S4x1024x1.Idx → EReal) (ix3 b r 0)
      = v24 (ix3 b r 0) * (v28 : S4x1024x1.Idx → EReal) (ix3 b r 0) + ∑ jj : Fin 256, v27 (ix3 b r jj) := by
  unfold k1_pay1
  rw [shapeCast_self, addf_apply, mulf_apply, cast_keep_apply, rowSum_apply]

/-- The new weighted sum from the value block, the factor, the weights and the old weighted sum. -/
theorem pay2_apply (v8 : FVec Ideal S4x256x64 .bf16) (v24 : FVec Ideal S4x1024x1 .f32) (v27 : FVec Ideal S4x1024x256 .f32)
    (v36 : Vec Ideal S4x1024x64 .f32) (b : Fin 4) (r : Fin 1024) (d : Fin 64) :
    (k1_pay2 v8 v24 v27 v36 : S4x1024x64.Idx → EReal) (ix3 b r d)
      = v24 (ix3 b r 0) * (v36 : S4x1024x64.Idx → EReal) (ix3 b r d) + ∑ jj : Fin 256, v27 (ix3 b r jj) * v8 (ix3 b jj d) := by
  unfold k1_pay2
  rw [shapeCast_self, addf_apply, mulf_apply, bcast_col64_apply, matmul_pv_apply]
  simp only [truncf_apply]

/-- The stored quotient. -/
theorem pay4_apply (v51 : Vec Ideal S4x1024x64 .f32) (v52 : Vec Ideal S4x1024x1 .f32) (b : Fin 4) (r : Fin 1024) (d : Fin 64) :
    (k1_pay4 v51 v52 : S1x4x1024x64.Idx → EReal) (ix4 0 b r d)
      = Ideal.div ((v51 : S4x1024x64.Idx → EReal) (ix3 b r d)) ((v52 : S4x1024x1.Idx → EReal) (ix3 b r 0)) := by
  unfold k1_pay4
  rw [shapeCast_abc_1abc_apply, truncf_apply, divf_apply, bcast_col64_apply]

/-- The reset values. -/
theorem pay5_apply (i : S4x1024x1.Idx) : (k1_pay5 (F := Ideal) : S4x1024x1.Idx → EReal) i = ⊥ := by
  unfold k1_pay5
  rw [shapeCast_self]
  exact ofBits_negInf
theorem pay6_apply (i : S4x1024x1.Idx) : (k1_pay6 (F := Ideal) : S4x1024x1.Idx → EReal) i = 0 := by
  unfold k1_pay6
  rw [shapeCast_self]
  exact Ideal.ofBits_zero_f32
theorem pay7_apply (i : S4x1024x64.Idx) : (k1_pay7 (F := Ideal) : S4x1024x64.Idx → EReal) i = 0 := by
  unfold k1_pay7
  rw [shapeCast_self]
  exact Ideal.ofBits_zero_f32

/-- The stored maximum is the computed one. -/
theorem pay3_eq (v : FVec Ideal S4x1024x1 .f32) : k1_pay3 v = v := by
  unfold k1_pay3
  exact shapeCast_self v shapeCasts_S4x1024x1_S4x1024x1

end Pay

/-! ## The carried triple's reset, update and quotient at an index -/

theorem scInit_apply (b : Fin 4) (r : Fin 1024) (d : Fin 64) :
    ((scInit (F := Ideal)).1 : S4x1024x1.Idx → EReal) (ix3 b r 0) = ⊥
    ∧ ((scInit (F := Ideal)).2.1 : S4x1024x1.Idx → EReal) (ix3 b r 0) = 0
    ∧ ((scInit (F := Ideal)).2.2 : S4x1024x64.Idx → EReal) (ix3 b r d) = 0 := by
  exact ⟨pay5_apply (ix3 b r 0), pay6_apply (ix3 b r 0), pay7_apply (ix3 b r d)⟩

section Step

variable (x0 : Vec Ideal S1x4x1024x64 .bf16) (x1 x2 : Vec Ideal S1x4x256x64 .bf16) (x3 : Vec Ideal S1x1024x256 .bf16) (s : Sc Ideal)
  (h0 : ∀ i, ∃ r : ℝ, (x0 : S1x4x1024x64.Idx → EReal) i = (r : EReal)) (h1 : ∀ i, ∃ r : ℝ, (x1 : S1x4x256x64.Idx → EReal) i = (r : EReal))

/-- The new running maximum. -/
theorem scStep_max_apply (b : Fin 4) (r : Fin 1024) :
    ((scStep x0 x1 x2 x3 s).1 : S4x1024x1.Idx → EReal) (ix3 b r 0)
      = max ((s.1 : S4x1024x1.Idx → EReal) (ix3 b r 0)) (Finset.univ.sup fun jj : Fin 256 => blkLogit x0 x1 x3 b r jj) := by
  show (k1_pay3 (k1_pay10 x0 x1 x3 s.1) : S4x1024x1.Idx → EReal) (ix3 b r 0) = _
  rw [pay3_eq]
  exact pay10_apply x0 x1 x3 s.1 b r

/-- The new normaliser. -/
theorem scStep_den_apply (b : Fin 4) (r : Fin 1024) :
    ((scStep x0 x1 x2 x3 s).2.1 : S4x1024x1.Idx → EReal) (ix3 b r 0)
      = Ideal.exp ((s.1 : S4x1024x1.Idx → EReal) (ix3 b r 0) - ((scStep x0 x1 x2 x3 s).1 : S4x1024x1.Idx → EReal) (ix3 b r 0))
          * (s.2.1 : S4x1024x1.Idx → EReal) (ix3 b r 0)
        + ∑ jj : Fin 256, Ideal.exp (blkLogit x0 x1 x3 b r jj - ((scStep x0 x1 x2 x3 s).1 : S4x1024x1.Idx → EReal) (ix3 b r 0)) := by
  have hM : (scStep x0 x1 x2 x3 s).1 = k1_pay10 x0 x1 x3 s.1 := pay3_eq (k1_pay10 x0 x1 x3 s.1)
  rw [hM]
  show (k1_pay1 (k1_pay11 x0 x1 x3 s.1 s.1) (k1_pay12 x0 x1 x3 s.1) s.2.1 : S4x1024x1.Idx → EReal) (ix3 b r 0) = _
  rw [pay1_apply, pay11_apply]
  simp only [pay12_apply]

/-- The new weighted sum. -/
theorem scStep_acc_apply (b : Fin 4) (r : Fin 1024) (d : Fin 64) :
    ((scStep x0 x1 x2 x3 s).2.2 : S4x1024x64.Idx → EReal) (ix3 b r d)
      = Ideal.exp ((s.1 : S4x1024x1.Idx → EReal) (ix3 b r 0) - ((scStep x0 x1 x2 x3 s).1 : S4x1024x1.Idx → EReal) (ix3 b r 0))
          * (s.2.2 : S4x1024x64.Idx → EReal) (ix3 b r d)
        + ∑ jj : Fin 256, Ideal.exp (blkLogit x0 x1 x3 b r jj - ((scStep x0 x1 x2 x3 s).1 : S4x1024x1.Idx → EReal) (ix3 b r 0))
            * (x2 : S1x4x256x64.Idx → EReal) (ix4 0 b jj d) := by
  have hM : (scStep x0 x1 x2 x3 s).1 = k1_pay10 x0 x1 x3 s.1 := pay3_eq (k1_pay10 x0 x1 x3 s.1)
  rw [hM]
  show (k1_pay2 (k1_pay8 x2) (k1_pay11 x0 x1 x3 s.1 s.1) (k1_pay12 x0 x1 x3 s.1) s.2.2 : S4x1024x64.Idx → EReal) (ix3 b r d) = _
  rw [pay2_apply, pay11_apply]
  simp only [pay12_apply, pay8_apply]

/-- What the last key block stores. -/
theorem outFin_apply (b : Fin 4) (r : Fin 1024) (d : Fin 64) :
    (outFin s : S1x4x1024x64.Idx → EReal) (ix4 0 b r d)
      = Ideal.div ((s.2.2 : S4x1024x64.Idx → EReal) (ix3 b r d)) ((s.2.1 : S4x1024x1.Idx → EReal) (ix3 b r 0)) := by
  exact pay4_apply s.2.2 s.2.1 b r d

end Step

end Cert.KernelIdeal.Val

end
-- ==== Proof.Val1Blocks.lean ====
/-
  The attention launch's blocks as parts of its arrays. Grid point t is (head t/16, query block (t/8)%2, key block
  t%8). An entry of a point's block sits in the array, on each axis, at block index × block size + its coordinate:
  the query block's row r is row 1024·((t/8)%2) + r of head t/16, the key and value blocks' row jj is row
  256·(t%8) + jj, the bias block's entry (r, jj) is the bias of that pair of rows, and the output block's row r is
  the query block's row. The 32 points with t%8 = 7 write their output block back; row i of head h lies in the
  block of the point 16·h + 8·(i/1024) + 7, so those blocks cover the result array.
-/
import proofs.«423465_j4655744549114_3_alg».proof.Proof.KernelIdeal.Reg1Defs
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The index maps over the grid: point t is (head t/16, query block (t/8)%2, key block t%8) -/

theorem idx1_0 : ∀ t : Fin cfg1.N, win1_0.index t (0 : Fin 4) = t.val / 16 ∧ win1_0.index t (1 : Fin 4) = 0
    ∧ win1_0.index t (2 : Fin 4) = t.val / 8 % 2 ∧ win1_0.index t (3 : Fin 4) = 0 :=
  (by decide +kernel : ∀ t : Fin grid1.N, _)

theorem idx1_1 : ∀ t : Fin cfg1.N, win1_1.index t (0 : Fin 4) = t.val / 16 ∧ win1_1.index t (1 : Fin 4) = 0
    ∧ win1_1.index t (2 : Fin 4) = t.val % 8 ∧ win1_1.index t (3 : Fin 4) = 0 :=
  (by decide +kernel : ∀ t : Fin grid1.N, _)

theorem idx1_2 : ∀ t : Fin cfg1.N, win1_2.index t (0 : Fin 4) = t.val / 16 ∧ win1_2.index t (1 : Fin 4) = 0
    ∧ win1_2.index t (2 : Fin 4) = t.val % 8 ∧ win1_2.index t (3 : Fin 4) = 0 :=
  (by decide +kernel : ∀ t : Fin grid1.N, _)

theorem idx1_3 : ∀ t : Fin cfg1.N, win1_3.index t (0 : Fin 3) = t.val / 16 ∧ win1_3.index t (1 : Fin 3) = t.val / 8 % 2
    ∧ win1_3.index t (2 : Fin 3) = t.val % 8 :=
  (by decide +kernel : ∀ t : Fin grid1.N, _)

theorem idx1_4 : ∀ t : Fin cfg1.N, win1_4.index t (0 : Fin 4) = t.val / 16 ∧ win1_4.index t (1 : Fin 4) = 0
    ∧ win1_4.index t (2 : Fin 4) = t.val / 8 % 2 ∧ win1_4.index t (3 : Fin 4) = 0 :=
  (by decide +kernel : ∀ t : Fin grid1.N, _)

/-! ## Block reads: an entry of a point's block is the array's entry at block index × block size + coordinate -/

/-- The query block: head t/16, rows 1024·((t/8)%2) + r. -/
theorem qblk_apply (c : Dev nD) (t : Fin cfg1.N) (b : Fin 4) (r : Fin 1024) (d : Fin 64) (h : Fin 16) (i : Fin 2048)
    (hh : h.val = t.val / 16) (hi : i.val = 1024 * (t.val / 8 % 2) + r.val) :
    ((iblk1 (F := Ideal) V c 0 t : Vec Ideal S1x4x1024x64 .bf16) : S1x4x1024x64.Idx → EReal) (ix4 0 b r d)
      = (V c main_v10 : S16x4x2048x64.Idx → EReal) (ix4 h b i d) := by
  obtain ⟨e0, e1, e2, e3⟩ := idx1_0 t
  unfold iblk1
  rw [View.read_apply]
  show V c main_v10 _ = V c main_v10 _
  congr 1
  funext a
  apply Fin.ext
  match a with
  | ⟨0, _⟩ => show win1_0.index t (0 : Fin 4) * 1 + 1 * 0 = h.val; rw [e0, hh]; omega
  | ⟨1, _⟩ => show win1_0.index t (1 : Fin 4) * 4 + 1 * b.val = b.val; rw [e1]; omega
  | ⟨2, _⟩ => show win1_0.index t (2 : Fin 4) * 1024 + 1 * r.val = i.val; rw [e2, hi]; omega
  | ⟨3, _⟩ => show win1_0.index t (3 : Fin 4) * 64 + 1 * d.val = d.val; rw [e3]; omega

/-- The key block: head t/16, rows 256·(t%8) + jj. -/
theorem kblk_apply (c : Dev nD) (t : Fin cfg1.N) (b : Fin 4) (jj : Fin 256) (d : Fin 64) (h : Fin 16) (j : Fin 2048)
    (hh : h.val = t.val / 16) (hj : j.val = 256 * (t.val % 8) + jj.val) :
    ((iblk1 (F := Ideal) V c 1 t : Vec Ideal S1x4x256x64 .bf16) : S1x4x256x64.Idx → EReal) (ix4 0 b jj d)
      = (V c main_v12 : S16x4x2048x64.Idx → EReal) (ix4 h b j d) := by
  obtain ⟨e0, e1, e2, e3⟩ := idx1_1 t
  unfold iblk1
  rw [View.read_apply]
  show V c main_v12 _ = V c main_v12 _
  congr 1
  funext a
  apply Fin.ext
  match a with
  | ⟨0, _⟩ => show win1_1.index t (0 : Fin 4) * 1 + 1 * 0 = h.val; rw [e0, hh]; omega
  | ⟨1, _⟩ => show win1_1.index t (1 : Fin 4) * 4 + 1 * b.val = b.val; rw [e1]; omega
  | ⟨2, _⟩ => show win1_1.index t (2 : Fin 4) * 256 + 1 * jj.val = j.val; rw [e2, hj]; omega
  | ⟨3, _⟩ => show win1_1.index t (3 : Fin 4) * 64 + 1 * d.val = d.val; rw [e3]; omega

/-- The value block: head t/16, rows 256·(t%8) + jj. -/
theorem vblk_apply (c : Dev nD) (t : Fin cfg1.N) (b : Fin 4) (jj : Fin 256) (d : Fin 64) (h : Fin 16) (j : Fin 2048)
    (hh : h.val = t.val / 16) (hj : j.val = 256 * (t.val % 8) + jj.val) :
    ((iblk1 (F := Ideal) V c 2 t : Vec Ideal S1x4x256x64 .bf16) : S1x4x256x64.Idx → EReal) (ix4 0 b jj d)
      = (V c main_v14 : S16x4x2048x64.Idx → EReal) (ix4 h b j d) := by
  obtain ⟨e0, e1, e2, e3⟩ := idx1_2 t
  unfold iblk1
  rw [View.read_apply]
  show V c main_v14 _ = V c main_v14 _
  congr 1
  funext a
  apply Fin.ext
  match a with
  | ⟨0, _⟩ => show win1_2.index t (0 : Fin 4) * 1 + 1 * 0 = h.val; rw [e0, hh]; omega
  | ⟨1, _⟩ => show win1_2.index t (1 : Fin 4) * 4 + 1 * b.val = b.val; rw [e1]; omega
  | ⟨2, _⟩ => show win1_2.index t (2 : Fin 4) * 256 + 1 * jj.val = j.val; rw [e2, hj]; omega
  | ⟨3, _⟩ => show win1_2.index t (3 : Fin 4) * 64 + 1 * d.val = d.val; rw [e3]; omega

/-- The bias block: head t/16, query rows 1024·((t/8)%2) + r, key rows 256·(t%8) + jj. -/
theorem bblk_apply (c : Dev nD) (t : Fin cfg1.N) (r : Fin 1024) (jj : Fin 256) (h : Fin 16) (i j : Fin 2048)
    (hh : h.val = t.val / 16) (hi : i.val = 1024 * (t.val / 8 % 2) + r.val) (hj : j.val = 256 * (t.val % 8) + jj.val) :
    ((iblk1 (F := Ideal) V c 3 t : Vec Ideal S1x1024x256 .bf16) : S1x1024x256.Idx → EReal) (ix3 0 r jj)
      = (V c main_v50 : S16x2048x2048.Idx → EReal) (ix3 h i j) := by
  obtain ⟨e0, e1, e2⟩ := idx1_3 t
  unfold iblk1
  rw [View.read_apply]
  show V c main_v50 _ = V c main_v50 _
  congr 1
  funext a
  apply Fin.ext
  match a with
  | ⟨0, _⟩ => show win1_3.index t (0 : Fin 3) * 1 + 1 * 0 = h.val; rw [e0, hh]; omega
  | ⟨1, _⟩ => show win1_3.index t (1 : Fin 3) * 1024 + 1 * r.val = i.val; rw [e1, hi]; omega
  | ⟨2, _⟩ => show win1_3.index t (2 : Fin 3) * 256 + 1 * jj.val = j.val; rw [e2, hj]; omega

/-! ## The output block and the cover -/

/-- Query row r of query block qi, as a row of the whole query array. -/
def qRow (qi : Fin 2) (r : Fin 1024) : Fin 2048 := ⟨1024 * qi.val + r.val, by have := qi.isLt; have := r.isLt; omega⟩

theorem qRow_val (qi : Fin 2) (r : Fin 1024) : (qRow qi r).val = 1024 * qi.val + r.val := rfl

/-- An entry of point t's output block sits in the result array at head t/16, row 1024·((t/8)%2) + r. -/
theorem oblk_emb (t : Fin cfg1.N) (b : Fin 4) (r : Fin 1024) (d : Fin 64) (h : Fin 16) (i : Fin 2048)
    (hh : h.val = t.val / 16) (hi : i.val = 1024 * (t.val / 8 % 2) + r.val) :
    ((cfg1.win 4).blk t).view.emb (ix4 0 b r d) = (ix4 h b i d : S16x4x2048x64.Idx) := by
  obtain ⟨e0, e1, e2, e3⟩ := idx1_4 t
  funext a
  apply Fin.ext
  match a with
  | ⟨0, _⟩ => show win1_4.index t (0 : Fin 4) * 1 + 1 * 0 = h.val; rw [e0, hh]; omega
  | ⟨1, _⟩ => show win1_4.index t (1 : Fin 4) * 4 + 1 * b.val = b.val; rw [e1]; omega
  | ⟨2, _⟩ => show win1_4.index t (2 : Fin 4) * 1024 + 1 * r.val = i.val; rw [e2, hi]; omega
  | ⟨3, _⟩ => show win1_4.index t (3 : Fin 4) * 64 + 1 * d.val = d.val; rw [e3]; omega

/-- An index of the array is in point t's output block iff each coordinate is in the block's range on its axis. -/
theorem mem_blk1_4 (t : Fin cfg1.N) (x : S16x4x2048x64.Idx) :
    x ∈ ((cfg1.win 4).blk t).view.set
      ↔ ∀ a : Fin 4, win1_4.index t a * S1x4x1024x64.size a ≤ (x a).val
          ∧ (x a).val < win1_4.index t a * S1x4x1024x64.size a + S1x4x1024x64.size a := by
  show x ∈ ((View.whole main_v51).slice (win1_4.rect t)).set ↔ _
  rw [View.set_slice_whole, Rect.mem_set_unit]
  exact Iff.rfl

/-- Row i of head h is written back by the last key block's point of (h, i / 1024). -/
theorem cover1 (x : S16x4x2048x64.Idx) :
    ∃ t : Fin cfg1.N, (cfg1.win 4).flush t = true ∧ x ∈ ((cfg1.win 4).blk t).view.set := by
  have hN : cfg1.N = 256 := N_1
  have x0 : (x 0).val < 16 := (x 0).isLt
  have x1 : (x 1).val < 4 := (x 1).isLt
  have x2 : (x 2).val < 2048 := (x 2).isLt
  have x3 : (x 3).val < 64 := (x 3).isLt
  have ht : 16 * (x 0).val + 8 * ((x 2).val / 1024) + 7 < cfg1.N := by omega
  refine ⟨⟨16 * (x 0).val + 8 * ((x 2).val / 1024) + 7, ht⟩,
    (flush1_4 _).mpr (by show (16 * (x 0).val + 8 * ((x 2).val / 1024) + 7) % 8 = 7; omega), ?_⟩
  obtain ⟨e0, e1, e2, e3⟩ := idx1_4 ⟨16 * (x 0).val + 8 * ((x 2).val / 1024) + 7, ht⟩
  have v0 : (⟨16 * (x 0).val + 8 * ((x 2).val / 1024) + 7, ht⟩ : Fin cfg1.N).val
      = 16 * (x 0).val + 8 * ((x 2).val / 1024) + 7 := rfl
  rw [v0] at e0 e2
  rw [mem_blk1_4]
  intro a
  match a with
  | ⟨0, _⟩ => show win1_4.index _ (0 : Fin 4) * 1 ≤ (x 0).val ∧ (x 0).val < win1_4.index _ (0 : Fin 4) * 1 + 1; rw [e0]; omega
  | ⟨1, _⟩ => show win1_4.index _ (1 : Fin 4) * 4 ≤ (x 1).val ∧ (x 1).val < win1_4.index _ (1 : Fin 4) * 4 + 4; rw [e1]; omega
  | ⟨2, _⟩ => show win1_4.index _ (2 : Fin 4) * 1024 ≤ (x 2).val ∧ (x 2).val < win1_4.index _ (2 : Fin 4) * 1024 + 1024; rw [e2]; omega
  | ⟨3, _⟩ => show win1_4.index _ (3 : Fin 4) * 64 ≤ (x 3).val ∧ (x 3).val < win1_4.index _ (3 : Fin 4) * 64 + 64; rw [e3]; omega

end Cert.KernelIdeal.Val

end
-- ==== Proof.Val1.lean ====
/-
  What the attention launch leaves in its result array, over the extended reals, when the query, key, value and bias
  arrays hold real numbers: for head h, batch b, query row i and feature d, the softmax-weighted combination of the
  value rows, the logit of key row j being the inner product of query row i and key row j divided by 8 plus the bias
  of (h, i, j). The eight key blocks of a (head, query block) are taken in one after the other, the carried triple
  after the block of index kb being the running maximum, normaliser and weighted sum over the first 256·(kb+1) key
  rows; the last key block's point writes the quotient back, and those 32 write-backs tile the array.
-/
import proofs.«423465_j4655744549114_3_alg».proof.Proof.KernelIdeal.Reg1Defs
import proofs.«423465_j4655744549114_3_alg».proof.Proof.Spec
import proofs.«423465_j4655744549114_3_alg».proof.Proof.LibSoftmax
import proofs.«423465_j4655744549114_3_alg».proof.Proof.Val1Pay
import proofs.«423465_j4655744549114_3_alg».proof.Proof.Val1Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)
open Cert.LibSoftmax

variable (V : (c : Dev nD) → (b : Ref sig .tc) → Buf (Elt Ideal) ((c : Thread nD τ).loc b))

/-! ## The key rows taken in so far -/

/-- Row jj of key block k, as a row of the whole key array. -/
def keyRow (k : Fin 8) (jj : Fin 256) : Fin 2048 := ⟨256 * k.val + jj.val, by have := k.isLt; have := jj.isLt; omega⟩

theorem keyRow_val (k : Fin 8) (jj : Fin 256) : (keyRow k jj).val = 256 * k.val + jj.val := rfl

def keyEmb (k : Fin 8) : Fin 256 ↪ Fin 2048 :=
  ⟨keyRow k, fun a a' e => Fin.ext (by have := congrArg Fin.val e; simp only [keyRow_val] at this; omega)⟩

/-- The key rows of block k. -/
def blockRows (k : Fin 8) : Finset (Fin 2048) := Finset.univ.map (keyEmb k)

/-- The key rows of the blocks before block n. -/
def rowsBelow (n : ℕ) : Finset (Fin 2048) := Finset.univ.filter fun j => j.val < 256 * n

theorem rowsBelow_zero : rowsBelow 0 = ∅ := by
  unfold rowsBelow
  exact Finset.filter_eq_empty_iff.mpr fun j _ => by omega

theorem rowsBelow_eight : rowsBelow 8 = Finset.univ := by
  unfold rowsBelow
  exact Finset.filter_eq_self.mpr fun j _ => by have := j.isLt; omega

theorem mem_blockRows (k : Fin 8) (j : Fin 2048) : j ∈ blockRows k ↔ 256 * k.val ≤ j.val ∧ j.val < 256 * (k.val + 1) := by
  unfold blockRows
  rw [Finset.mem_map]
  constructor
  · rintro ⟨jj, -, rfl⟩
    have := jj.isLt
    show 256 * k.val ≤ 256 * k.val + jj.val ∧ 256 * k.val + jj.val < 256 * (k.val + 1)
    omega
  · rintro ⟨h1, h2⟩
    exact ⟨⟨j.val - 256 * k.val, by omega⟩, Finset.mem_univ _, Fin.ext (by show 256 * k.val + (j.val - 256 * k.val) = j.val; omega)⟩

theorem rowsBelow_succ (k : Fin 8) : rowsBelow (k.val + 1) = rowsBelow k.val ∪ blockRows k := by
  ext j
  rw [Finset.mem_union, mem_blockRows]
  unfold rowsBelow
  rw [Finset.mem_filter, Finset.mem_filter]
  simp only [Finset.mem_univ, true_and]
  omega

theorem rowsBelow_disjoint (k : Fin 8) : Disjoint (rowsBelow k.val) (blockRows k) := by
  rw [Finset.disjoint_left]
  intro j hj hj'
  rw [mem_blockRows] at hj'
  unfold rowsBelow at hj
  rw [Finset.mem_filter] at hj
  omega

theorem blockRows_nonempty (k : Fin 8) : (blockRows k).Nonempty :=
  ⟨keyRow k 0, Finset.mem_map.mpr ⟨0, Finset.mem_univ _, rfl⟩⟩

/-! ## The real logits and values of one (head, batch, query row) -/

/-- A finite sum of reals, read in the extended reals, is the sum of the terms read there. -/
theorem coe_sum_real {ι : Type} (S : Finset ι) (f : ι → ℝ) : ((∑ x ∈ S, f x : ℝ) : EReal) = ∑ x ∈ S, ((f x : ℝ) : EReal) := by
  classical
  induction S using Finset.induction_on with
  | empty => simp
  | insert a S ha ih => rw [Finset.sum_insert ha, Finset.sum_insert ha, EReal.coe_add, ih]

/-- The real logit of query row i against key row j in head h, batch b: the inner product over the 64 features
    divided by 8, plus the bias of (h, i, j). -/
def rlogit (qr kr : S16x4x2048x64.Idx → ℝ) (br : S16x2048x2048.Idx → ℝ) (h : Fin 16) (b : Fin 4) (i j : Fin 2048) : ℝ :=
  (∑ d : Fin 64, qr (ix4 h b i d) * kr (ix4 h b j d)) * (1 / 8) + br (ix3 h i j)

section Real

variable (c : Dev nD) (qr kr vr : S16x4x2048x64.Idx → ℝ) (br : S16x2048x2048.Idx → ℝ)
  (hq : ∀ x, (V c main_v10 : S16x4x2048x64.Idx → EReal) x = ((qr x : ℝ) : EReal))
  (hk : ∀ x, (V c main_v12 : S16x4x2048x64.Idx → EReal) x = ((kr x : ℝ) : EReal))
  (hv : ∀ x, (V c main_v14 : S16x4x2048x64.Idx → EReal) x = ((vr x : ℝ) : EReal))
  (hb : ∀ x, (V c main_v50 : S16x2048x2048.Idx → EReal) x = ((br x : ℝ) : EReal))

include hq hk hb in
/-- The specification's logit of the arrays is that real. -/
theorem logit_real (h : Fin 16) (b : Fin 4) (i j : Fin 2048) :
    Cert.Spec.logit (fun i d => (V c main_v10 : S16x4x2048x64.Idx → EReal) (ix4 h b i d))
        (fun j d => (V c main_v12 : S16x4x2048x64.Idx → EReal) (ix4 h b j d))
        (fun i j => (V c main_v50 : S16x2048x2048.Idx → EReal) (ix3 h i j)) i j
      = ((rlogit qr kr br h b i j : ℝ) : EReal) := by
  unfold Cert.Spec.logit rlogit
  rw [Ideal.div_coe (by norm_num : (8 : ℝ) ≠ 0)]
  simp only [hq, hk, hb]
  rw [EReal.coe_add, EReal.coe_mul, coe_sum_real]
  simp only [EReal.coe_mul]

include hq hk hb in
/-- A point's block logit is the specification's logit at the global rows. -/
theorem blkLogit_real (t : Fin cfg1.N) (h : Fin 16) (b : Fin 4) (qi : Fin 2) (r : Fin 1024) (k : Fin 8) (jj : Fin 256)
    (ht : t.val = 16 * h.val + 8 * qi.val + k.val) :
    blkLogit (iblk1 (F := Ideal) V c 0 t) (iblk1 (F := Ideal) V c 1 t) (iblk1 (F := Ideal) V c 3 t) b r jj
      = ((rlogit qr kr br h b (qRow qi r) (keyRow k jj) : ℝ) : EReal) := by
  have hh : h.val = t.val / 16 := by have := qi.isLt; have := k.isLt; omega
  have hi : (qRow qi r).val = 1024 * (t.val / 8 % 2) + r.val := by rw [qRow_val]; have := qi.isLt; have := k.isLt; omega
  have hj : (keyRow k jj).val = 256 * (t.val % 8) + jj.val := by rw [keyRow_val]; have := qi.isLt; have := k.isLt; omega
  unfold blkLogit
  simp only [qblk_apply V c t b r _ h (qRow qi r) hh hi, kblk_apply V c t b jj _ h (keyRow k jj) hh hj,
    bblk_apply V c t r jj h (qRow qi r) (keyRow k jj) hh hi hj]
  exact logit_real V c qr kr br hq hk hb h b (qRow qi r) (keyRow k jj)

end Real

/-! ## The invariant of the carried triple -/

/-- One point's update read at (batch b, row r, feature d): if the triple it starts from holds the running maximum,
    normaliser and weighted sum over the key rows before block kb, the updated triple holds them over the rows
    through block kb. -/
theorem step_inv (x0 : Vec Ideal S1x4x1024x64 .bf16) (x1 x2 : Vec Ideal S1x4x256x64 .bf16) (x3 : Vec Ideal S1x1024x256 .bf16)
    (σ : Sc Ideal) (s v : Fin 2048 → ℝ) (k : Fin 8) (b : Fin 4) (r : Fin 1024) (d : Fin 64)
    (hlog : ∀ jj : Fin 256, blkLogit x0 x1 x3 b r jj = ((s (keyRow k jj) : ℝ) : EReal))
    (hval : ∀ jj : Fin 256, (x2 : S1x4x256x64.Idx → EReal) (ix4 0 b jj d) = ((v (keyRow k jj) : ℝ) : EReal))
    (h1 : (σ.1 : S4x1024x1.Idx → EReal) (ix3 b r 0) = smax s (rowsBelow k.val))
    (h2 : (σ.2.1 : S4x1024x1.Idx → EReal) (ix3 b r 0) = ssum s (rowsBelow k.val) (smax s (rowsBelow k.val)))
    (h3 : (σ.2.2 : S4x1024x64.Idx → EReal) (ix3 b r d) = swsum s v (rowsBelow k.val) (smax s (rowsBelow k.val))) :
    ((scStep x0 x1 x2 x3 σ).1 : S4x1024x1.Idx → EReal) (ix3 b r 0) = smax s (rowsBelow (k.val + 1))
    ∧ ((scStep x0 x1 x2 x3 σ).2.1 : S4x1024x1.Idx → EReal) (ix3 b r 0)
        = ssum s (rowsBelow (k.val + 1)) (smax s (rowsBelow (k.val + 1)))
    ∧ ((scStep x0 x1 x2 x3 σ).2.2 : S4x1024x64.Idx → EReal) (ix3 b r d)
        = swsum s v (rowsBelow (k.val + 1)) (smax s (rowsBelow (k.val + 1))) := by
  obtain ⟨o1, o2, o3⟩ := online_step s v (rowsBelow k.val) (blockRows k) (rowsBelow_disjoint k) (blockRows_nonempty k)
  have hsup : (Finset.univ.sup fun jj : Fin 256 => blkLogit x0 x1 x3 b r jj) = smax s (blockRows k) := by
    unfold smax blockRows
    rw [Finset.sup_map]
    exact Finset.sup_congr rfl fun jj _ => hlog jj
  have hmax : ((scStep x0 x1 x2 x3 σ).1 : S4x1024x1.Idx → EReal) (ix3 b r 0)
      = max (smax s (rowsBelow k.val)) (smax s (blockRows k)) := by
    rw [scStep_max_apply, h1, hsup]
  refine ⟨?_, ?_, ?_⟩
  · rw [hmax, rowsBelow_succ]; exact o1
  · rw [scStep_den_apply, hmax, h1, h2, rowsBelow_succ, ← o2]
    congr 1
    unfold ssum blockRows
    rw [Finset.sum_map]
    exact Finset.sum_congr rfl fun jj _ => by rw [hlog jj]; rfl
  · rw [scStep_acc_apply, hmax, h1, h3, rowsBelow_succ, ← o3]
    congr 1
    unfold swsum blockRows
    rw [Finset.sum_map]
    exact Finset.sum_congr rfl fun jj _ => by rw [hlog jj, hval jj]; rfl

/-- The triple after a point that is no first key block is the update of the triple before it. -/
theorem scAt1_succ (c : Dev nD) (n : ℕ) (hn : n + 1 < cfg1.N) (h : ¬ (n + 1) % 8 = 0) :
    scAt1 (F := Ideal) V c (n + 1) hn
      = scStep (iblk1 V c 0 ⟨n + 1, hn⟩) (iblk1 V c 1 ⟨n + 1, hn⟩) (iblk1 V c 2 ⟨n + 1, hn⟩) (iblk1 V c 3 ⟨n + 1, hn⟩)
          (scAt1 V c n (Nat.lt_of_succ_lt hn)) :=
  scAt1_next V c ⟨n + 1, hn⟩ h

section Real

variable (c : Dev nD) (qr kr vr : S16x4x2048x64.Idx → ℝ) (br : S16x2048x2048.Idx → ℝ)
  (hq : ∀ x, (V c main_v10 : S16x4x2048x64.Idx → EReal) x = ((qr x : ℝ) : EReal))
  (hk : ∀ x, (V c main_v12 : S16x4x2048x64.Idx → EReal) x = ((kr x : ℝ) : EReal))
  (hv : ∀ x, (V c main_v14 : S16x4x2048x64.Idx → EReal) x = ((vr x : ℝ) : EReal))
  (hb : ∀ x, (V c main_v50 : S16x2048x2048.Idx → EReal) x = ((br x : ℝ) : EReal))

include hq hk hv hb in
/-- After key block kb of (head h, query block qi) the carried triple, read at batch b, row r, feature d, is the
    running maximum, normaliser and weighted sum over the first 256·(kb+1) key rows. -/
theorem inv1 (h : Fin 16) (b : Fin 4) (qi : Fin 2) (r : Fin 1024) (d : Fin 64) :
    ∀ (kb : ℕ) (hkb : kb < 8) (n : ℕ) (hn : n < cfg1.N), n = 16 * h.val + 8 * qi.val + kb →
      ((scAt1 (F := Ideal) V c n hn).1 : S4x1024x1.Idx → EReal) (ix3 b r 0)
          = smax (rlogit qr kr br h b (qRow qi r)) (rowsBelow (kb + 1))
      ∧ ((scAt1 (F := Ideal) V c n hn).2.1 : S4x1024x1.Idx → EReal) (ix3 b r 0)
          = ssum (rlogit qr kr br h b (qRow qi r)) (rowsBelow (kb + 1)) (smax (rlogit qr kr br h b (qRow qi r)) (rowsBelow (kb + 1)))
      ∧ ((scAt1 (F := Ideal) V c n hn).2.2 : S4x1024x64.Idx → EReal) (ix3 b r d)
          = swsum (rlogit qr kr br h b (qRow qi r)) (fun j => vr (ix4 h b j d)) (rowsBelow (kb + 1))
              (smax (rlogit qr kr br h b (qRow qi r)) (rowsBelow (kb + 1))) := by
  have hN : cfg1.N = 256 := N_1
  intro kb
  induction kb with
  | zero =>
    intro hkb n hn e
    have h0 : (⟨n, hn⟩ : Fin cfg1.N).val % 8 = 0 := by show n % 8 = 0; omega
    have e1 : scAt1 (F := Ideal) V c n hn
        = scStep (iblk1 V c 0 ⟨n, hn⟩) (iblk1 V c 1 ⟨n, hn⟩) (iblk1 V c 2 ⟨n, hn⟩) (iblk1 V c 3 ⟨n, hn⟩) scInit :=
      scAt1_first V c ⟨n, hn⟩ h0
    rw [e1]
    obtain ⟨i1, i2, i3⟩ := scInit_apply b r d
    refine step_inv (iblk1 V c 0 ⟨n, hn⟩) (iblk1 V c 1 ⟨n, hn⟩) (iblk1 V c 2 ⟨n, hn⟩) (iblk1 V c 3 ⟨n, hn⟩) scInit
      (rlogit qr kr br h b (qRow qi r)) (fun j => vr (ix4 h b j d)) ⟨0, hkb⟩ b r d ?_ ?_ ?_ ?_ ?_
    · exact fun jj => blkLogit_real V c qr kr br hq hk hb ⟨n, hn⟩ h b qi r ⟨0, hkb⟩ jj e
    · intro jj
      rw [vblk_apply V c ⟨n, hn⟩ b jj d h (keyRow ⟨0, hkb⟩ jj) (by show h.val = n / 16; have := qi.isLt; omega)
        (by show 256 * 0 + jj.val = 256 * (n % 8) + jj.val; omega)]
      exact hv _
    · rw [i1]; show ⊥ = smax _ (rowsBelow 0); rw [rowsBelow_zero]; exact Finset.sup_empty.symm
    · rw [i2]; show 0 = ssum _ (rowsBelow 0) _; rw [rowsBelow_zero]; exact Finset.sum_empty.symm
    · rw [i3]; show 0 = swsum _ _ (rowsBelow 0) _; rw [rowsBelow_zero]; exact Finset.sum_empty.symm
  | succ kb ih =>
    intro hkb n hn e
    obtain ⟨n', rfl⟩ : ∃ n', n = n' + 1 := ⟨n - 1, by omega⟩
    rw [scAt1_succ V c n' hn (by omega)]
    obtain ⟨j1, j2, j3⟩ := ih (by omega) n' (Nat.lt_of_succ_lt hn) (by omega)
    refine step_inv (iblk1 V c 0 ⟨n' + 1, hn⟩) (iblk1 V c 1 ⟨n' + 1, hn⟩) (iblk1 V c 2 ⟨n' + 1, hn⟩) (iblk1 V c 3 ⟨n' + 1, hn⟩)
      (scAt1 V c n' (Nat.lt_of_succ_lt hn))
      (rlogit qr kr br h b (qRow qi r)) (fun j => vr (ix4 h b j d)) ⟨kb + 1, hkb⟩ b r d ?_ ?_ j1 j2 j3
    · exact fun jj => blkLogit_real V c qr kr br hq hk hb ⟨n' + 1, hn⟩ h b qi r ⟨kb + 1, hkb⟩ jj e
    · intro jj
      rw [vblk_apply V c ⟨n' + 1, hn⟩ b jj d h (keyRow ⟨kb + 1, hkb⟩ jj) (by show h.val = (n' + 1) / 16; have := qi.isLt; omega)
        (by show 256 * (kb + 1) + jj.val = 256 * ((n' + 1) % 8) + jj.val; omega)]
      exact hv _

end Real

/-! ## The write-back and the result array -/

/-- The specification's attention of head h, batch b at query row i, feature d, of the launch's arrays. -/
def attnAt (c : Dev nD) (h : Fin 16) (b : Fin 4) (i : Fin 2048) (d : Fin 64) : EReal :=
  Cert.Spec.attn (fun i d => (V c main_v10 : S16x4x2048x64.Idx → EReal) (ix4 h b i d))
    (fun j d => (V c main_v12 : S16x4x2048x64.Idx → EReal) (ix4 h b j d))
    (fun j d => (V c main_v14 : S16x4x2048x64.Idx → EReal) (ix4 h b j d))
    (fun i j => (V c main_v50 : S16x2048x2048.Idx → EReal) (ix3 h i j)) i d

/-- The array the launch leaves. -/
def attnArr (c : Dev nD) : S16x4x2048x64.Idx → EReal := fun x => attnAt V c (x 0) (x 1) (x 2) (x 3)

section Real

variable (c : Dev nD) (qr kr vr : S16x4x2048x64.Idx → ℝ) (br : S16x2048x2048.Idx → ℝ)
  (hq : ∀ x, (V c main_v10 : S16x4x2048x64.Idx → EReal) x = ((qr x : ℝ) : EReal))
  (hk : ∀ x, (V c main_v12 : S16x4x2048x64.Idx → EReal) x = ((kr x : ℝ) : EReal))
  (hv : ∀ x, (V c main_v14 : S16x4x2048x64.Idx → EReal) x = ((vr x : ℝ) : EReal))
  (hb : ∀ x, (V c main_v50 : S16x2048x2048.Idx → EReal) x = ((br x : ℝ) : EReal))

include hq hk hv hb in
/-- What the last key block's point stores at (batch b, row r, feature d): the quotient of the weighted sum and the
    normaliser over all 2048 key rows, which is the specification's attention. -/
theorem out_apply (h : Fin 16) (b : Fin 4) (qi : Fin 2) (r : Fin 1024) (d : Fin 64) (n : ℕ) (hn : n < cfg1.N)
    (e : n = 16 * h.val + 8 * qi.val + 7) :
    (outFin (scAt1 (F := Ideal) V c n hn) : S1x4x1024x64.Idx → EReal) (ix4 0 b r d) = attnAt V c h b (qRow qi r) d := by
  obtain ⟨j1, j2, j3⟩ := inv1 V c qr kr vr br hq hk hv hb h b qi r d 7 (by omega) n hn e
  have e8 : rowsBelow (7 + 1) = Finset.univ := rowsBelow_eight
  rw [outFin_apply, j2, j3, e8, online_final _ _ _ Finset.univ_nonempty]
  unfold attnAt Cert.Spec.attn Cert.Spec.den Cert.Spec.wgt Cert.Spec.rowMax
  simp only [logit_real V c qr kr br hq hk hb, hv]
  rfl

include hq hk hv hb in
/-- What a flushing point writes back is its block of the attention array. -/
theorem flushed_eq1 (t : Fin cfg1.N) (hf : (cfg1.win 4).flush t = true) :
    (dat1 (F := Ideal) V c).flushed 4 t = ((cfg1.win 4).blk t).view.read (Elt Ideal) (attnArr V c) := by
  have hN : cfg1.N = 256 := N_1
  have h7 : t.val % 8 = 7 := (flush1_4 t).mp hf
  show (cfg1.win 4).cut (grid1.coords t) ((dat1 V c).after 4 t) = _
  rw [after1_4]
  funext y
  rw [View.read_apply]
  obtain ⟨y0, b, r, d, rfl⟩ : ∃ (y0 : Fin 1) (b : Fin 4) (r : Fin 1024) (d : Fin 64), y = ix4 y0 b r d :=
    ⟨y 0, y 1, y 2, y 3, eq_ix4 y⟩
  obtain rfl : y0 = 0 := Subsingleton.elim _ _
  have hth : t.val / 16 < 16 := by have := t.isLt; omega
  have htq : t.val / 8 % 2 < 2 := by omega
  show (outFin (scAt1 (F := Ideal) V c t.val t.isLt) : S1x4x1024x64.Idx → EReal) (ix4 0 b r d)
    = attnArr V c (((cfg1.win 4).blk t).view.emb (ix4 0 b r d))
  rw [oblk_emb t b r d ⟨t.val / 16, hth⟩ (qRow ⟨t.val / 8 % 2, htq⟩ r) rfl rfl]
  exact out_apply V c qr kr vr br hq hk hv hb ⟨t.val / 16, hth⟩ b ⟨t.val / 8 % 2, htq⟩ r d t.val t.isLt
    (by show t.val = 16 * (t.val / 16) + 8 * (t.val / 8 % 2) + 7; omega)

end Real

theorem val1 (c : Dev nD)
    (hq : ∀ i, ∃ r : ℝ, (V c main_v10 : S16x4x2048x64.Idx → EReal) i = (r : EReal))
    (hk : ∀ i, ∃ r : ℝ, (V c main_v12 : S16x4x2048x64.Idx → EReal) i = (r : EReal))
    (hv : ∀ i, ∃ r : ℝ, (V c main_v14 : S16x4x2048x64.Idx → EReal) i = (r : EReal))
    (hb : ∀ i, ∃ r : ℝ, (V c main_v50 : S16x2048x2048.Idx → EReal) i = (r : EReal))
    (h : Fin 16) (b : Fin 4) (i : Fin 2048) (d : Fin 64) :
    ((dat1 (F := Ideal) V c).arrAt 4 cfg1.N : S16x4x2048x64.Idx → EReal) (ix4 h b i d)
      = Cert.Spec.attn (fun i d => (V c main_v10 : S16x4x2048x64.Idx → EReal) (ix4 h b i d))
          (fun j d => (V c main_v12 : S16x4x2048x64.Idx → EReal) (ix4 h b j d))
          (fun j d => (V c main_v14 : S16x4x2048x64.Idx → EReal) (ix4 h b j d))
          (fun i j => (V c main_v50 : S16x2048x2048.Idx → EReal) (ix3 h i j)) i d := by
  choose qr hqr using hq
  choose kr hkr using hk
  choose vr hvr using hv
  choose br hbr using hb
  have hfin : (dat1 (F := Ideal) V c).arrAt 4 cfg1.N = attnArr V c :=
    (dat1 (F := Ideal) V c).arrAt_eq_of_cover 4 (attnArr V c)
      (fun t hf => flushed_eq1 V c qr kr vr br hqr hkr hvr hbr t hf) (cover1)
  rw [hfin]
  rfl

end Cert.KernelIdeal.Val

end
-- ==== Proof.Val2.lean ====
/-
  What the output projection launch leaves in its result array, over the extended reals: row r, column j is the
  inner product of row r of the merged attention result with column j of the transposed output weight, plus the
  bias' entry j. Each grid point writes the 1024 rows of its block; the eight blocks tile the array.
-/
import proofs.«423465_j4655744549114_3_alg».proof.Proof.KernelIdeal.Reg2
import proofs.«423465_j4655744549114_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The block's payload at an index -/

/-- The left operand's row coordinate is the result's. -/
theorem lhs_lin2_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The left operand's column coordinate is the contraction position. -/
theorem lhs_lin2_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- The right operand's row coordinate is the contraction position. -/
theorem rhs_lin2_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- The right operand's column coordinate is the result's. -/
theorem rhs_lin2_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product into the zero accumulator, at row `p` and column `q`: the inner product of the left operand's row `p`
    with the right operand's column `q`. -/
theorem matmul_lin2_apply (a : FVec Ideal S1024x1024 .bf16) (b : FVec Ideal S1024x1024 .bf16) (p q : Fin 1024) :
    FloatOps.matmul dot_S1024x1024_S1024x1024_S1024x1024_1_0_0_1_n_n none a b (constant (F := Ideal) S1024x1024 .f32 0x00000000#32) (ix2 p q)
      = ∑ k : Fin 1024, a (ix2 p k) * b (ix2 k q) := by
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k := funext fun a => Fin.ext (by
    match a with
    | ⟨0, _⟩ => exact lhs_lin2_0 _ _
    | ⟨1, _⟩ => exact (lhs_lin2_1 _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q := funext fun a => Fin.ext (by
    match a with
    | ⟨0, _⟩ => exact (rhs_lin2_0 _ _).trans hk
    | ⟨1, _⟩ => exact rhs_lin2_1 _ _)
  rw [el, er]

/-- The bias, cast to one row and broadcast down the rows, reads its entry at the column. -/
theorem bias_lin2_apply (x2 : FVec Ideal S1024 .f32) (p q : Fin 1024) :
    broadcastTo S1024x1024 (shapeCast S1x1024 x2 shapeCasts_S1024_S1x1024) broadcasts_S1x1024_S1024x1024 (ix2 p q) = x2 (ix1 q) := by
  refine (broadcastTo_apply _ broadcasts_S1x1024_S1024x1024 (ix2 p q) (ix2 (0 : Fin 1) q) ?_).trans ?_
  · intro a
    match a with
    | ⟨0, _⟩ => rfl
    | ⟨1, _⟩ => rfl
  · exact shapeCast_apply x2 shapeCasts_S1024_S1x1024 (ix2 (0 : Fin 1) q) (ix1 q) (by
      rw [Shape.rowMajor_val_one, Shape.rowMajor_val_two]; show q.val = 0 * 1024 + q.val; omega)

/-- The body's payload at row `p`, column `q`: the inner product of the input block's row `p` with the weight's column
    `q`, plus the bias' entry `q`. -/
theorem pay_lin2_apply (x0 : Vec Ideal S1024x1024 .bf16) (x1 : Vec Ideal S1024x1024 .bf16) (x2 : Vec Ideal S1024 .f32) (p q : Fin 1024) :
    (k2_pay1 (F := Ideal) x0 x1 x2 : S1024x1024.Idx → EReal) (ix2 p q)
      = (∑ k : Fin 1024, (x0 (ix2 p k) : EReal) * (x1 (ix2 k q) : EReal)) + (x2 (ix1 q) : EReal) := by
  unfold k2_pay1
  rw [shapeCast_self x0, shapeCast_self x1]
  exact congrArg₂ (· + ·) (matmul_lin2_apply x0 x1 p q) (bias_lin2_apply x2 p q)

/-! ## The result array as one function, and the blocks the body reads -/

/-- What the launch's result array ends holding: row `r`, column `j` is x·W + b there, of the arrays as the launch
    finds them. -/
def lin2 (c : Dev nD) : S8192x1024.Idx → EReal := fun i =>
  Cert.Spec.lin (R := 8192) (K := 1024) (N := 1024) (fun r k => (V c main_v53 : S8192x1024.Idx → EReal) (ix2 r k))
    (fun k j => (V c main_v55 : S1024x1024.Idx → EReal) (ix2 k j))
    (fun j => (V c main_arg8 : S1024.Idx → EReal) (ix1 j)) (i 0) (i 1)

theorem zero2_lin2 : (![0, 0] : Fin 2 → Nat) = fun _ => 0 := funext fun a => by fin_cases a <;> rfl
theorem zero1_lin2 : (![0] : Fin 1 → Nat) = fun _ => 0 := funext fun a => by fin_cases a <;> rfl

/-- The blocks' index maps over the grid: the input's and the result's block row is the point, their block column 0;
    the weight's and the bias' block is block 0 at every point. -/
theorem idx_lin2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The input block at point `t`: its row `p` is row `1024 t + p` of the attention result. -/
theorem xblk_lin2_apply (c : Dev nD) (t : Fin cfg2.N) (p k : Fin 1024) (r : Fin 8192) (hr : r.val = t.val * 1024 + p.val) :
    (iblk2 (F := Ideal) V c 0 t : S1024x1024.Idx → EReal) (ix2 p k) = (V c main_v53 : S8192x1024.Idx → EReal) (ix2 r k) := by
  obtain ⟨e0, e1, -⟩ := idx_lin2 t
  unfold iblk2
  rw [View.read_apply]
  show V c main_v53 _ = V c main_v53 _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 1024 + 1 * k.val = k.val; rw [e1]; omega

/-- The weight block at every point is the whole weight. -/
theorem wblk_lin2_apply (c : Dev nD) (t : Fin cfg2.N) (k q : Fin 1024) :
    (iblk2 (F := Ideal) V c 1 t : S1024x1024.Idx → EReal) (ix2 k q) = (V c main_v55 : S1024x1024.Idx → EReal) (ix2 k q) := by
  obtain ⟨-, -, e0, e1, -⟩ := idx_lin2 t
  unfold iblk2
  rw [View.read_apply]
  show V c main_v55 _ = V c main_v55 _
  congr 1
  funext a
  apply Fin.ext
  match a with
  | ⟨0, _⟩ => show win2_1.index t (0 : Fin 2) * 1024 + 1 * k.val = k.val; rw [e0]; omega
  | ⟨1, _⟩ => show win2_1.index t (1 : Fin 2) * 1024 + 1 * q.val = q.val; rw [e1]; omega

/-- The bias block at every point is the whole bias. -/
theorem bblk_lin2_apply (c : Dev nD) (t : Fin cfg2.N) (q : Fin 1024) :
    (iblk2 (F := Ideal) V c 2 t : S1024.Idx → EReal) (ix1 q) = (V c main_arg8 : S1024.Idx → EReal) (ix1 q) := by
  obtain ⟨-, -, -, -, e0, -⟩ := idx_lin2 t
  unfold iblk2
  rw [View.read_apply]
  show V c main_arg8 _ = V c main_arg8 _
  congr 1
  funext a
  apply Fin.ext
  match a with
  | ⟨0, _⟩ => show win2_2.index t (0 : Fin 1) * 1024 + 1 * q.val = q.val; rw [e0]; omega

/-- The result block at point `t`, row `p`, column `q`: x·W + b at row `1024 t + p`, column `q`. -/
theorem out_lin2_apply (c : Dev nD) (t : Fin cfg2.N) (p q : Fin 1024) (r : Fin 8192) (hr : r.val = t.val * 1024 + p.val) :
    (out2_3 (F := Ideal) (iblk2 V c 0 t) (iblk2 V c 1 t) (iblk2 V c 2 t) : S1024x1024.Idx → EReal) (ix2 p q)
      = Cert.Spec.lin (R := 8192) (K := 1024) (N := 1024) (fun r k => (V c main_v53 : S8192x1024.Idx → EReal) (ix2 r k))
          (fun k j => (V c main_v55 : S1024x1024.Idx → EReal) (ix2 k j))
          (fun j => (V c main_arg8 : S1024.Idx → EReal) (ix1 j)) r q := by
  unfold out2_3
  rw [View.canon_unit_zero zero2_lin2]
  simp only [View.ld_unit_zero (S := S1024x1024) zero2_lin2, View.ld_unit_zero (S := S1024) zero1_lin2]
  refine (pay_lin2_apply (iblk2 V c 0 t) (iblk2 V c 1 t) (iblk2 V c 2 t) p q).trans ?_
  unfold Cert.Spec.lin
  refine congrArg₂ (· + ·) (Finset.sum_congr rfl fun k _ => ?_) (bblk_lin2_apply V c t q)
  exact congrArg₂ (· * ·) (xblk_lin2_apply V c t p k r hr) (wblk_lin2_apply V c t k q)

/-! ## From the blocks to the array -/

/-- `Spec.lin` at coordinates with the same values. -/
theorem lin2_congr {R K N : ℕ} (x : Fin R → Fin K → EReal) (w : Fin K → Fin N → EReal) (b : Fin N → EReal)
    {r r' : Fin R} {j j' : Fin N} (hr : r.val = r'.val) (hj : j.val = j'.val) :
    Cert.Spec.lin x w b r j = Cert.Spec.lin x w b r' j' := by
  rw [Fin.ext hr, Fin.ext hj]

/-- What point `t` writes back is block `t` of `lin2`: rows `1024 t … 1024 t + 1023`, every column. -/
theorem flushed_lin2 (c : Dev nD) (t : Fin cfg2.N) :
    (dat2 (F := Ideal) V c).flushed 3 t = ((cfg2.win 3).blk t).view.read (Elt Ideal) (lin2 V c) := by
  show (cfg2.win 3).cut (grid2.coords t) ((dat2 V c).after 3 t) = _
  rw [after2_3]
  obtain ⟨-, -, -, -, -, e0, e1⟩ := idx_lin2 t
  have hN : t.val < 8 := lt_of_lt_of_eq t.isLt N_2
  have key : ∀ y : S1024x1024.Idx,
      (out2_3 (F := Ideal) (iblk2 V c 0 t) (iblk2 V c 1 t) (iblk2 V c 2 t) : S1024x1024.Idx → EReal) y
        = lin2 V c (((cfg2.win 3).blk t).view.emb y) := by
    intro y
    obtain ⟨p, q, rfl⟩ : ∃ (p q : Fin 1024), y = ix2 p q := ⟨y 0, y 1, eq_ix2 y⟩
    refine (out_lin2_apply V c t p q ⟨t.val * 1024 + p.val, by omega⟩ rfl).trans ?_
    unfold lin2
    refine lin2_congr _ _ _ ?_ ?_
    · show t.val * 1024 + p.val = win2_3.index t (0 : Fin 2) * 1024 + 1 * p.val
      rw [e0]; omega
    · show q.val = win2_3.index t (1 : Fin 2) * 1024 + 1 * q.val
      rw [e1]; omega
  funext y
  rw [View.read_apply]
  exact key y

/-- An index of the result array is in point `t`'s block iff each coordinate is in the block's range on its axis. -/
theorem mem_blk_lin2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v56).slice (win2_3.rect t)).set ↔ _
  rw [View.set_slice_whole, Rect.mem_set_unit]
  exact Iff.rfl

/-- The eight blocks tile the array: row `r` is in the block of point `r / 1024`. -/
theorem cover_lin2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, e0, e1⟩ := idx_lin2 t
  refine ⟨t, flush2_3 t, ?_⟩
  rw [mem_blk_lin2]
  intro a
  match a with
  | ⟨0, _⟩ =>
    show win2_3.index t (0 : Fin 2) * 1024 ≤ (i 0).val ∧ (i 0).val < win2_3.index t (0 : Fin 2) * 1024 + 1024
    rw [e0, ht]; omega
  | ⟨1, _⟩ =>
    show win2_3.index t (1 : Fin 2) * 1024 ≤ (i 1).val ∧ (i 1).val < win2_3.index t (1 : Fin 2) * 1024 + 1024
    rw [e1]; omega

/-- The result array after the launch is `lin2`. -/
theorem final_lin2 (c : Dev nD) : (dat2 (F := Ideal) V c).arrAt 3 cfg2.N = lin2 V c :=
  (dat2 (F := Ideal) V c).arrAt_eq_of_cover 3 (lin2 V c) (fun t _ => flushed_lin2 V c t) cover_lin2

theorem val2 (c : Dev nD) (r : Fin 8192) (j : Fin 1024) :
    ((dat2 (F := Ideal) V c).arrAt 3 cfg2.N : S8192x1024.Idx → EReal) (ix2 r j)
      = Cert.Spec.lin (fun r k => (V c main_v53 : S8192x1024.Idx → EReal) (ix2 r k))
          (fun k j => (V c main_v55 : S1024x1024.Idx → EReal) (ix2 k j))
          (fun j => (V c main_arg8 : S1024.Idx → EReal) (ix1 j)) r j :=
  congrFun (final_lin2 V c) (ix2 r j)

end Cert.KernelIdeal.Val

end
-- ==== Proof.KerReal.lean ====
/-
  The query, key and value arrays the attention launch finds hold real numbers when the arguments do: each entry is a
  projection of real arrays, a finite sum of products of reals plus a real.
-/
import proofs.«423465_j4655744549114_3_alg».proof.Proof.KerArgs
import proofs.«423465_j4655744549114_3_alg».proof.Proof.KerQKV
import proofs.«423465_j4655744549114_3_alg».proof.Proof.LibSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- A projection of real arrays is real. -/
theorem proj_real (x : Fin 4 → Fin 2048 → Fin 1024 → EReal) (w : Fin 1024 → Fin 1024 → EReal) (bb : Fin 1024 → EReal)
    (hx : ∀ b l k, ∃ r : ℝ, x b l k = (r : EReal)) (hw : ∀ j k, ∃ r : ℝ, w j k = (r : EReal)) (hb : ∀ j, ∃ r : ℝ, bb j = (r : EReal))
    (b : Fin 4) (l : Fin 2048) (j : Fin 1024) : ∃ r : ℝ, Cert.Spec.proj x w bb b l j = (r : EReal) := by
  choose fx hfx using hx
  choose fw hfw using hw
  choose fb hfb using hb
  refine ⟨(∑ c : Fin 1024, fx b l c * fw j c) + fb j, ?_⟩
  unfold Cert.Spec.proj
  rw [EReal.coe_add, Cert.LibSoftmax.coe_finset_sum, hfb]
  congr 1
  refine Finset.sum_congr rfl fun c _ => ?_
  rw [hfx, hfw, EReal.coe_mul]

/-- An array over (head, batch, row, feature) that is real at every coordinate quadruple is real at every index. -/
private theorem real_of_ix4 (f : S16x4x2048x64.Idx → EReal) (g : Fin 16 → Fin 4 → Fin 2048 → Fin 64 → EReal)
    (hfg : ∀ h b l d, f (ix4 h b l d) = g h b l d) (hg : ∀ h b l d, ∃ r : ℝ, g h b l d = (r : EReal))
    (i : S16x4x2048x64.Idx) : ∃ r : ℝ, f i = (r : EReal) := by
  obtain ⟨r, hr⟩ := hg (i 0) (i 1) (i 2) (i 3)
  exact ⟨r, ((congrArg f (eq_ix4 i)).trans (hfg _ _ _ _)).trans hr⟩

/-- The three arrays at the attention launch's entry are real. -/
theorem qkv_real (c : Dev nD) (hargs : ArgsReal m c) :
    (∀ i, ∃ r : ℝ, (V5 m ρ c main_v10 : S16x4x2048x64.Idx → EReal) i = (r : EReal))
    ∧ (∀ i, ∃ r : ℝ, (V5 m ρ c main_v12 : S16x4x2048x64.Idx → EReal) i = (r : EReal))
    ∧ (∀ i, ∃ r : ℝ, (V5 m ρ c main_v14 : S16x4x2048x64.Idx → EReal) i = (r : EReal)) := by
  obtain ⟨h0, h1, h2, h3, h4, h5, h6, -, -, -⟩ := hargs
  have hx : ∀ b l k, ∃ r : ℝ, argX m c b l k = (r : EReal) := fun b l k => h0 (ix3 b l k)
  have hwq : ∀ j k, ∃ r : ℝ, argWq m c j k = (r : EReal) := fun j k => h1 (ix2 j k)
  have hbq : ∀ j, ∃ r : ℝ, argBq m c j = (r : EReal) := fun j => h2 (ix1 j)
  have hwk : ∀ j k, ∃ r : ℝ, argWk m c j k = (r : EReal) := fun j k => h3 (ix2 j k)
  have hbk : ∀ j, ∃ r : ℝ, argBk m c j = (r : EReal) := fun j => h4 (ix1 j)
  have hwv : ∀ j k, ∃ r : ℝ, argWv m c j k = (r : EReal) := fun j k => h5 (ix2 j k)
  have hbv : ∀ j, ∃ r : ℝ, argBv m c j = (r : EReal) := fun j => h6 (ix1 j)
  exact ⟨real_of_ix4 (V5 m ρ c main_v10 : S16x4x2048x64.Idx → EReal) _ (q_eq m ρ c)
      fun h b l d => proj_real _ _ _ hx hwq hbq b l (Cert.Spec.hd h d),
    real_of_ix4 (V5 m ρ c main_v12 : S16x4x2048x64.Idx → EReal) _ (k_eq m ρ c)
      fun h b l d => proj_real _ _ _ hx hwk hbk b l (Cert.Spec.hd h d),
    real_of_ix4 (V5 m ρ c main_v14 : S16x4x2048x64.Idx → EReal) _ (v_eq m ρ c)
      fun h b l d => proj_real _ _ _ hx hwv hbv b l (Cert.Spec.hd h d)⟩

end Cert.KernelIdeal.Val

end
-- ==== Proof.KerOut.lean ====
/-
  The kernel program's result, over the extended reals, is the specification's layer of the argument arrays and the
  bias table the attention launch finds: the attention launch leaves the heads' outputs (real inputs: the projections
  of real arrays are real), the host stretch after it merges the heads back into 1024 features, the output projection
  launch multiplies by the transposed output weight and adds the bias, and the last stretch restores the batch axis.
-/
import proofs.«423465_j4655744549114_3_alg».proof.Proof.KerArgs
import proofs.«423465_j4655744549114_3_alg».proof.Proof.KerQKV
import proofs.«423465_j4655744549114_3_alg».proof.Proof.Val1
import proofs.«423465_j4655744549114_3_alg».proof.Proof.Val2
import proofs.«423465_j4655744549114_3_alg».proof.Proof.KerReal
import proofs.«423465_j4655744549114_3_alg».proof.Proof.Gen.KernelIdeal.Regions
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## The layout changes of the two host stretches, at an index -/

/-- The 8192 rows regrouped as 4 batches of 2048: entry (b, l, e) is row 2048 b + l, column e. -/
theorem rows_split_apply (X : S8192x1024.Idx → EReal) (b : Fin 4) (l : Fin 2048) (e : Fin 1024) (r : Fin 8192)
    (hr : r.val = 2048 * b.val + l.val) :
    shapeCast S4x2048x1024 X Facts₀.shapeCasts_S8192x1024_S4x2048x1024 (ix3 b l e) = X (ix2 r e) :=
  shapeCast_apply X _ (ix3 b l e) (ix2 r e) (by
    rw [Shape.rowMajor_val_two, Shape.rowMajor_val_three]
    show r.val * 1024 + e.val = (b.val * 2048 + l.val) * 1024 + e.val
    rw [hr]; omega)

/-- Sixteen heads of 64 features merged into 1024 features, the batches' rows into 8192: entry (2048 b + l, 64 h + d)
    is entry (b, l, h, d). -/
theorem heads_merge_apply (X : S4x2048x16x64.Idx → EReal) (b : Fin 4) (l : Fin 2048) (h : Fin 16) (d : Fin 64)
    (r : Fin 8192) (k : Fin 1024) (hr : r.val = 2048 * b.val + l.val) (hk : k.val = 64 * h.val + d.val) :
    shapeCast S8192x1024 X Facts₀.shapeCasts_S4x2048x16x64_S8192x1024 (ix2 r k) = X (ix4 b l h d) :=
  shapeCast_apply X _ (ix2 r k) (ix4 b l h d) (by
    rw [Shape.rowMajor_val_two, Shape.rowMajor_val_four]
    show ((b.val * 2048 + l.val) * 16 + h.val) * 64 + d.val = r.val * 1024 + k.val
    rw [hr, hk]; omega)

/-- The head axis moved from the front to the third place: entry (b, l, h, d) is entry (h, b, l, d). -/
theorem heads_back_apply (X : S16x4x2048x64.Idx → EReal) (b : Fin 4) (l : Fin 2048) (h : Fin 16) (d : Fin 64) :
    transpose S4x2048x16x64 [1, 2, 0, 3] X Facts₀.transposes_S16x4x2048x64_S4x2048x16x64_1_2_0_3 (ix4 b l h d) = X (ix4 h b l d) :=
  transpose_apply _ X _ (ix4 b l h d) (ix4 h b l d) fun a => match a with
    | ⟨0, _⟩ => rfl | ⟨1, _⟩ => rfl | ⟨2, _⟩ => rfl | ⟨3, _⟩ => rfl

variable (m : (ℓ : Loc nD τ sig) → Buf (Elt Ideal) ℓ) (ρ : Dev nD → PrngReg)

/-! ## The buffers the last two launches and stretches leave, named -/

/-- The program's last buffer is the output projection's result array with the batch axis restored. -/
theorem last_eq (c : Dev nD) :
    (W9 m ρ c (Proc.devRef .tc main_v57) : S4x2048x1024.Idx → EReal)
      = shapeCast S4x2048x1024 (W8 m ρ c (Proc.devRef .tc main_v56) : S8192x1024.Idx → EReal) Facts₀.shapeCasts_S8192x1024_S4x2048x1024 := by
  show StableHlo.after hostOps3 (W8 m ρ c) (Proc.devRef .tc main_v57) = _
  after_results
  rfl

/-- The output projection's input is the attention launch's result array, the heads moved back and merged. -/
theorem merged_eq (c : Dev nD) :
    (Hand.V7 m ρ c main_v53 : S8192x1024.Idx → EReal)
      = shapeCast S8192x1024 (transpose S4x2048x16x64 [1, 2, 0, 3] (W6 m ρ c (Proc.devRef .tc main_v51) : S16x4x2048x64.Idx → EReal)
          Facts₀.transposes_S16x4x2048x64_S4x2048x16x64_1_2_0_3) Facts₀.shapeCasts_S4x2048x16x64_S8192x1024 := by
  show StableHlo.after hostOps2 (W6 m ρ c) (Proc.devRef .tc main_v53) = _
  after_results
  rfl

/-- The output projection's weight operand is the output weight argument transposed (the change of format is the
    identity on the extended reals). -/
theorem wo_eq (c : Dev nD) :
    (Hand.V7 m ρ c main_v55 : S1024x1024.Idx → EReal)
      = transpose S1024x1024 [1, 0] (W6 m ρ c (Proc.devRef .tc main_arg7) : S1024x1024.Idx → EReal) Facts₀.transposes_S1024x1024_S1024x1024_1_0 := by
  show StableHlo.after hostOps2 (W6 m ρ c) (Proc.devRef .tc main_v55) = _
  after_results
  rfl

/-! ## The arguments reach the last launch as launched -/

/-- No launch and no host stretch before the output projection writes the output weight argument. -/
theorem wo_arg (c : Dev nD) :
    W6 m ρ c (Proc.devRef .tc main_arg7) = m ((c.tc : Thread nD τ).loc main_arg7) :=
  (W6_of_ne m ρ c main_arg7 (by decide)).trans <|
    (StableHlo.after_of_writes_sub hostOps1_2 _ hostOps1_2_writes (by decide)).trans <|
    (StableHlo.after_of_writes_sub hostOps1_1 _ hostOps1_1_writes (by decide)).trans <|
    (StableHlo.after_of_writes_sub hostOps1 _ hostOps1_writes (by decide)).trans <|
    (W2_of_ne m ρ c main_arg7 (by decide)).trans <|
    (StableHlo.after_of_writes_sub hostOps0 _ hostOps0_writes (by decide)).trans rfl

/-- Nor the output bias argument. -/
theorem bo_arg (c : Dev nD) :
    Hand.V7 m ρ c main_arg8 = m ((c.tc : Thread nD τ).loc main_arg8) :=
  (StableHlo.after_of_writes_sub hostOps2 _ hostOps2_writes (by decide)).trans <|
    (W6_of_ne m ρ c main_arg8 (by decide)).trans <|
    (StableHlo.after_of_writes_sub hostOps1_2 _ hostOps1_2_writes (by decide)).trans <|
    (StableHlo.after_of_writes_sub hostOps1_1 _ hostOps1_1_writes (by decide)).trans <|
    (StableHlo.after_of_writes_sub hostOps1 _ hostOps1_writes (by decide)).trans <|
    (W2_of_ne m ρ c main_arg8 (by decide)).trans <|
    (StableHlo.after_of_writes_sub hostOps0 _ hostOps0_writes (by decide)).trans rfl

/-- The output projection's result array after its launch. -/
theorem proj_out_eq (c : Dev nD) :
    W8 m ρ c (Proc.devRef .tc main_v56) = (dat2 (F := Ideal) (Hand.V7 m ρ) c).arrAt 3 cfg2.N :=
  W8_arr m ρ c 3

/-- The attention launch's result array after its launch. -/
theorem attn_out_eq (c : Dev nD) :
    W6 m ρ c (Proc.devRef .tc main_v51) = (dat1 (F := Ideal) (Hand.V5 m ρ) c).arrAt 4 cfg1.N :=
  W6_arr m ρ c 4

/-! ## The assembly -/

/-- The merged attention result at row 2048 b + l, feature k: the output of head k / 64 at its feature k % 64. -/
theorem merged_apply (c : Dev nD) (hargs : ArgsReal m c)
    (hbias : ∀ i, ∃ r : ℝ, (Hand.V5 m ρ c main_v50 : S16x2048x2048.Idx → EReal) i = (r : EReal))
    (b : Fin 4) (l : Fin 2048) (k : Fin 1024) (r : Fin 8192) (hr : r.val = 2048 * b.val + l.val) :
    (Hand.V7 m ρ c main_v53 : S8192x1024.Idx → EReal) (ix2 r k)
      = Cert.Spec.headOut (argX m c) (argWq m c) (argBq m c) (argWk m c) (argBk m c) (argWv m c) (argBv m c)
          (kerBias m ρ c) b (Cert.Spec.hdOf k) l (Cert.Spec.dOf k) := by
  obtain ⟨hq, hk, hv⟩ := qkv_real m ρ c hargs
  refine (congrFun (merged_eq m ρ c) (ix2 r k)).trans ?_
  refine (heads_merge_apply _ b l (Cert.Spec.hdOf k) (Cert.Spec.dOf k) r k hr
    (by show k.val = 64 * (k.val / 64) + k.val % 64; omega)).trans ?_
  refine (heads_back_apply _ b l (Cert.Spec.hdOf k) (Cert.Spec.dOf k)).trans ?_
  rw [attn_out_eq]
  refine (val1 (Hand.V5 m ρ) c hq hk hv hbias (Cert.Spec.hdOf k) b l (Cert.Spec.dOf k)).trans ?_
  unfold Cert.Spec.headOut
  have eq : (fun (i : Fin 2048) (d : Fin 64) => (Hand.V5 m ρ c main_v10 : S16x4x2048x64.Idx → EReal) (ix4 (Cert.Spec.hdOf k) b i d))
      = fun i d => Cert.Spec.proj (argX m c) (argWq m c) (argBq m c) b i (Cert.Spec.hd (Cert.Spec.hdOf k) d) :=
    funext fun i => funext fun d => q_eq m ρ c (Cert.Spec.hdOf k) b i d
  have ek : (fun (j : Fin 2048) (d : Fin 64) => (Hand.V5 m ρ c main_v12 : S16x4x2048x64.Idx → EReal) (ix4 (Cert.Spec.hdOf k) b j d))
      = fun j d => Cert.Spec.proj (argX m c) (argWk m c) (argBk m c) b j (Cert.Spec.hd (Cert.Spec.hdOf k) d) :=
    funext fun j => funext fun d => k_eq m ρ c (Cert.Spec.hdOf k) b j d
  have ev : (fun (j : Fin 2048) (d : Fin 64) => (Hand.V5 m ρ c main_v14 : S16x4x2048x64.Idx → EReal) (ix4 (Cert.Spec.hdOf k) b j d))
      = fun j d => Cert.Spec.proj (argX m c) (argWv m c) (argBv m c) b j (Cert.Spec.hd (Cert.Spec.hdOf k) d) :=
    funext fun j => funext fun d => v_eq m ρ c (Cert.Spec.hdOf k) b j d
  rw [eq, ek, ev]

/-- The output projection's weight operand at (k, e) is the output weight argument at (e, k). -/
theorem wo_apply (c : Dev nD) (k e : Fin 1024) :
    (Hand.V7 m ρ c main_v55 : S1024x1024.Idx → EReal) (ix2 k e) = argWo m c e k := by
  refine (congrFun (wo_eq m ρ c) (ix2 k e)).trans ?_
  refine (transpose_ix2_apply _ _ k e).trans ?_
  rw [wo_arg]

theorem ker_final (c : Dev nD) (hargs : ArgsReal m c)
    (hbias : ∀ i, ∃ r : ℝ, (V5 m ρ c main_v50 : S16x2048x2048.Idx → EReal) i = (r : EReal))
    (b : Fin 4) (l : Fin 2048) (e : Fin 1024) :
    (W9 m ρ c (Proc.devRef .tc main_v57) : S4x2048x1024.Idx → EReal) (ix3 b l e)
      = Cert.Spec.final (argX m c) (argWq m c) (argBq m c) (argWk m c) (argBk m c) (argWv m c) (argBv m c)
          (argWo m c) (argBo m c) (kerBias m ρ c) b l e := by
  have hlt : 2048 * b.val + l.val < 8192 := by omega
  refine (congrFun (last_eq m ρ c) (ix3 b l e)).trans ?_
  refine (rows_split_apply _ b l e ⟨2048 * b.val + l.val, hlt⟩ rfl).trans ?_
  rw [proj_out_eq]
  refine (val2 (Hand.V7 m ρ) c ⟨2048 * b.val + l.val, hlt⟩ e).trans ?_
  unfold Cert.Spec.lin Cert.Spec.final
  refine congrArg₂ (· + ·) (Finset.sum_congr rfl fun k _ => ?_) ?_
  · exact congrArg₂ (· * ·) (merged_apply m ρ c hargs hbias b l k ⟨2048 * b.val + l.val, hlt⟩ rfl) (wo_apply m ρ c k e)
  · show (Hand.V7 m ρ c main_arg8 : S1024.Idx → EReal) (ix1 e) = argBo m c e
    rw [bo_arg]

end Cert.KernelIdeal.Val

end
-- ==== Proof.RefArgs.lean ====
/-
  The reference program's argument arrays read at coordinates, and its bias table (the table of 32 buckets by 16
  heads gathered by the bucket of each (query row, key row) and moved head-first).
-/
import proofs.«423465_j4655744549114_3_alg».proof.Proof.RefRead
import proofs.«423465_j4655744549114_3_alg».proof.Proof.SpecFinal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx

/-- The input at batch `b`, row `l`, feature `k`. -/
abbrev rX (x0 : (⟨S4x2048x1024, .f32⟩ : BufTy).Contents (Elt Ideal)) : Fin 4 → Fin 2048 → Fin 1024 → EReal :=
  fun b l k => (x0 : S4x2048x1024.Idx → EReal) (ix3 b l k)
/-- A weight at (output feature, input feature); a bias at a feature. -/
abbrev rW (x : (⟨S1024x1024, .f32⟩ : BufTy).Contents (Elt Ideal)) : Fin 1024 → Fin 1024 → EReal := fun j k => (x : S1024x1024.Idx → EReal) (ix2 j k)
abbrev rB (x : (⟨S1024, .f32⟩ : BufTy).Contents (Elt Ideal)) : Fin 1024 → EReal := fun j => (x : S1024.Idx → EReal) (ix1 j)
/-- The bias table (head, query row, key row). -/
abbrev refBias (x9 : (⟨S32x16, .f32⟩ : BufTy).Contents (Elt Ideal)) : Fin 16 → Fin 2048 → Fin 2048 → EReal :=
  fun h i j => (val_main_v55 x9 : S16x2048x2048.Idx → EReal) (ix3 h i j)

end Cert.ReferenceIdeal.RefValue

end
-- ==== Proof.RefQKV.lean ====
/-
  The reference's query, key and value arrays are the specification's projections: entry (batch b, head h, row l,
  feature d) is the projection of input row (b, l) at feature 64·h + d (the product with the weight contracts the
  input features; the 1024 output features are split into 16 heads of 64 and the head axis moved before the rows).
-/
import proofs.«423465_j4655744549114_3_alg».proof.Proof.RefArgs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx

/-! ## Where each stage of a projection reads its operand -/

/-- Moving the head axis back behind the rows: entry (b, h, l, d) is read at (b, l, h, d). -/
theorem heads_idx_qkv (b : Fin 4) (h : Fin 16) (l : Fin 2048) (d : Fin 64) :
    idx_main_v5 (ix4 b h l d) = ix4 b l h d :=
  funext fun a => Fin.ext (by
    match a with
    | ⟨0, _⟩ => rfl
    | ⟨1, _⟩ => rfl
    | ⟨2, _⟩ => rfl
    | ⟨3, _⟩ => rfl)

/-- Splitting the 1024 features into 16 heads of 64: entry (b, l, h, d) is read at (b, l, 64·h + d). -/
theorem split_idx_qkv (b : Fin 4) (l : Fin 2048) (h : Fin 16) (d : Fin 64) :
    idx_main_v4 (ix4 b l h d) = ix3 b l (Cert.Spec.hd h d) :=
  funext fun a => Fin.ext (by
    have hb : b.val < 4 := b.isLt
    have hl : l.val < 2048 := l.isLt
    have hh : h.val < 16 := h.isLt
    have hd : d.val < 64 := d.isLt
    match a with
    | ⟨0, _⟩ => show (((b.val * 2048 + l.val) * 16 + h.val) * 64 + d.val) / 2097152 = b.val; omega
    | ⟨1, _⟩ => show (((b.val * 2048 + l.val) * 16 + h.val) * 64 + d.val) / 1024 % 2048 = l.val; omega
    | ⟨2, _⟩ => show (((b.val * 2048 + l.val) * 16 + h.val) * 64 + d.val) % 1024 = h.val * 64 + d.val; omega)

/-- The product's left operand at contraction position `k`: the input's row (b, l) at feature `k`. -/
theorem lidx_qkv (b : Fin 4) (l : Fin 2048) (j k : Fin 1024) : lidx_main_v0 (ix3 b l j) k = ix3 b l k :=
  funext fun a => Fin.ext (by
    match a with
    | ⟨0, _⟩ => rfl
    | ⟨1, _⟩ => rfl
    | ⟨2, _⟩ => rfl)

/-- The product's right operand at contraction position `k`: the weight's row `j` at feature `k`. -/
theorem ridx_qkv (b : Fin 4) (l : Fin 2048) (j k : Fin 1024) : ridx_main_v0 (ix3 b l j) k = ix2 j k :=
  funext fun a => Fin.ext (by
    match a with
    | ⟨0, _⟩ => rfl
    | ⟨1, _⟩ => rfl)

/-- The bias broadcast over batches and rows is read at the feature. -/
theorem bias_idx_qkv (b : Fin 4) (l : Fin 2048) (j : Fin 1024) : idx_main_v1 (idx_main_v2 (ix3 b l j)) = ix1 j :=
  funext fun a => Fin.ext (by
    match a with
    | ⟨0, _⟩ => rfl)

theorem ref_q (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (b : Fin 4) (h : Fin 16) (l : Fin 2048) (d : Fin 64) :
    (val_main_v5 x0 x1 x2 : S4x16x2048x64.Idx → EReal) (ix4 b h l d) = Cert.Spec.proj (rX x0) (rW x1) (rB x2) b l (Cert.Spec.hd h d) := by
  rw [val_main_v5_apply, heads_idx_qkv, val_main_v4_apply, split_idx_qkv, val_main_v3_apply, val_main_v0_apply, val_main_v2_apply,
    val_main_v1_apply, bias_idx_qkv]
  simp only [lidx_qkv, ridx_qkv]
  rfl

/-! ## The key's and the value's stages are the query's on other operands

Each of the three projections is the same chain of operations (product, bias, split into heads, heads before rows),
so the key's and the value's arrays are the query's array of their own weight and bias, by unfolding. -/

theorem ref_k (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (b : Fin 4) (h : Fin 16) (l : Fin 2048) (d : Fin 64) :
    (val_main_v11 x0 x3 x4 : S4x16x2048x64.Idx → EReal) (ix4 b h l d) = Cert.Spec.proj (rX x0) (rW x3) (rB x4) b l (Cert.Spec.hd h d) := by
  have e : val_main_v11 (F := Ideal) x0 x3 x4 = val_main_v5 (F := Ideal) x0 x3 x4 := rfl
  rw [e]
  exact ref_q x0 x3 x4 b h l d

theorem ref_v (x0 : (⟨S4x2048x1024, .f32⟩ : BufTy).Contents (Elt Ideal)) (x5 : (⟨S1024x1024, .f32⟩ : BufTy).Contents (Elt Ideal))
    (x6 : (⟨S1024, .f32⟩ : BufTy).Contents (Elt Ideal)) (b : Fin 4) (h : Fin 16) (l : Fin 2048) (d : Fin 64) :
    (val_main_v17 x0 x5 x6 : S4x16x2048x64.Idx → EReal) (ix4 b h l d) = Cert.Spec.proj (rX x0) (rW x5) (rB x6) b l (Cert.Spec.hd h d) := by
  have e : val_main_v17 (F := Ideal) x0 x5 x6 = val_main_v5 (F := Ideal) x0 x5 x6 := rfl
  rw [e]
  exact ref_q x0 x5 x6 b h l d

end Cert.ReferenceIdeal.RefValue

end
-- ==== Proof.RefHead.lean ====
/-
  The reference's per-head attention stage is the specification's head output: the scores are the heads' inner
  products divided by 8 plus the bias; the softmax subtracts each row's maximum, exponentiates and divides by the row's
  sum; the weights combine the value rows.
-/
import proofs.«423465_j4655744549114_3_alg».proof.Proof.RefArgs
import proofs.«423465_j4655744549114_3_alg».proof.Proof.RefQKV
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx

section Heads

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x9 : (⟨S32x16, .f32⟩ : BufTy).Contents (Elt Ideal))

/-- Head `h`'s query and key rows for batch `b`. -/
abbrev qOf (b : Fin 4) (h : Fin 16) : Fin 2048 → Fin 64 → EReal := fun i d => Cert.Spec.proj (rX x0) (rW x1) (rB x2) b i (Cert.Spec.hd h d)
abbrev kOf (b : Fin 4) (h : Fin 16) : Fin 2048 → Fin 64 → EReal := fun j d => Cert.Spec.proj (rX x0) (rW x3) (rB x4) b j (Cert.Spec.hd h d)

/-- The raw score of query row `i` against key row `j`: the inner product of the two rows over the head's 64 features. -/
theorem scores_apply (b : Fin 4) (h : Fin 16) (i j : Fin 2048) :
    (val_main_v18 x0 x1 x2 x3 x4 : S4x16x2048x2048.Idx → EReal) (ix4 b h i j)
      = ∑ d : Fin 64, qOf x0 x1 x2 b h i d * kOf x0 x3 x4 b h j d := by
  rw [val_main_v18_apply]
  refine Finset.sum_congr rfl fun d _ => ?_
  have el : lidx_main_v18 (ix4 b h i j) d = ix4 b h i d :=
    funext fun a => Fin.ext (by match a with | ⟨0, _⟩ => rfl | ⟨1, _⟩ => rfl | ⟨2, _⟩ => rfl | ⟨3, _⟩ => rfl)
  have er : ridx_main_v18 (ix4 b h i j) d = ix4 b h j d :=
    funext fun a => Fin.ext (by match a with | ⟨0, _⟩ => rfl | ⟨1, _⟩ => rfl | ⟨2, _⟩ => rfl | ⟨3, _⟩ => rfl)
  rw [el, er, ref_q, ref_k]

/-- The word 0x41000000 is the real 8. -/
private theorem ofBits_eight : Ideal.ofBits .f32 0x41000000#32 = ((8 : ℝ) : EReal) := by
  simp [Ideal.ofBits, Ideal.ieee, -EReal.coe_mul]; norm_num

/-- The logit: the score over 8 plus the bias of (head, query row, key row). -/
theorem logit_apply (b : Fin 4) (h : Fin 16) (i j : Fin 2048) :
    (val_main_v58 x0 x1 x2 x3 x4 x9 : S4x16x2048x2048.Idx → EReal) (ix4 b h i j)
      = Cert.Spec.logit (qOf x0 x1 x2 b h) (kOf x0 x3 x4 b h) (refBias x9 h) i j := by
  have eb : idx_main_v56 (idx_main_v57 (ix4 b h i j)) = ix3 h i j :=
    funext fun a => Fin.ext (by match a with | ⟨0, _⟩ => rfl | ⟨1, _⟩ => rfl | ⟨2, _⟩ => rfl)
  rw [val_main_v58_apply, val_main_v20_apply, val_main_v19_apply, val_main_cst_apply, val_main_v57_apply, val_main_v56_apply, eb,
    scores_apply]
  simp only [Ideal.hostDivf_def, Ideal.addf_def, Ideal.ofBits_def, ofBits_eight]
  rfl

end Heads

section Softmax

variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x9 : (⟨S32x16, .f32⟩ : BufTy).Contents (Elt Ideal))

/-- The word 0xFF800000 is −∞. -/
private theorem ofBits_neg_inf : Ideal.ofBits .f32 0xFF800000#32 = (⊥ : EReal) := by
  simp [Ideal.ofBits, Ideal.ieee]

/-- The row (b, h, i) with key column `k` put back is (b, h, i, k). -/
private theorem lift_row (hr : S4x16x2048x2048.Reduces [3] S4x16x2048) (b : Fin 4) (h : Fin 16) (i : Fin 2048)
    (k : Fin (S4x16x2048x2048.size 3)) : hr.lift (ix3 b h i) k = ix4 b h i (⟨k.val, k.isLt⟩ : Fin 2048) := by
  funext c; apply Fin.ext
  fin_cases c <;> rfl

/-- The maximum fold from −∞ over a row is the row's supremum. -/
private theorem fold_max_bot {n : ℕ} (f : Fin n → EReal) : (Finset.univ : Finset (Fin n)).fold max ⊥ f = Finset.univ.sup f := rfl

/-- The row maximum: the largest logit of row `i`. -/
theorem rowmax_apply (b : Fin 4) (h : Fin 16) (i : Fin 2048) :
    (val_main_v61 x0 x1 x2 x3 x4 x9 : S4x16x2048.Idx → EReal) (ix3 b h i)
      = Cert.Spec.rowMax (qOf x0 x1 x2 b h) (kOf x0 x3 x4 b h) (refBias x9 h) i := by
  have hr : S4x16x2048x2048.Reduces [3] S4x16x2048 := by decide
  rw [val_main_v61_apply, val_main_v60_apply, val_main_cst_10_apply]
  unfold val_main_v59
  rw [Host.reduce_eq_fold_single FloatOps.maximumf _ _ Gen.reducesTo_S4x16x2048x2048_S4x16x2048_d3 hr Gen.h_S_, val_main_cst_9_apply]
  simp only [Ideal.maximumf_def, Ideal.ofBits_def, ofBits_neg_inf]
  rw [max_bot_left]
  have hf : ((val_main_v58 x0 x1 x2 x3 x4 x9 : S4x16x2048x2048.Idx → EReal) ∘ hr.lift (ix3 b h i))
      = fun k : Fin 2048 => Cert.Spec.logit (qOf x0 x1 x2 b h) (kOf x0 x3 x4 b h) (refBias x9 h) i k :=
    funext fun k => by
      show (val_main_v58 x0 x1 x2 x3 x4 x9 : S4x16x2048x2048.Idx → EReal) (hr.lift (ix3 b h i) k) = _
      rw [lift_row, logit_apply]
      rfl
  unfold Cert.Spec.rowMax
  rw [← fold_max_bot]
  exact congrArg (fun f : Fin 2048 → EReal => Finset.fold max ⊥ f Finset.univ) hf

/-- The shifted exponential of one logit. -/
theorem weight_apply (b : Fin 4) (h : Fin 16) (i j : Fin 2048) :
    (val_main_v65 x0 x1 x2 x3 x4 x9 : S4x16x2048x2048.Idx → EReal) (ix4 b h i j)
      = Cert.Spec.wgt (qOf x0 x1 x2 b h) (kOf x0 x3 x4 b h) (refBias x9 h) i j := by
  have em : idx_main_v62 (idx_main_v63 (ix4 b h i j)) = ix3 b h i :=
    funext fun a => Fin.ext (by match a with | ⟨0, _⟩ => rfl | ⟨1, _⟩ => rfl | ⟨2, _⟩ => rfl)
  rw [val_main_v65_apply, val_main_v64_apply, val_main_v63_apply, val_main_v62_apply, em, logit_apply, rowmax_apply]
  rfl

/-- The row sum: from 0, the sum of the row's shifted exponentials. -/
theorem den_apply (b : Fin 4) (h : Fin 16) (i : Fin 2048) :
    (val_main_v66 x0 x1 x2 x3 x4 x9 : S4x16x2048.Idx → EReal) (ix3 b h i)
      = Cert.Spec.den (qOf x0 x1 x2 b h) (kOf x0 x3 x4 b h) (refBias x9 h) i := by
  rw [val_main_v66_apply, val_main_cst_11_apply]
  simp only [Ideal.ofBits_def, Ideal.ofBits_zero_f32, zero_add]
  unfold Cert.Spec.den
  refine Finset.sum_congr rfl fun k _ => ?_
  have e : idx_main_v66 (ix3 b h i) k = ix4 b h i k :=
    funext fun a => Fin.ext (by match a with | ⟨0, _⟩ => rfl | ⟨1, _⟩ => rfl | ⟨2, _⟩ => rfl | ⟨3, _⟩ => rfl)
  rw [e, weight_apply]

/-- The softmax weight: the shifted exponential over the row sum. -/
theorem prob_apply (b : Fin 4) (h : Fin 16) (i j : Fin 2048) :
    (val_main_v69 x0 x1 x2 x3 x4 x9 : S4x16x2048x2048.Idx → EReal) (ix4 b h i j)
      = Ideal.div (Cert.Spec.wgt (qOf x0 x1 x2 b h) (kOf x0 x3 x4 b h) (refBias x9 h) i j)
          (Cert.Spec.den (qOf x0 x1 x2 b h) (kOf x0 x3 x4 b h) (refBias x9 h) i) := by
  have es : idx_main_v67 (idx_main_v68 (ix4 b h i j)) = ix3 b h i :=
    funext fun a => Fin.ext (by match a with | ⟨0, _⟩ => rfl | ⟨1, _⟩ => rfl | ⟨2, _⟩ => rfl)
  rw [val_main_v69_apply, val_main_v68_apply, val_main_v67_apply, es, weight_apply, den_apply]
  rfl

end Softmax

theorem ref_head (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x9 : (⟨S32x16, .f32⟩ : BufTy).Contents (Elt Ideal)) (b : Fin 4) (h : Fin 16) (i : Fin 2048) (d : Fin 64) :
    (val_main_v70 x0 x1 x2 x3 x4 x5 x6 x9 : S4x16x2048x64.Idx → EReal) (ix4 b h i d)
      = Cert.Spec.headOut (rX x0) (rW x1) (rB x2) (rW x3) (rB x4) (rW x5) (rB x6) (refBias x9) b h i d := by
  rw [val_main_v70_apply]
  unfold Cert.Spec.headOut Cert.Spec.attn
  refine Finset.sum_congr rfl fun k _ => ?_
  have el : lidx_main_v70 (ix4 b h i d) k = ix4 b h i k :=
    funext fun a => Fin.ext (by match a with | ⟨0, _⟩ => rfl | ⟨1, _⟩ => rfl | ⟨2, _⟩ => rfl | ⟨3, _⟩ => rfl)
  have er : ridx_main_v70 (ix4 b h i d) k = ix4 b h k d :=
    funext fun a => Fin.ext (by match a with | ⟨0, _⟩ => rfl | ⟨1, _⟩ => rfl | ⟨2, _⟩ => rfl | ⟨3, _⟩ => rfl)
  rw [el, er, prob_apply, ref_v]

end Cert.ReferenceIdeal.RefValue

end
-- ==== Proof.RefOut.lean ====
/-
  The reference program's result is the specification's layer of its argument arrays and its bias table: the scores are
  the heads' inner products divided by 8 plus the bias; the softmax subtracts each row's maximum, exponentiates and
  divides by the row's sum; the weights combine the value rows; the heads are merged back into 1024 features and the
  output projection applied.
-/
import proofs.«423465_j4655744549114_3_alg».proof.Proof.RefArgs
import proofs.«423465_j4655744549114_3_alg».proof.Proof.RefQKV
import proofs.«423465_j4655744549114_3_alg».proof.Proof.RefHead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.TcCoe Idealize.ShloMosaic.ValueIdx

/-! ## Where each stage of the output projection reads its operand -/

/-- The product's left operand at contraction position `k`: the merged heads' row (b, l) at feature `k`. -/
theorem lidx_out (b : Fin 4) (l : Fin 2048) (e k : Fin 1024) : lidx_main_v73 (ix3 b l e) k = ix3 b l k :=
  funext fun a => Fin.ext (by
    match a with
    | ⟨0, _⟩ => rfl
    | ⟨1, _⟩ => rfl
    | ⟨2, _⟩ => rfl)

/-- The product's right operand at contraction position `k`: the output weight's row `e` at feature `k`. -/
theorem ridx_out (b : Fin 4) (l : Fin 2048) (e k : Fin 1024) : ridx_main_v73 (ix3 b l e) k = ix2 e k :=
  funext fun a => Fin.ext (by
    match a with
    | ⟨0, _⟩ => rfl
    | ⟨1, _⟩ => rfl)

/-- Merging 16 heads of 64 into 1024 features: feature `k` of row (b, l) is read at head `k / 64`, place `k % 64`. -/
theorem merge_idx_out (b : Fin 4) (l : Fin 2048) (k : Fin 1024) :
    idx_main_v72 (ix3 b l k) = ix4 b l (Cert.Spec.hdOf k) (Cert.Spec.dOf k) :=
  funext fun a => Fin.ext (by
    have hb : b.val < 4 := b.isLt
    have hl : l.val < 2048 := l.isLt
    have hk : k.val < 1024 := k.isLt
    match a with
    | ⟨0, _⟩ => show ((b.val * 2048 + l.val) * 1024 + k.val) / 2097152 = b.val; omega
    | ⟨1, _⟩ => show ((b.val * 2048 + l.val) * 1024 + k.val) / 1024 % 2048 = l.val; omega
    | ⟨2, _⟩ => show ((b.val * 2048 + l.val) * 1024 + k.val) / 64 % 16 = k.val / 64; omega
    | ⟨3, _⟩ => show ((b.val * 2048 + l.val) * 1024 + k.val) % 64 = k.val % 64; omega)

/-- Moving the row axis back before the heads: entry (b, l, h, d) is read at (b, h, l, d). -/
theorem heads_idx_out (b : Fin 4) (l : Fin 2048) (h : Fin 16) (d : Fin 64) :
    idx_main_v71 (ix4 b l h d) = ix4 b h l d :=
  funext fun a => Fin.ext (by
    match a with
    | ⟨0, _⟩ => rfl
    | ⟨1, _⟩ => rfl
    | ⟨2, _⟩ => rfl
    | ⟨3, _⟩ => rfl)

/-- The output bias broadcast over batches and rows is read at the feature. -/
theorem bias_idx_out (b : Fin 4) (l : Fin 2048) (e : Fin 1024) : idx_main_v74 (idx_main_v75 (ix3 b l e)) = ix1 e :=
  funext fun a => Fin.ext (by
    match a with
    | ⟨0, _⟩ => rfl)

/-! ## The result -/

theorem ref_final (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S32x16, .f32⟩ : BufTy).Contents (Elt Ideal)) (b : Fin 4) (l : Fin 2048) (e : Fin 1024) :
    (val_main_v76 x0 x1 x2 x3 x4 x5 x6 x7 x8 x9 : S4x2048x1024.Idx → EReal) (ix3 b l e)
      = Cert.Spec.final (rX x0) (rW x1) (rB x2) (rW x3) (rB x4) (rW x5) (rB x6) (rW x7) (rB x8) (refBias x9) b l e := by
  rw [val_main_v76_apply, val_main_v73_apply, val_main_v75_apply, val_main_v74_apply, bias_idx_out]
  unfold Cert.Spec.final
  refine congrArg₂ (· + ·) (Finset.sum_congr rfl fun k _ => ?_) rfl
  rw [lidx_out, ridx_out, val_main_v72_apply, merge_idx_out, val_main_v71_apply, heads_idx_out, ref_head]

end Cert.ReferenceIdeal.RefValue

end
-- ==== Proof.Bias.lean ====
/-
  The bias table the attention launch finds is the reference's bias table. Both programs compute the bucket of every
  (query row, key row) by the same operations on the same constants, an array of integers that depends on no input; the
  kernel program gathers the columns of the transposed 16 x 32 table by it, the reference gathers the rows of the 32 x 16
  table and moves the head axis to the front: entry (h, i, j) is in both the table's entry (bucket of (i, j), h). A
  gather of real entries is real.
-/
import proofs.«423465_j4655744549114_3_alg».proof.Proof.KerArgs
import proofs.«423465_j4655744549114_3_alg».proof.Proof.RefArgs
import proofs.«423465_j4655744549114_3_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Proof.Bias

open Idealize.ShloMosaic Idealize.ShloMosaic.TcCoe Idealize.ShloMosaic.ValueIdx
open Idealize.SL Idealize.SL.Sem

/-! ## The two gathers read at an index -/

section Gathers
variable {α : Type} {w : Nat}

/-- The gather of columns of a 16 x 32 table by a [2048, 2048, 1] array of start indices, read at (h, i, j): the table
    at row `h` and the column that is the start index at (i, j), read signed and clamped into [0, 31]. -/
theorem gatherK_apply (x : Cert.KernelIdeal.S16x32.Idx → α) (idx : IVec Cert.KernelIdeal.S2048x2048x1 w)
    (h : Fin 16) (i j : Fin 2048) :
    Host.gather Cert.KernelIdeal.gather_S16x32_S2048x2048x1_S16x2048x2048_0_1_n_n_1_2_161 x idx (ix3 h i j)
      = x (ix2 h ⟨min (idx (ix3 i j (0 : Fin 1))).toInt.toNat 31, by omega⟩) := by
  unfold Host.gather
  congr 1
  funext a
  refine Fin.ext ?_
  match a with
  | ⟨0, _⟩ =>
    show Cert.KernelIdeal.gather_S16x32_S2048x2048x1_S16x2048x2048_0_1_n_n_1_2_161.start (ix3 h i j) idx 0
      + Cert.KernelIdeal.gather_S16x32_S2048x2048x1_S16x2048x2048_0_1_n_n_1_2_161.batchCoord (ix3 h i j) 0
      + Cert.KernelIdeal.gather_S16x32_S2048x2048x1_S16x2048x2048_0_1_n_n_1_2_161.offCoord (ix3 h i j) 0 = h.val
    rw [GatherDims.batchCoord_eq_zero _ _ _ (by decide)]
    have hs : Cert.KernelIdeal.gather_S16x32_S2048x2048x1_S16x2048x2048_0_1_n_n_1_2_161.start (ix3 h i j) idx 0 = 0 := by
      unfold GatherDims.start; rw [dif_neg (by decide)]
    have ho : Cert.KernelIdeal.gather_S16x32_S2048x2048x1_S16x2048x2048_0_1_n_n_1_2_161.offCoord (ix3 h i j) 0 = h.val := by
      unfold GatherDims.offCoord; rw [dif_pos (by decide)]; rfl
    rw [hs, ho]; omega
  | ⟨1, _⟩ =>
    show Cert.KernelIdeal.gather_S16x32_S2048x2048x1_S16x2048x2048_0_1_n_n_1_2_161.start (ix3 h i j) idx 1
      + Cert.KernelIdeal.gather_S16x32_S2048x2048x1_S16x2048x2048_0_1_n_n_1_2_161.batchCoord (ix3 h i j) 1
      + Cert.KernelIdeal.gather_S16x32_S2048x2048x1_S16x2048x2048_0_1_n_n_1_2_161.offCoord (ix3 h i j) 1
      = min (idx (ix3 i j (0 : Fin 1))).toInt.toNat 31
    rw [GatherDims.batchCoord_eq_zero _ _ _ (by decide), GatherDims.offCoord_eq_zero _ _ _ (by decide)]
    simp only [Nat.add_zero]
    unfold GatherDims.start
    rw [dif_pos (by decide)]
    have hsi : Cert.KernelIdeal.gather_S16x32_S2048x2048x1_S16x2048x2048_0_1_n_n_1_2_161.siIdx (ix3 h i j)
        ⟨List.idxOf (1 : Fin Cert.KernelIdeal.S16x32.rank) Cert.KernelIdeal.gather_S16x32_S2048x2048x1_S16x2048x2048_0_1_n_n_1_2_161.startIndexMap,
          List.idxOf_lt_length_iff.2 (by decide)⟩ = ix3 i j (0 : Fin 1) := by
      funext b; refine Fin.ext ?_
      match b with
      | ⟨0, _⟩ => rfl
      | ⟨1, _⟩ => rfl
      | ⟨2, _⟩ => rfl
    rw [hsi]
    rfl

/-- The gather of rows of a 32 x 16 table by the same kind of array, read at (i, j, h): the table at the row that is the
    start index at (i, j), read signed and clamped into [0, 31], and column `h`. -/
theorem gatherR_apply (x : Cert.ReferenceIdeal.S32x16.Idx → α) (idx : IVec Cert.ReferenceIdeal.S2048x2048x1 w)
    (i j : Fin 2048) (h : Fin 16) :
    Host.gather Cert.ReferenceIdeal.gather_S32x16_S2048x2048x1_S2048x2048x16_2_0_n_n_0_2_116 x idx (ix3 i j h)
      = x (ix2 ⟨min (idx (ix3 i j (0 : Fin 1))).toInt.toNat 31, by omega⟩ h) := by
  unfold Host.gather
  congr 1
  funext a
  refine Fin.ext ?_
  match a with
  | ⟨0, _⟩ =>
    show Cert.ReferenceIdeal.gather_S32x16_S2048x2048x1_S2048x2048x16_2_0_n_n_0_2_116.start (ix3 i j h) idx 0
      + Cert.ReferenceIdeal.gather_S32x16_S2048x2048x1_S2048x2048x16_2_0_n_n_0_2_116.batchCoord (ix3 i j h) 0
      + Cert.ReferenceIdeal.gather_S32x16_S2048x2048x1_S2048x2048x16_2_0_n_n_0_2_116.offCoord (ix3 i j h) 0
      = min (idx (ix3 i j (0 : Fin 1))).toInt.toNat 31
    rw [GatherDims.batchCoord_eq_zero _ _ _ (by decide), GatherDims.offCoord_eq_zero _ _ _ (by decide)]
    simp only [Nat.add_zero]
    unfold GatherDims.start
    rw [dif_pos (by decide)]
    have hsi : Cert.ReferenceIdeal.gather_S32x16_S2048x2048x1_S2048x2048x16_2_0_n_n_0_2_116.siIdx (ix3 i j h)
        ⟨List.idxOf (0 : Fin Cert.ReferenceIdeal.S32x16.rank) Cert.ReferenceIdeal.gather_S32x16_S2048x2048x1_S2048x2048x16_2_0_n_n_0_2_116.startIndexMap,
          List.idxOf_lt_length_iff.2 (by decide)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show Cert.ReferenceIdeal.gather_S32x16_S2048x2048x1_S2048x2048x16_2_0_n_n_0_2_116.start (ix3 i j h) idx 1
      + Cert.ReferenceIdeal.gather_S32x16_S2048x2048x1_S2048x2048x16_2_0_n_n_0_2_116.batchCoord (ix3 i j h) 1
      + Cert.ReferenceIdeal.gather_S32x16_S2048x2048x1_S2048x2048x16_2_0_n_n_0_2_116.offCoord (ix3 i j h) 1 = h.val
    rw [GatherDims.batchCoord_eq_zero _ _ _ (by decide)]
    have hs : Cert.ReferenceIdeal.gather_S32x16_S2048x2048x1_S2048x2048x16_2_0_n_n_0_2_116.start (ix3 i j h) idx 1 = 0 := by
      unfold GatherDims.start; rw [dif_neg (by decide)]
    have ho : Cert.ReferenceIdeal.gather_S32x16_S2048x2048x1_S2048x2048x16_2_0_n_n_0_2_116.offCoord (ix3 i j h) 1 = h.val := by
      unfold GatherDims.offCoord; rw [dif_pos (by decide)]; rfl
    rw [hs, ho]; omega

end Gathers

/-! ## The bucket array: one closed term in both programs -/

section Index
open Cert.KernelIdeal Cert.KernelIdeal.Gen Cert.KernelIdeal.Hand
variable {F : FTy → Type} [FloatOps F]

/-- The relative position (key row minus query row, negated), after the first stretch: the reference's. -/
theorem v21_eq (Y : Valuation τ sig (Elt F)) :
    (StableHlo.after hostOps1 Y (Proc.devRef .tc main_v21) : (⟨S2048x2048, .i32⟩ : BufTy).Contents (Elt F))
      = Cert.ReferenceIdeal.Read.val_main_v27 (F := F) := by
  dsimp only [hostOps1]
  after_results
  rfl

/-- Whether it is below sixteen. -/
theorem v23_eq (Y : Valuation τ sig (Elt F)) :
    (StableHlo.after hostOps1 Y (Proc.devRef .tc main_v23) : (⟨S2048x2048, .i1⟩ : BufTy).Contents (Elt F))
      = Cert.ReferenceIdeal.Read.val_main_v29 (F := F) := by
  dsimp only [hostOps1]
  after_results
  rfl

/-- The logarithmic bucket of the large positions, capped at thirty-one. -/
theorem v38_eq (Y : Valuation τ sig (Elt F)) :
    (StableHlo.after hostOps1 Y (Proc.devRef .tc main_v38) : (⟨S2048x2048, .i32⟩ : BufTy).Contents (Elt F))
      = Cert.ReferenceIdeal.Read.val_main_v44 (F := F) := by
  dsimp only [hostOps1]
  after_results
  rfl

/-- The choice between the two, after the second stretch. -/
theorem v39_eq (Y : Valuation τ sig (Elt F))
    (h21 : (Y (Proc.devRef .tc main_v21) : (⟨S2048x2048, .i32⟩ : BufTy).Contents (Elt F)) = Cert.ReferenceIdeal.Read.val_main_v27 (F := F))
    (h23 : (Y (Proc.devRef .tc main_v23) : (⟨S2048x2048, .i1⟩ : BufTy).Contents (Elt F)) = Cert.ReferenceIdeal.Read.val_main_v29 (F := F))
    (h38 : (Y (Proc.devRef .tc main_v38) : (⟨S2048x2048, .i32⟩ : BufTy).Contents (Elt F)) = Cert.ReferenceIdeal.Read.val_main_v44 (F := F)) :
    (StableHlo.after hostOps1_1 Y (Proc.devRef .tc main_v39) : (⟨S2048x2048, .i32⟩ : BufTy).Contents (Elt F))
      = Cert.ReferenceIdeal.Read.val_main_v45 (F := F) := by
  dsimp only [hostOps1_1]
  after_results
  rw [h21, h23, h38]
  rfl

/-- The gathered table after the third stretch, from any contents whose choice array is the reference's: the columns of
    the transposed table gathered by the reference's bucket array. -/
theorem v50_eq (Y : Valuation τ sig (Elt F))
    (h39 : (Y (Proc.devRef .tc main_v39) : (⟨S2048x2048, .i32⟩ : BufTy).Contents (Elt F)) = Cert.ReferenceIdeal.Read.val_main_v45 (F := F)) :
    (StableHlo.after hostOps1_2 Y (Proc.devRef .tc main_v50) : (⟨S16x2048x2048, .bf16⟩ : BufTy).Contents (Elt F))
      = Host.gather gather_S16x32_S2048x2048x1_S16x2048x2048_0_1_n_n_1_2_161
          (transpose S16x32 [1, 0] (truncf .bf16 (Y (Proc.devRef .tc main_arg9) : (⟨S32x16, .f32⟩ : BufTy).Contents (Elt F)) bitsLt_bf16_f32)
            transposes_S32x16_S16x32_1_0)
          (Cert.ReferenceIdeal.Read.val_main_v53 (F := F)) := by
  dsimp only [hostOps1_2]
  after_results_simp
  rw [h39]
  rfl

end Index

/-! ## The table the attention launch finds -/

section Ker
open Cert.KernelIdeal Cert.KernelIdeal.Gen Cert.KernelIdeal.Hand
variable {F : FTy → Type} [FloatOps F]
variable (m : (ℓ : Loc nD τ sig) → Buf (Elt F) ℓ) (ρ : Dev nD → PrngReg)

/-- The table argument reaches the last stretch before the attention launch as launched: nothing writes it. -/
theorem W4_arg9 (c : Dev nD) : W4 m ρ c (Proc.devRef .tc main_arg9) = m ((c.tc : Thread nD τ).loc main_arg9) :=
  calc W4 m ρ c (Proc.devRef .tc main_arg9)
      = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c.tc : Thread nD τ).loc main_arg9) := rfl

/-- The bias table as the attention launch finds it: the columns of the transposed table argument gathered by the
    reference's bucket array. -/
theorem V5_v50 (c : Dev nD) :
    (V5 m ρ c main_v50 : (⟨S16x2048x2048, .bf16⟩ : BufTy).Contents (Elt F))
      = Host.gather gather_S16x32_S2048x2048x1_S16x2048x2048_0_1_n_n_1_2_161
          (transpose S16x32 [1, 0] (truncf .bf16 (m ((c.tc : Thread nD τ).loc main_arg9) : (⟨S32x16, .f32⟩ : BufTy).Contents (Elt F)) bitsLt_bf16_f32)
            transposes_S32x16_S16x32_1_0)
          (Cert.ReferenceIdeal.Read.val_main_v53 (F := F)) := by
  have h39 : (W4 m ρ c (Proc.devRef .tc main_v39) : (⟨S2048x2048, .i32⟩ : BufTy).Contents (Elt F)) = Cert.ReferenceIdeal.Read.val_main_v45 (F := F) :=
    v39_eq (W3 m ρ c) (v21_eq _) (v23_eq _) (v38_eq _)
  show StableHlo.after hostOps1_2 (W4 m ρ c) (Proc.devRef .tc main_v50) = _
  rw [v50_eq (W4 m ρ c) h39, W4_arg9 m ρ c]

end Ker

/-- The launch's table at (h, i, j): the table argument at (bucket of (i, j) read signed and clamped, h). -/
theorem ker_at (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (h : Fin 16) (i j : Fin 2048) :
    (Cert.KernelIdeal.Hand.V5 m ρ c Cert.KernelIdeal.main_v50 : Cert.KernelIdeal.S16x2048x2048.Idx → EReal) (ix3 h i j)
      = (m ((c.tc : Thread Cert.KernelIdeal.nD Cert.KernelIdeal.τ).loc Cert.KernelIdeal.main_arg9) : Cert.KernelIdeal.S32x16.Idx → EReal)
          (ix2 ⟨min ((Cert.ReferenceIdeal.Read.val_main_v53 (F := Ideal) : Cert.KernelIdeal.S2048x2048x1.Idx → BitVec 32) (ix3 i j (0 : Fin 1))).toInt.toNat 31, by omega⟩ h) := by
  rw [show (Cert.KernelIdeal.Hand.V5 m ρ c Cert.KernelIdeal.main_v50 : Cert.KernelIdeal.S16x2048x2048.Idx → EReal) = _ from V5_v50 (F := Ideal) m ρ c]
  rw [gatherK_apply, transpose_ix2_apply]
  rfl

variable (m : (ℓ : Loc Cert.KernelIdeal.nD Cert.KernelIdeal.τ Cert.KernelIdeal.sig) → Buf (Elt Ideal) ℓ) (ρ : Dev Cert.KernelIdeal.nD → PrngReg)

theorem bias_eq (c : Dev Cert.KernelIdeal.nD) :
    Cert.KernelIdeal.Val.kerBias m ρ c
      = Cert.ReferenceIdeal.RefValue.refBias (m ((c.tc : Thread Cert.KernelIdeal.nD Cert.KernelIdeal.τ).loc Cert.KernelIdeal.main_arg9)) := by
  funext h i j
  show (Cert.KernelIdeal.Hand.V5 m ρ c Cert.KernelIdeal.main_v50 : Cert.KernelIdeal.S16x2048x2048.Idx → EReal) (ix3 h i j)
    = (Cert.ReferenceIdeal.Read.val_main_v55 (F := Ideal) (m ((c.tc : Thread Cert.KernelIdeal.nD Cert.KernelIdeal.τ).loc Cert.KernelIdeal.main_arg9)) : Cert.ReferenceIdeal.S16x2048x2048.Idx → EReal) (ix3 h i j)
  rw [ker_at, Cert.ReferenceIdeal.Read.val_main_v55_apply]
  rw [show Cert.ReferenceIdeal.Read.idx_main_v55 (ix3 h i j) = ix3 i j h from by
    funext a; match a with | ⟨0, _⟩ => rfl | ⟨1, _⟩ => rfl | ⟨2, _⟩ => rfl]
  unfold Cert.ReferenceIdeal.Read.val_main_v54
  rw [gatherR_apply]

theorem bias_real (c : Dev Cert.KernelIdeal.nD)
    (h9 : ∀ i, ∃ r : ℝ, (m ((c.tc : Thread Cert.KernelIdeal.nD Cert.KernelIdeal.τ).loc Cert.KernelIdeal.main_arg9) : Cert.KernelIdeal.S32x16.Idx → EReal) i = (r : EReal)) :
    ∀ i, ∃ r : ℝ, (Cert.KernelIdeal.Hand.V5 m ρ c Cert.KernelIdeal.main_v50 : Cert.KernelIdeal.S16x2048x2048.Idx → EReal) i = (r : EReal) := by
  intro i
  obtain ⟨h, a, b, rfl⟩ : ∃ (h : Fin 16) (a b : Fin 2048), i = ix3 h a b := ⟨i 0, i 1, i 2, eq_ix3 (n0 := 16) (n1 := 2048) (n2 := 2048) i⟩
  show ∃ r : ℝ, (Cert.KernelIdeal.Hand.V5 m ρ c Cert.KernelIdeal.main_v50 : Cert.KernelIdeal.S16x2048x2048.Idx → EReal) (ix3 h a b) = (r : EReal)
  rw [ker_at]
  exact h9 _

end Cert.Proof.Bias

end
-- ==== Proof.ArgsReal.lean ====
/-
  Under the precondition every entry of every argument array is a real number: the precondition says, array by
  array, that every entry's absolute value is below plus infinity.
-/
import proofs.«423465_j4655744549114_3_alg».proof.Defs
import proofs.«423465_j4655744549114_3_alg».proof.Proof.Gen.Pre_finite_inputs
import Idealize.ShloMosaic.Lib.ReduceAll
import proofs.«423465_j4655744549114_3_alg».proof.Proof.KerArgs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- An extended real whose absolute value is below plus infinity is a real. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One array: if the conjunction over all entries of "the absolute value is below plus infinity" is true, every entry
    is a real. -/
private theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x) (broadcastInDim S ![] hb (constant Cert.Pre_finite_inputs.S_ .f32 0x7F800000#32)))
          (constantI Cert.Pre_finite_inputs.S_ 1 1#1) hr hu ix0 = 1#1)
    (i : S.Idx) : ∃ r : ℝ, x i = (r : EReal) :=
  -- the rank-0 shape has one index
  haveI : Subsingleton Cert.Pre_finite_inputs.S_.Idx := ⟨fun a b => funext fun d => d.elim0⟩
  real_of_abs_lt_inf (x i) (Host.reduce_andi_all _ _ hr hu ix0 e i)

theorem args_real (hpre : Cert.Pre_KernelIdeal m) (c : Dev nD) : ArgsReal m c := by
  have h := congrFun (hpre c) ValueIdx.ix0
  dsimp only [Cert.Pre_finite_inputs.fn, Cert.Pre_finite_inputs.fn_part1, Cert.Pre_finite_inputs.fn_part2] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  unfold ArgsReal
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7,
    real_of_all _ _ _ _ h8, real_of_all _ _ _ _ h9⟩

end Cert.KernelIdeal.Val

end
-- ==== Proof.Join.lean ====
/-
  The two programs' results are one function of the arguments. Over the extended reals, from memories that agree on the
  ten argument arrays and satisfy the precondition (every entry real), the reference's result array and the kernel
  program's last result buffer are both the specification's layer of the arguments (the kernel program's over the bias
  table its attention launch finds, the reference's over its own bias table, and the two tables are equal).
-/
import proofs.«423465_j4655744549114_3_alg».proof.Defs
import proofs.«423465_j4655744549114_3_alg».proof.Proof.KerOut
import proofs.«423465_j4655744549114_3_alg».proof.Proof.RefOut
import proofs.«423465_j4655744549114_3_alg».proof.Proof.Bias
import proofs.«423465_j4655744549114_3_alg».proof.Proof.ArgsReal

noncomputable section

namespace Cert.Proof

open Idealize.ShloMosaic Idealize.ShloMosaic.TcCoe Idealize.ShloMosaic.ValueIdx Idealize.SL.Sem

theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Value.res_main_v76 m' c : Buf (Elt Ideal) ((c.tc : Thread Cert.KernelIdeal.nD Cert.KernelIdeal.τ).loc Cert.KernelIdeal.main_v57))
      = Cert.KernelIdeal.Hand.W9 m ρ c (Proc.devRef .tc Cert.KernelIdeal.main_v57) := by
  obtain ⟨h0, h1, h2, h3, h4, h5, h6, h7, h8, h9⟩ := hagree
  have hargs := Cert.KernelIdeal.Val.args_real m hpre c
  have hbias := Cert.Proof.Bias.bias_real m ρ c hargs.2.2.2.2.2.2.2.2.2
  rw [Cert.ReferenceIdeal.Read.val_main_v76_eq, h0, h1, h2, h3, h4, h5, h6, h7, h8, h9]
  funext i
  obtain ⟨b, l, e, rfl⟩ : ∃ (b : Fin 4) (l : Fin 2048) (e : Fin 1024), i = ix3 b l e := ⟨i 0, i 1, i 2, eq_ix3 i⟩
  refine (Cert.ReferenceIdeal.RefValue.ref_final _ _ _ _ _ _ _ _ _ _ b l e).trans ?_
  refine Eq.trans ?_ (Cert.KernelIdeal.Val.ker_final m ρ c hargs hbias b l e).symm
  rw [Cert.Proof.Bias.bias_eq m ρ c]

end Cert.Proof

end
-- ==== Proof.lean ====
/-
  The certificate's claims. The kernel program is three launches among host operations: a fused projection
  x·[Wq|Wk|Wv] + [bq|bk|bv] of the flattened input, a streaming softmax attention over sixteen heads with an additive
  relative-position bias (eight key blocks per query block, a running maximum, normaliser and weighted sum carried
  between them), and the output projection. Each program's frame — it runs to the end, faults nowhere and leaves its
  ten argument arrays unchanged — comes from the run of its items with every buffer's contents named at each boundary
  (the same text serves the word-level and the idealized kernel program; the reference is host operations only). No
  operation was rewritten for the idealized program, so there is nothing to preserve. Over the extended reals, from
  memories agreeing on the arguments, both programs end with the same result array: each is the specification's layer
  — projections, per-head softmax attention with the logits divided by 8 (the kernel multiplies by 0.125, the same
  number), the shared bias table, output projection — and the streaming form equals the plain softmax because, for real
  logits, exp (m − m')·exp (s − m) = exp (s − m') and the first block's rescaling factor exp (−∞) is 0.
-/
import proofs.«423465_j4655744549114_3_alg».proof.Defs
import proofs.«423465_j4655744549114_3_alg».proof.Proof.Gen.Kernel
import proofs.«423465_j4655744549114_3_alg».proof.Proof.Gen.KernelIdeal
import proofs.«423465_j4655744549114_3_alg».proof.Proof.Gen.ReferenceIdeal
import proofs.«423465_j4655744549114_3_alg».proof.Proof.Gen.Pre_finite_inputs
import proofs.«423465_j4655744549114_3_alg».proof.Proof.Kernel.Run
import proofs.«423465_j4655744549114_3_alg».proof.Proof.KernelIdeal.Run
import proofs.«423465_j4655744549114_3_alg».proof.Proof.RefRun
import proofs.«423465_j4655744549114_3_alg».proof.Proof.Join
import Idealize.ShloMosaic.Adequacy
import Idealize.ShloMosaic.Init

noncomputable section

namespace Cert.Proof

open Idealize.ShloMosaic Idealize.SL.Sem

/-- The word-level kernel program's frame: the run of its items, read at the arguments. -/
theorem frame_k : Cert.frame_Kernel := fun m ρ _ => Cert.Kernel.Hand.frame m ρ

/-- The idealized kernel program's frame: the same run at the extended reals. -/
theorem frame_ki : Cert.frame_KernelIdeal := fun m ρ _ => Cert.KernelIdeal.Hand.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the idealized program. -/
theorem preserves : Cert.preserves_Kernel_KernelIdeal := trivial

/-- Both programs run, leave their arguments unchanged and end with equal result arrays: the kernel program's last
    buffer, which the reference's result equals entry by entry (`result_eq`). -/
theorem algebraic : Cert.algebraic_KernelIdeal_ReferenceIdeal := by
  intro m ρ m' ρ' hpre hagree
  refine ⟨fun c => Cert.KernelIdeal.Hand.W9 m ρ c (Proc.devRef .tc Cert.KernelIdeal.main_v57),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  exact result_eq m ρ m' hpre c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
